-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S1x8 .f32) (main_arg17 : FVec F S1 .f32) (main_arg18 : FVec F S1 .f32) (main_arg19 : FVec F S1 .f32) (main_v63 : IVec S_ 1) (main_v67 : IVec S_ 1) : IVec S_ 1 :=
  let main_v68 : IVec S_ 1 := andi main_v63 main_v67
  let main_v69 : FVec F S1x8 .f32 := Host.absf main_arg16
  let main_cst_26 : FVec F S_ .f32 := constant S_ .f32 0x7F800000#32
  let main_v70 : FVec F S1x8 .f32 := broadcastInDim S1x8 ![] bcast_S_S1x8 main_cst_26
  let main_v71 : IVec S1x8 1 := cmpf .olt main_v69 main_v70
  let main_c_27 : IVec S_ 1 := constantI S_ 1 1#1
  let main_v72 : IVec S_ 1 := (fun x v => Host.reduce IntOp.andi x v reducesTo_S1x8_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S8 .f32) (main_arg14 : FVec F S1x8 .f32) (main_arg15 : FVec F S1x8 .f32) (main_arg16 : FVec F S1x8 .f32) (main_arg17 : FVec F S1 .f32) (main_arg18 : FVec F S1 .f32) (main_arg19 : FVec F S1 .f32) (main_v48 : IVec S_ 1) (main_v49 : FVec F S32x8 .f32) (main_v50 : FVec F S32x8 .f32) : IVec S_ 1 :=
  let main_v51 : IVec S32x8 1 := cmpf .olt main_v49 main_v50
  let main_c_19 : IVec S_ 1 := constantI S_ 1 1#1
  let main_v52 : IVec S_ 1 := (fun x v => Host.reduce IntOp.andi x v reducesTo_S32x8_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S1x8 .f32 := Host.absf main_arg14
  let main_cst_22 : FVec F S_ .f32 := constant S_ .f32 0x7F800000#32
  let main_v60 : FVec F S1x8 .f32 := broadcastInDim S1x8 ![] bcast_S_S1x8 main_cst_22
  let main_v61 : IVec S1x8 1 := cmpf .olt main_v59 main_v60
  let main_c_23 : IVec S_ 1 := constantI S_ 1 1#1
  let main_v62 : IVec S_ 1 := (fun x v => Host.reduce IntOp.andi x v reducesTo_S1x8_S_d0_1 h_S_) main_v61 main_c_23
  let main_v63 : IVec S_ 1 := andi main_v58 main_v62
  let main_v64 : FVec F S1x8 .f32 := Host.absf main_arg15
  let main_cst_24 : FVec F S_ .f32 := constant S_ .f32 0x7F800000#32
  let main_v65 : FVec F S1x8 .f32 := broadcastInDim S1x8 ![] bcast_S_S1x8 main_cst_24
  let main_v66 : IVec S1x8 1 := cmpf .olt main_v64 main_v65
  let main_c_25 : IVec S_ 1 := constantI S_ 1 1#1
  let main_v67 : IVec S_ 1 := (fun x v => Host.reduce IntOp.andi x v reducesTo_S1x8_S_d0_1 h_S_) main_v66 main_c_25
  fn_part4 (F := F) main_arg16 main_arg17 main_arg18 main_arg19 main_v63 main_v67

def fn_part2 {F : FTy → Type} [FloatOps F] (main_arg9 : FVec F S32 .f32) (main_arg10 : FVec F S32 .f32) (main_arg11 : FVec F S32 .f32) (main_arg12 : FVec F S32x8 .f32) (main_arg13 : FVec F S8 .f32) (main_arg14 : FVec F S1x8 .f32) (main_arg15 : FVec F S1x8 .f32) (main_arg16 : FVec F S1x8 .f32) (main_arg17 : FVec F S1 .f32) (main_arg18 : FVec F S1 .f32) (main_arg19 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x8 .f32 := Host.absf main_arg12
  let main_cst_18 : FVec F S_ .f32 := constant S_ .f32 0x7F800000#32
  let main_v50 : FVec F S32x8 .f32 := broadcastInDim S32x8 ![] bcast_S_S32x8 main_cst_18
  fn_part3 (F := F) main_arg13 main_arg14 main_arg15 main_arg16 main_arg17 main_arg18 main_arg19 main_v48 main_v49 main_v50

def fn_part1 {F : FTy → Type} [FloatOps F] (main_arg6 : FVec F S128x64 .f32) (main_arg7 : FVec F S64 .f32) (main_arg8 : FVec F S64x32 .f32) (main_arg9 : FVec F S32 .f32) (main_arg10 : FVec F S32 .f32) (main_arg11 : FVec F S32 .f32) (main_arg12 : FVec F S32x8 .f32) (main_arg13 : FVec F S8 .f32) (main_arg14 : FVec F S1x8 .f32) (main_arg15 : FVec F S1x8 .f32) (main_arg16 : FVec F S1x8 .f32) (main_arg17 : FVec F S1 .f32) (main_arg18 : FVec F S1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x640000 32) (main_arg2 : IVec S100000 32) (main_arg3 : FVec F S640000 .f32) (main_arg4 : FVec F S128x128 .f32) (main_arg5 : FVec F S128 .f32) (main_arg6 : FVec F S128x64 .f32) (main_arg7 : FVec F S64 .f32) (main_arg8 : FVec F S64x32 .f32) (main_arg9 : FVec F S32 .f32) (main_arg10 : FVec F S32 .f32) (main_arg11 : FVec F S32 .f32) (main_arg12 : FVec F S32x8 .f32) (main_arg13 : FVec F S8 .f32) (main_arg14 : FVec F S1x8 .f32) (main_arg15 : FVec F S1x8 .f32) (main_arg16 : FVec F S1x8 .f32) (main_arg17 : FVec F S1 .f32) (main_arg18 : FVec F S1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1x8 : Shape := ⟨2, ![1, 8]⟩
abbrev S1 : Shape := ⟨1, ![1]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S10000x128 : Shape := ⟨2, ![10000, 128]⟩
abbrev S740000x128 : Shape := ⟨2, ![740000, 128]⟩
abbrev S1x128 : Shape := ⟨2, ![1, 128]⟩
abbrev S100000x64 : Shape := ⟨2, ![100000, 64]⟩
abbrev S10000x64 : Shape := ⟨2, ![10000, 64]⟩
abbrev S740000x64 : Shape := ⟨2, ![740000, 64]⟩
abbrev S1x64 : Shape := ⟨2, ![1, 64]⟩
abbrev S100000x32 : Shape := ⟨2, ![100000, 32]⟩
abbrev S10000x32 : Shape := ⟨2, ![10000, 32]⟩
abbrev S740000x32 : Shape := ⟨2, ![740000, 32]⟩
abbrev S1x32 : Shape := ⟨2, ![1, 32]⟩
abbrev S100000x1 : Shape := ⟨2, ![100000, 1]⟩
abbrev S64x1 : Shape := ⟨2, ![64, 1]⟩
abbrev S10000x1 : Shape := ⟨2, ![10000, 1]⟩
abbrev S1x1 : Shape := ⟨2, ![1, 1]⟩
abbrev S64x8 : Shape := ⟨2, ![64, 8]⟩

abbrev nBuf : Space → Nat
  | .hbm => 162
  | .vmem => 45
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S640000, .f32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32, .f32⟩
  | 11 => ⟨S32, .f32⟩
  | 12 => ⟨S32x8, .f32⟩
  | 13 => ⟨S8, .f32⟩
  | 14 => ⟨S1x8, .f32⟩
  | 15 => ⟨S1x8, .f32⟩
  | 16 => ⟨S1x8, .f32⟩
  | 17 => ⟨S1, .f32⟩
  | 18 => ⟨S1, .f32⟩
  | 19 => ⟨S1, .f32⟩
  | 20 => ⟨S100000, .i32⟩
  | 21 => ⟨S1x640000, .i32⟩
  | 22 => ⟨S640000, .i32⟩
  | 23 => ⟨S740000, .i32⟩
  | 24 => ⟨S1x640000, .i32⟩
  | 25 => ⟨S640000, .i32⟩
  | 26 => ⟨S740000, .i32⟩
  | 27 => ⟨S_, .f32⟩
  | 28 => ⟨S100000, .f32⟩
  | 29 => ⟨S740000, .f32⟩
  | 30 => ⟨S_, .f32⟩
  | 31 => ⟨S100000, .f32⟩
  | 32 => ⟨S740000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S740000, .i32⟩
  | 47 => ⟨S740000, .i1⟩
  | 48 => ⟨S_, .i32⟩
  | 49 => ⟨S740000, .i32⟩
  | 50 => ⟨S740000, .i32⟩
  | 51 => ⟨S740000, .i32⟩
  | 52 => ⟨S740000x1, .i32⟩
  | 53 => ⟨S740000, .f32⟩
  | 54 => ⟨S740000, .f32⟩
  | 55 => ⟨S_, .i32⟩
  | 56 => ⟨S740000, .i32⟩
  | 57 => ⟨S740000, .i1⟩
  | 58 => ⟨S_, .i32⟩
  | 59 => ⟨S740000, .i32⟩
  | 60 => ⟨S740000, .i32⟩
  | 61 => ⟨S740000, .i32⟩
  | 62 => ⟨S740000x1, .i32⟩
  | 63 => ⟨S740000, .f32⟩
  | 64 => ⟨S740000, .f32⟩
  | 65 => ⟨S100000x128, .f32⟩
  | 66 => ⟨S_, .i32⟩
  | 67 => ⟨S740000, .i32⟩
  | 68 => ⟨S740000, .i1⟩
  | 69 => ⟨S_, .i32⟩
  | 70 => ⟨S740000, .i32⟩
  | 71 => ⟨S740000, .i32⟩
  | 72 => ⟨S740000, .i32⟩
  | 73 => ⟨S740000x1, .i32⟩
  | 74 => ⟨S740000x128, .f32⟩
  | 75 => ⟨S740000x1, .f32⟩
  | 76 => ⟨S740000x128, .f32⟩
  | 77 => ⟨S740000x128, .f32⟩
  | 78 => ⟨S_, .f32⟩
  | 79 => ⟨S100000x128, .f32⟩
  | 80 => ⟨S740000x1, .i32⟩
  | 81 => ⟨S100000x128, .f32⟩
  | 82 => ⟨S1x128, .f32⟩
  | 83 => ⟨S100000x128, .f32⟩
  | 84 => ⟨S100000x64, .f32⟩
  | 85 => ⟨S_, .i32⟩
  | 86 => ⟨S740000, .i32⟩
  | 87 => ⟨S740000, .i1⟩
  | 88 => ⟨S_, .i32⟩
  | 89 => ⟨S740000, .i32⟩
  | 90 => ⟨S740000, .i32⟩
  | 91 => ⟨S740000, .i32⟩
  | 92 => ⟨S740000x1, .i32⟩
  | 93 => ⟨S740000x64, .f32⟩
  | 94 => ⟨S740000x1, .f32⟩
  | 95 => ⟨S740000x64, .f32⟩
  | 96 => ⟨S740000x64, .f32⟩
  | 97 => ⟨S_, .f32⟩
  | 98 => ⟨S100000x64, .f32⟩
  | 99 => ⟨S740000x1, .i32⟩
  | 100 => ⟨S100000x64, .f32⟩
  | 101 => ⟨S1x64, .f32⟩
  | 102 => ⟨S100000x64, .f32⟩
  | 103 => ⟨S100000x32, .f32⟩
  | 104 => ⟨S_, .i32⟩
  | 105 => ⟨S740000, .i32⟩
  | 106 => ⟨S740000, .i1⟩
  | 107 => ⟨S_, .i32⟩
  | 108 => ⟨S740000, .i32⟩
  | 109 => ⟨S740000, .i32⟩
  | 110 => ⟨S740000, .i32⟩
  | 111 => ⟨S740000x1, .i32⟩
  | 112 => ⟨S740000x32, .f32⟩
  | 113 => ⟨S740000x1, .f32⟩
  | 114 => ⟨S740000x32, .f32⟩
  | 115 => ⟨S740000x32, .f32⟩
  | 116 => ⟨S_, .f32⟩
  | 117 => ⟨S100000x32, .f32⟩
  | 118 => ⟨S740000x1, .i32⟩
  | 119 => ⟨S100000x32, .f32⟩
  | 120 => ⟨S1x32, .f32⟩
  | 121 => ⟨S100000x32, .f32⟩
  | 122 => ⟨S100000x1, .i32⟩
  | 123 => ⟨S64x32, .f32⟩
  | 124 => ⟨S64x1, .f32⟩
  | 125 => ⟨S_, .f32⟩
  | 126 => ⟨S1x8, .f32⟩
  | 127 => ⟨S1x8, .f32⟩
  | _ => ⟨S100000x128, .f32⟩

abbrev hbmTy0_1 (i : Nat) : BufTy := match i % 128 with
  | 0 => ⟨S1x8, .f32⟩
  | 1 => ⟨S1x8, .f32⟩
  | 2 => ⟨S1x8, .i1⟩
  | 3 => ⟨S1x8, .f32⟩
  | 4 => ⟨S1x8, .f32⟩
  | 5 => ⟨S1x8, .f32⟩
  | 6 => ⟨S1x8, .f32⟩
  | 7 => ⟨S1x8, .f32⟩
  | 8 => ⟨S1x8, .f32⟩
  | 9 => ⟨S1x8, .f32⟩
  | 10 => ⟨S1x8, .f32⟩
  | 11 => ⟨S1x8, .f32⟩
  | 12 => ⟨S1x8, .f32⟩
  | 13 => ⟨S_, .f32⟩
  | 14 => ⟨S1, .f32⟩
  | 15 => ⟨S1, .f32⟩
  | 16 => ⟨S1, .f32⟩
  | 17 => ⟨S1, .f32⟩
  | 18 => ⟨S1, .i1⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1x32, .f32⟩
  | 30 => ⟨S1x32, .f32⟩
  | 31 => ⟨S1x8, .f32⟩
  | 32 => ⟨S1x1, .f32⟩
  | 33 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x1, .i32⟩
  | .local _ .vmem, ⟨31, _⟩ => ⟨S10000x1, .i32⟩
  | .local _ .vmem, ⟨32, _⟩ => ⟨S10000x32, .f32⟩
  | .local _ .vmem, ⟨33, _⟩ => ⟨S10000x32, .f32⟩
  | .local _ .vmem, ⟨34, _⟩ => ⟨S64x32, .f32⟩
  | .local _ .vmem, ⟨35, _⟩ => ⟨S64x1, .f32⟩
  | .local _ .vmem, ⟨36, _⟩ => ⟨S64x32, .f32⟩
  | .local _ .vmem, ⟨37, _⟩ => ⟨S64x1, .f32⟩
  | .local _ .vmem, ⟨38, _⟩ => ⟨S1x32, .f32⟩
  | .local _ .vmem, ⟨39, _⟩ => ⟨S1x32, .f32⟩
  | .local _ .vmem, ⟨40, _⟩ => ⟨S32x8, .f32⟩
  | .local _ .vmem, ⟨41, _⟩ => ⟨S1x8, .f32⟩
  | .local _ .vmem, ⟨42, _⟩ => ⟨S1x8, .f32⟩
  | .local _ .vmem, ⟨43, _⟩ => ⟨S1x1, .f32⟩
  | .local _ .vmem, ⟨44, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_c_8 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_v67 : Ref sig .tc := ⟨.hbm, 105, rfl⟩
abbrev main_v68 : Ref sig .tc := ⟨.hbm, 106, rfl⟩
abbrev main_c_14 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_15 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83_0 : Ref sig .tc := ⟨.hbm, 123, rfl⟩
abbrev main_v83_1 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_v5 : Ref sig .tc := ⟨.hbm, 131, rfl⟩
abbrev main_call1_v6 : Ref sig .tc := ⟨.hbm, 132, rfl⟩
abbrev main_call1_v7 : Ref sig .tc := ⟨.hbm, 133, rfl⟩
abbrev main_call1_v8 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc7_stg4_0 : Ref sig .tc := ⟨.vmem, 40, rfl⟩
abbrev cc7_stg5_0 : Ref sig .tc := ⟨.vmem, 41, rfl⟩
abbrev cc7_stg6_0 : Ref sig .tc := ⟨.vmem, 42, rfl⟩
abbrev cc7_stg7_0 : Ref sig .tc := ⟨.vmem, 43, rfl⟩
abbrev cc7_stg8_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc7_sem0_0 : DmaSem sig := 36
abbrev cc7_sem1_0 : DmaSem sig := 37
abbrev cc7_sem2_0 : DmaSem sig := 38
abbrev cc7_sem3_0 : DmaSem sig := 39
abbrev cc7_sem4_0 : DmaSem sig := 40
abbrev cc7_sem5_0 : DmaSem sig := 41
abbrev cc7_sem6_0 : DmaSem sig := 42
abbrev cc7_sem7_0 : DmaSem sig := 43
abbrev cc7_sem8_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x32 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32x8 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x8 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S740000x1_S740000x32_0_1 : S740000x1.BroadcastsInDim S740000x32 (![0, 1] : Fin 2 → Fin S740000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S100000_S100000x1 : S100000.ShapeCasts S100000x1
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  shapeCasts_S64x32_S64x32 : S64x32.ShapeCasts S64x32
  shapeCasts_S64x1_S64x1 : S64x1.ShapeCasts S64x1
  bcast_S_S1x8 : S_.BroadcastsInDim S1x8 (![] : Fin 0 → Fin S1x8.rank)
  bcast_S_S1 : S_.BroadcastsInDim S1 (![] : Fin 0 → Fin S1.rank)
  shapeCasts_S8_S1x8 : S8.ShapeCasts S1x8
  shapeCasts_S1_S1x1 : S1.ShapeCasts S1x1
  broadcasts_S64x1_S64x32 : S64x1.Broadcasts S64x32
  reduces_S64x32_S64 : S64x32.Reduces [1] S64
  shapeCasts_S64_S64x1 : S64.ShapeCasts S64x1
  broadcasts_S1x32_S64x32 : S1x32.Broadcasts S64x32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x64_S10000x64_1_0_0_1_n_n_wf : DotDims.WF S10000x128 S128x64 S10000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  dot_S10000x64_S64x32_S10000x32_1_0_0_1_n_n_wf : DotDims.WF S10000x64 S64x32 S10000x32 [1] [0] [0] [1] [] []
  gather_S100000x32_S740000x1_S740000x32_1_0_n_n_0_1_132_wf : GatherDims.WF S100000x32 S740000x1 S740000x32 [1] [0] [] [0] [] 1 ![1, 32]
  scatter_S100000x32_S740000x1_S740000x32_1_0_0_1_wf : ScatterDims.WF S100000x32 S740000x1 S740000x32 [1] [0] [0] 1
  dot_S10000x64_S10000x32_S64x32_0_0_1_1_n_n_wf : DotDims.WF S10000x64 S10000x32 S64x32 [0] [0] [1] [1] [] []
  dot_S10000x64_S10000x1_S64x1_0_0_1_1_n_n_wf : DotDims.WF S10000x64 S10000x1 S64x1 [0] [0] [1] [1] [] []
  dot_S64x32_S32x8_S64x8_1_0_0_1_n_n_wf : DotDims.WF S64x32 S32x8 S64x8 [1] [0] [0] [1] [] []
  dot_S64x8_S1x8_S64x1_1_1_0_0_n_n_wf : DotDims.WF S64x8 S1x8 S64x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x1.size a ≤ S100000x1.size a
  hwx6_0 : ∀ i : grid6.Coords, EltTy.bits .i32 = 32 ∨ (Rect.block (s := S100000x1) S10000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x32.size a ≤ S100000x32.size a
  hwx6_1 : ∀ i : grid6.Coords, EltTy.bits .f32 = 32 ∨ (Rect.block (s := S100000x32) S10000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x32.size a ≤ S64x32.size a
  hwx7_0 : ∀ i : grid7.Coords, EltTy.bits .f32 = 32 ∨ (Rect.block (s := S64x32) S64x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32x8.size a ≤ S32x8.size a
  hwx7_4 : ∀ i : grid7.Coords, EltTy.bits .f32 = 32 ∨ (Rect.block (s := S32x8) S32x8.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x8.size a ≤ S1x8.size a
  hwx7_5 : ∀ i : grid7.Coords, EltTy.bits .f32 = 32 ∨ (Rect.block (s := S1x8) S1x8.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x8.size a ≤ S1x8.size a
  hwx7_6 : ∀ i : grid7.Coords, EltTy.bits .f32 = 32 ∨ (Rect.block (s := S1x8) S1x8.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1.size a ≤ S1x1.size a
  hwx7_7 : ∀ i : grid7.Coords, EltTy.bits .f32 = 32 ∨ (Rect.block (s := S1x1) S1x1.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x1.size a ≤ S64x1.size a
  hwx7_8 : ∀ i : grid7.Coords, EltTy.bits .f32 = 32 ∨ (Rect.block (s := S64x1) S64x1.size (cc7_transform_8 i) (hinb7_8 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S740000x1_S740000x32_1_0_n_n_0_1_132 : GatherDims S100000x32 S740000x1 S740000x32 where
  offsetDims := [1]
  collapsedSliceDims := [0]
  operandBatchingDims := []
  startIndicesBatchingDims := []
  startIndexMap := [0]
  indexVectorDim := 1
  sliceSizes := ![1, 32]
  wf := gather_S100000x32_S740000x1_S740000x32_1_0_n_n_0_1_132_wf
def scatter_S100000x32_S740000x1_S740000x32_1_0_0_1 : ScatterDims S100000x32 S740000x1 S740000x32 where
  updateWindowDims := [1]
  insertedWindowDims := [0]
  scatterDimsToOperandDims := [0]
  indexVectorDim := 1
  wf := scatter_S100000x32_S740000x1_S740000x32_1_0_0_1_wf
def dot_S10000x64_S10000x32_S64x32_0_0_1_1_n_n : DotDims S10000x64 S10000x32 S64x32 where
  lhsContracting := [0]
  rhsContracting := [0]
  lhsNonContracting := [1]
  rhsNonContracting := [1]
  lhsBatch := []
  rhsBatch := []
  wf := dot_S10000x64_S10000x32_S64x32_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf
def dot_S64x8_S1x8_S64x1_1_1_0_0_n_n : DotDims S64x8 S1x8 S64x1 where
  lhsContracting := [1]
  rhsContracting := [1]
  lhsNonContracting := [0]
  rhsNonContracting := [0]
  lhsBatch := []
  rhsBatch := []
  wf := dot_S64x8_S1x8_S64x1_1_1_0_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S10000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S10000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v83_0) S64x32.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83_1) S64x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v83_0) S64x32.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v83_1) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S32x8.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v92) S1x8.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v86) S1x8.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v93) S1x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v94) S64x1.size cc7_transform_8 reads7_8 true true 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S1x8 : Shape := ⟨2, ![1, 8]⟩
abbrev S1 : Shape := ⟨1, ![1]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩
abbrev S100000x32 : Shape := ⟨2, ![100000, 32]⟩
abbrev S740000x32 : Shape := ⟨2, ![740000, 32]⟩
abbrev S1x32 : Shape := ⟨2, ![1, 32]⟩
abbrev S100000x1 : Shape := ⟨2, ![100000, 1]⟩
abbrev S64x1 : Shape := ⟨2, ![64, 1]⟩
abbrev S64x8 : Shape := ⟨2, ![64, 8]⟩
abbrev S8x1 : Shape := ⟨2, ![8, 1]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S640000, .f32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32, .f32⟩
  | 11 => ⟨S32, .f32⟩
  | 12 => ⟨S32x8, .f32⟩
  | 13 => ⟨S8, .f32⟩
  | 14 => ⟨S1x8, .f32⟩
  | 15 => ⟨S1x8, .f32⟩
  | 16 => ⟨S1x8, .f32⟩
  | 17 => ⟨S1, .f32⟩
  | 18 => ⟨S1, .f32⟩
  | 19 => ⟨S1, .f32⟩
  | 20 => ⟨S100000, .i32⟩
  | 21 => ⟨S1x640000, .i32⟩
  | 22 => ⟨S640000, .i32⟩
  | 23 => ⟨S740000, .i32⟩
  | 24 => ⟨S1x640000, .i32⟩
  | 25 => ⟨S640000, .i32⟩
  | 26 => ⟨S740000, .i32⟩
  | 27 => ⟨S_, .f32⟩
  | 28 => ⟨S100000, .f32⟩
  | 29 => ⟨S740000, .f32⟩
  | 30 => ⟨S_, .f32⟩
  | 31 => ⟨S100000, .f32⟩
  | 32 => ⟨S740000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S740000, .i32⟩
  | 47 => ⟨S740000, .i1⟩
  | 48 => ⟨S_, .i32⟩
  | 49 => ⟨S740000, .i32⟩
  | 50 => ⟨S740000, .i32⟩
  | 51 => ⟨S740000, .i32⟩
  | 52 => ⟨S740000x1, .i32⟩
  | 53 => ⟨S740000, .f32⟩
  | 54 => ⟨S740000, .f32⟩
  | 55 => ⟨S_, .i32⟩
  | 56 => ⟨S740000, .i32⟩
  | 57 => ⟨S740000, .i1⟩
  | 58 => ⟨S_, .i32⟩
  | 59 => ⟨S740000, .i32⟩
  | 60 => ⟨S740000, .i32⟩
  | 61 => ⟨S740000, .i32⟩
  | 62 => ⟨S740000x1, .i32⟩
  | 63 => ⟨S740000, .f32⟩
  | 64 => ⟨S740000, .f32⟩
  | 65 => ⟨S100000x128, .f32⟩
  | 66 => ⟨S_, .i32⟩
  | 67 => ⟨S740000, .i32⟩
  | 68 => ⟨S740000, .i1⟩
  | 69 => ⟨S_, .i32⟩
  | 70 => ⟨S740000, .i32⟩
  | 71 => ⟨S740000, .i32⟩
  | 72 => ⟨S740000, .i32⟩
  | 73 => ⟨S740000x1, .i32⟩
  | 74 => ⟨S740000x128, .f32⟩
  | 75 => ⟨S740000x1, .f32⟩
  | 76 => ⟨S740000x128, .f32⟩
  | 77 => ⟨S740000x128, .f32⟩
  | 78 => ⟨S_, .f32⟩
  | 79 => ⟨S100000x128, .f32⟩
  | 80 => ⟨S740000x1, .i32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .i1⟩
  | 91 => ⟨S_, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x64, .f32⟩
  | 101 => ⟨S_, .i32⟩
  | 102 => ⟨S740000, .i32⟩
  | 103 => ⟨S740000, .i1⟩
  | 104 => ⟨S_, .i32⟩
  | 105 => ⟨S740000, .i32⟩
  | 106 => ⟨S740000, .i32⟩
  | 107 => ⟨S740000, .i32⟩
  | 108 => ⟨S740000x1, .i32⟩
  | 109 => ⟨S740000x64, .f32⟩
  | 110 => ⟨S740000x1, .f32⟩
  | 111 => ⟨S740000x64, .f32⟩
  | 112 => ⟨S740000x64, .f32⟩
  | 113 => ⟨S_, .f32⟩
  | 114 => ⟨S100000x64, .f32⟩
  | 115 => ⟨S740000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .i1⟩
  | 123 => ⟨S_, .f32⟩
  | 124 => ⟨S100000x64, .f32⟩
  | 125 => ⟨S100000x64, .i1⟩
  | 126 => ⟨S_, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S100000x32, .f32⟩
  | 8 => ⟨S_, .i32⟩
  | 9 => ⟨S740000, .i32⟩
  | 10 => ⟨S740000, .i1⟩
  | 11 => ⟨S_, .i32⟩
  | 12 => ⟨S740000, .i32⟩
  | 13 => ⟨S740000, .i32⟩
  | 14 => ⟨S740000, .i32⟩
  | 15 => ⟨S740000x1, .i32⟩
  | 16 => ⟨S740000x32, .f32⟩
  | 17 => ⟨S740000x1, .f32⟩
  | 18 => ⟨S740000x32, .f32⟩
  | 19 => ⟨S740000x32, .f32⟩
  | 20 => ⟨S_, .f32⟩
  | 21 => ⟨S100000x32, .f32⟩
  | 22 => ⟨S740000x1, .i32⟩
  | 23 => ⟨S100000x32, .f32⟩
  | 24 => ⟨S1x32, .f32⟩
  | 25 => ⟨S100000x32, .f32⟩
  | 26 => ⟨S100000x32, .f32⟩
  | 27 => ⟨S_, .f32⟩
  | 28 => ⟨S100000x32, .f32⟩
  | 29 => ⟨S100000x32, .i1⟩
  | 30 => ⟨S_, .f32⟩
  | 31 => ⟨S100000x32, .f32⟩
  | 32 => ⟨S100000x32, .i1⟩
  | 33 => ⟨S_, .f32⟩
  | 34 => ⟨S_, .f32⟩
  | 35 => ⟨S100000x32, .f32⟩
  | 36 => ⟨S100000x32, .f32⟩
  | 37 => ⟨S100000x32, .f32⟩
  | 38 => ⟨S_, .f32⟩
  | 39 => ⟨S100000x32, .f32⟩
  | 40 => ⟨S100000x32, .f32⟩
  | 41 => ⟨S100000x32, .f32⟩
  | 42 => ⟨S_, .f32⟩
  | 43 => ⟨S100000, .f32⟩
  | 44 => ⟨S_, .f32⟩
  | 45 => ⟨S64, .f32⟩
  | 46 => ⟨S100000x1, .i32⟩
  | 47 => ⟨S64, .f32⟩
  | 48 => ⟨S_, .f32⟩
  | 49 => ⟨S64x32, .f32⟩
  | 50 => ⟨S100000x1, .i32⟩
  | 51 => ⟨S64x32, .f32⟩
  | 52 => ⟨S_, .f32⟩
  | 53 => ⟨S64, .f32⟩
  | 54 => ⟨S64, .f32⟩
  | 55 => ⟨S64x1, .f32⟩
  | 56 => ⟨S64x32, .f32⟩
  | 57 => ⟨S64x32, .f32⟩
  | 58 => ⟨S_, .f32⟩
  | 59 => ⟨S64, .f32⟩
  | 60 => ⟨S64x1, .f32⟩
  | 61 => ⟨S_, .f32⟩
  | 62 => ⟨S64x1, .f32⟩
  | 63 => ⟨S64x1, .f32⟩
  | 64 => ⟨S64x32, .f32⟩
  | 65 => ⟨S64x32, .f32⟩
  | 66 => ⟨S64x32, .f32⟩
  | 67 => ⟨S_, .f32⟩
  | 68 => ⟨S64, .f32⟩
  | 69 => ⟨S64x1, .f32⟩
  | 70 => ⟨S_, .f32⟩
  | 71 => ⟨S64x1, .f32⟩
  | 72 => ⟨S64x1, .f32⟩
  | 73 => ⟨S64x32, .f32⟩
  | 74 => ⟨S64x32, .f32⟩
  | 75 => ⟨S_, .f32⟩
  | 76 => ⟨S64x1, .f32⟩
  | 77 => ⟨S64x1, .f32⟩
  | 78 => ⟨S64x1, .f32⟩
  | 79 => ⟨S64x32, .f32⟩
  | 80 => ⟨S64x32, .f32⟩
  | 81 => ⟨S1x32, .f32⟩
  | 82 => ⟨S64x32, .f32⟩
  | 83 => ⟨S64x32, .f32⟩
  | 84 => ⟨S1x32, .f32⟩
  | 85 => ⟨S64x32, .f32⟩
  | 86 => ⟨S64x32, .f32⟩
  | 87 => ⟨S64x8, .f32⟩
  | 88 => ⟨S1x8, .f32⟩
  | 89 => ⟨S64x8, .f32⟩
  | 90 => ⟨S64x8, .f32⟩
  | 91 => ⟨S_, .f32⟩
  | 92 => ⟨S64x8, .f32⟩
  | 93 => ⟨S64x8, .i1⟩
  | 94 => ⟨S_, .f32⟩
  | 95 => ⟨S64x8, .f32⟩
  | 96 => ⟨S64x8, .i1⟩
  | 97 => ⟨S_, .f32⟩
  | 98 => ⟨S_, .f32⟩
  | 99 => ⟨S64x8, .f32⟩
  | 100 => ⟨S64x8, .f32⟩
  | 101 => ⟨S64x8, .f32⟩
  | 102 => ⟨S_, .f32⟩
  | 103 => ⟨S64x8, .f32⟩
  | 104 => ⟨S64x8, .f32⟩
  | 105 => ⟨S64x8, .f32⟩
  | 106 => ⟨S_, .f32⟩
  | 107 => ⟨S1x8, .f32⟩
  | 108 => ⟨S1x8, .f32⟩
  | 109 => ⟨S1x8, .f32⟩
  | 110 => ⟨S1x8, .f32⟩
  | 111 => ⟨S1x8, .i1⟩
  | 112 => ⟨S1x8, .f32⟩
  | 113 => ⟨S1x8, .f32⟩
  | 114 => ⟨S1x8, .f32⟩
  | 115 => ⟨S1x8, .f32⟩
  | 116 => ⟨S1x8, .f32⟩
  | 117 => ⟨S1x8, .f32⟩
  | 118 => ⟨S1x8, .f32⟩
  | 119 => ⟨S1x8, .f32⟩
  | 120 => ⟨S1x8, .f32⟩
  | 121 => ⟨S1x8, .f32⟩
  | 122 => ⟨S_, .f32⟩
  | 123 => ⟨S1, .f32⟩
  | 124 => ⟨S1, .f32⟩
  | 125 => ⟨S1, .f32⟩
  | 126 => ⟨S1, .f32⟩
  | 127 => ⟨S1, .i1⟩
  | _ => ⟨S100000x128, .f32⟩

abbrev hbmTy0_2 (i : Nat) : BufTy := match i % 128 with
  | 0 => ⟨S1, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S1, .f32⟩
  | 8 => ⟨S1, .f32⟩
  | 9 => ⟨S1, .f32⟩
  | 10 => ⟨S8x1, .f32⟩
  | 11 => ⟨S64x1, .f32⟩
  | 12 => ⟨S1x1, .f32⟩
  | 13 => ⟨S64x1, .f32⟩
  | 14 => ⟨S64x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_c_8 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_cst_1 : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_v4 : Ref sig .tc := ⟨.hbm, 94, rfl⟩
abbrev main_call1_v5 : Ref sig .tc := ⟨.hbm, 95, rfl⟩
abbrev main_call1_cst_2 : Ref sig .tc := ⟨.hbm, 96, rfl⟩
abbrev main_call1_v6 : Ref sig .tc := ⟨.hbm, 97, rfl⟩
abbrev main_call1_v7 : Ref sig .tc := ⟨.hbm, 98, rfl⟩
abbrev main_v51 : Ref sig .tc := ⟨.hbm, 99, rfl⟩
abbrev main_v52 : Ref sig .tc := ⟨.hbm, 100, rfl⟩
abbrev main_c_10 : Ref sig .tc := ⟨.hbm, 101, rfl⟩
abbrev main_v53 : Ref sig .tc := ⟨.hbm, 102, rfl⟩
abbrev main_v54 : Ref sig .tc := ⟨.hbm, 103, rfl⟩
abbrev main_c_11 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_12 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_cst_1 : Ref sig .tc := ⟨.hbm, 126, rfl⟩
abbrev main_call2_call0_v0 : Ref sig .tc := ⟨.hbm, 127, rfl⟩
abbrev main_call2_call0_v1 : Ref sig .tc := ⟨.hbm, 128, rfl⟩
abbrev main_call2_v4 : Ref sig .tc := ⟨.hbm, 129, rfl⟩
abbrev main_call2_v5 : Ref sig .tc := ⟨.hbm, 130, rfl⟩
abbrev main_call2_cst_2 : Ref sig .tc := ⟨.hbm, 131, rfl⟩
abbrev main_call2_v6 : Ref sig .tc := ⟨.hbm, 132, rfl⟩
abbrev main_call2_v7 : Ref sig .tc := ⟨.hbm, 133, rfl⟩
abbrev main_v69 : Ref sig .tc := ⟨.hbm, 134, rfl⟩
abbrev main_v70 : Ref sig .tc := ⟨.hbm, 135, rfl⟩
abbrev main_c_13 : Ref sig .tc := ⟨.hbm, 136, rfl⟩
abbrev main_v71 : Ref sig .tc := ⟨.hbm, 137, rfl⟩
abbrev main_v72 : Ref sig .tc := ⟨.hbm, 138, rfl⟩
abbrev main_c_14 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_15 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_cst_0 : Ref sig .tc := ⟨.hbm, 158, rfl⟩
abbrev main_call3_v2 : Ref sig .tc := ⟨.hbm, 159, rfl⟩
abbrev main_call3_v3 : Ref sig .tc := ⟨.hbm, 160, rfl⟩
abbrev main_call3_cst_1 : Ref sig .tc := ⟨.hbm, 161, rfl⟩
abbrev main_call3_call0_v0 : Ref sig .tc := ⟨.hbm, 162, rfl⟩
abbrev main_call3_call0_v1 : Ref sig .tc := ⟨.hbm, 163, rfl⟩
abbrev main_call3_v4 : Ref sig .tc := ⟨.hbm, 164, rfl⟩
abbrev main_call3_v5 : Ref sig .tc := ⟨.hbm, 165, rfl⟩
abbrev main_call3_cst_2 : Ref sig .tc := ⟨.hbm, 166, rfl⟩
abbrev main_call3_v6 : Ref sig .tc := ⟨.hbm, 167, rfl⟩
abbrev main_call3_v7 : Ref sig .tc := ⟨.hbm, 168, rfl⟩
abbrev main_v87 : Ref sig .tc := ⟨.hbm, 169, rfl⟩
abbrev main_cst_16 : Ref sig .tc := ⟨.hbm, 170, rfl⟩
abbrev main_v88 : Ref sig .tc := ⟨.hbm, 171, rfl⟩
abbrev main_cst_17 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_cst_18 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_19 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_20 : Ref sig .tc := ⟨.hbm, 186, rfl⟩
abbrev main_v100 : Ref sig .tc := ⟨.hbm, 187, rfl⟩
abbrev main_v101 : Ref sig .tc := ⟨.hbm, 188, rfl⟩
abbrev main_cst_21 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_22 : Ref sig .tc := ⟨.hbm, 195, rfl⟩
abbrev main_v107 : Ref sig .tc := ⟨.hbm, 196, rfl⟩
abbrev main_v108 : Ref sig .tc := ⟨.hbm, 197, rfl⟩
abbrev main_cst_23 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_cst_24 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_call4_cst : Ref sig .tc := ⟨.hbm, 219, rfl⟩
abbrev main_call4_v0 : Ref sig .tc := ⟨.hbm, 220, rfl⟩
abbrev main_call4_v1 : Ref sig .tc := ⟨.hbm, 221, rfl⟩
abbrev main_call4_cst_0 : Ref sig .tc := ⟨.hbm, 222, rfl⟩
abbrev main_call4_v2 : Ref sig .tc := ⟨.hbm, 223, rfl⟩
abbrev main_call4_v3 : Ref sig .tc := ⟨.hbm, 224, rfl⟩
abbrev main_call4_cst_1 : Ref sig .tc := ⟨.hbm, 225, rfl⟩
abbrev main_call4_call0_v0 : Ref sig .tc := ⟨.hbm, 226, rfl⟩
abbrev main_call4_call0_v1 : Ref sig .tc := ⟨.hbm, 227, rfl⟩
abbrev main_call4_v4 : Ref sig .tc := ⟨.hbm, 228, rfl⟩
abbrev main_call4_v5 : Ref sig .tc := ⟨.hbm, 229, rfl⟩
abbrev main_call4_cst_2 : Ref sig .tc := ⟨.hbm, 230, rfl⟩
abbrev main_call4_v6 : Ref sig .tc := ⟨.hbm, 231, rfl⟩
abbrev main_call4_v7 : Ref sig .tc := ⟨.hbm, 232, rfl⟩
abbrev main_v128 : Ref sig .tc := ⟨.hbm, 233, rfl⟩
abbrev main_call5_cst : Ref sig .tc := ⟨.hbm, 234, rfl⟩
abbrev main_call5_v0 : Ref sig .tc := ⟨.hbm, 235, rfl⟩
abbrev main_call5_v1 : Ref sig .tc := ⟨.hbm, 236, rfl⟩
abbrev main_call5_v2 : Ref sig .tc := ⟨.hbm, 237, rfl⟩
abbrev main_call5_v3 : Ref sig .tc := ⟨.hbm, 238, rfl⟩
abbrev main_call5_v4 : Ref sig .tc := ⟨.hbm, 239, rfl⟩
abbrev main_call5_v5 : Ref sig .tc := ⟨.hbm, 240, rfl⟩
abbrev main_call5_v6 : Ref sig .tc := ⟨.hbm, 241, rfl⟩
abbrev main_call5_v7 : Ref sig .tc := ⟨.hbm, 242, rfl⟩
abbrev main_call5_v8 : Ref sig .tc := ⟨.hbm, 243, rfl⟩
abbrev main_call5_v9 : Ref sig .tc := ⟨.hbm, 244, rfl⟩
abbrev main_call5_v10 : Ref sig .tc := ⟨.hbm, 245, rfl⟩
abbrev main_call5_v11 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_call6_cst : Ref sig .tc := ⟨.hbm, 250, rfl⟩
abbrev main_call6_v0 : Ref sig .tc := ⟨.hbm, 251, rfl⟩
abbrev main_call6_v1 : Ref sig .tc := ⟨.hbm, 252, rfl⟩
abbrev main_call6_v2 : Ref sig .tc := ⟨.hbm, 253, rfl⟩
abbrev main_call6_v3 : Ref sig .tc := ⟨.hbm, 254, rfl⟩
abbrev main_call6_v4 : Ref sig .tc := ⟨.hbm, 255, rfl⟩
abbrev main_call6_v5 : Ref sig .tc := ⟨.hbm, 256, rfl⟩
abbrev main_call6_v6 : Ref sig .tc := ⟨.hbm, 257, rfl⟩
abbrev main_call6_v7 : Ref sig .tc := ⟨.hbm, 258, rfl⟩
abbrev main_call6_v8 : Ref sig .tc := ⟨.hbm, 259, rfl⟩
abbrev main_call6_v9 : Ref sig .tc := ⟨.hbm, 260, rfl⟩
abbrev main_call6_v10 : Ref sig .tc := ⟨.hbm, 261, rfl⟩
abbrev main_call6_v11 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S740000x1_S740000x32_0_1 : S740000x1.BroadcastsInDim S740000x32 (![0, 1] : Fin 2 → Fin S740000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64 : S_.BroadcastsInDim S64 (![] : Fin 0 → Fin S64.rank)
  bcast_S100000_S100000x1_0 : S100000.BroadcastsInDim S100000x1 (![0] : Fin 1 → Fin S100000x1.rank)
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  reducesTo_S64x32_S64_d1 : S64x32.ReducesTo [1] S64
  h_S_ : 0 < S_.numel
  bcast_S_S64x1 : S_.BroadcastsInDim S64x1 (![] : Fin 0 → Fin S64x1.rank)
  bcast_S1x32_S64x32_0_1 : S1x32.BroadcastsInDim S64x32 (![0, 1] : Fin 2 → Fin S64x32.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  bcast_S_S1x8 : S_.BroadcastsInDim S1x8 (![] : Fin 0 → Fin S1x8.rank)
  bcast_S_S1 : S_.BroadcastsInDim S1 (![] : Fin 0 → Fin S1.rank)
  transposes_S1x8_S8x1_1_0 : S1x8.Transposes [1, 0] S8x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  dot_S100000x64_S64x32_S100000x32_1_0_0_1_n_n_wf : DotDims.WF S100000x64 S64x32 S100000x32 [1] [0] [0] [1] [] []
  gather_S100000x32_S740000x1_S740000x32_1_0_n_n_0_1_132_wf : GatherDims.WF S100000x32 S740000x1 S740000x32 [1] [0] [] [0] [] 1 ![1, 32]
  scatter_S100000x32_S740000x1_S740000x32_1_0_0_1_wf : ScatterDims.WF S100000x32 S740000x1 S740000x32 [1] [0] [0] 1
  scatter_S64_S100000x1_S100000_n_0_0_1_wf : ScatterDims.WF S64 S100000x1 S100000 [] [0] [0] 1
  scatter_S64x32_S100000x1_S100000x32_1_0_0_1_wf : ScatterDims.WF S64x32 S100000x1 S100000x32 [1] [0] [0] 1
  dot_S64x32_S32x8_S64x8_1_0_0_1_n_n_wf : DotDims.WF S64x32 S32x8 S64x8 [1] [0] [0] [1] [] []
  dot_S64x8_S8x1_S64x1_1_0_0_1_n_n_wf : DotDims.WF S64x8 S8x1 S64x1 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S740000x1_S740000x32_1_0_n_n_0_1_132 : GatherDims S100000x32 S740000x1 S740000x32 where
  offsetDims := [1]
  collapsedSliceDims := [0]
  operandBatchingDims := []
  startIndicesBatchingDims := []
  startIndexMap := [0]
  indexVectorDim := 1
  sliceSizes := ![1, 32]
  wf := gather_S100000x32_S740000x1_S740000x32_1_0_n_n_0_1_132_wf
def scatter_S100000x32_S740000x1_S740000x32_1_0_0_1 : ScatterDims S100000x32 S740000x1 S740000x32 where
  updateWindowDims := [1]
  insertedWindowDims := [0]
  scatterDimsToOperandDims := [0]
  indexVectorDim := 1
  wf := scatter_S100000x32_S740000x1_S740000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf
def dot_S64x8_S8x1_S64x1_1_0_0_1_n_n : DotDims S64x8 S8x1 S64x1 where
  lhsContracting := [1]
  rhsContracting := [0]
  lhsNonContracting := [0]
  rhsNonContracting := [1]
  lhsBatch := []
  rhsBatch := []
  wf := dot_S64x8_S8x1_S64x1_1_0_0_1_n_n_wf

class Facts : Prop extends Facts₀ where

variable [Facts]
-- ==== Proof.Spec.lean ====
/-
  The graph network read as staged functions of its arrays (any float interpretation F): the edge list with the
  self loops appended and the symmetric normalisation  norm e = d(src e)^(-1/2) · w e · d(dst e)^(-1/2)  over the weighted
  in-degrees d; per layer the node features times a weight matrix (mm*), the neighbourhood sum
  agg h = Σ_{e : dst e = v} norm e · h (src e)  as a gather, a scale and a scatter-add (agg*), and the bias followed
  by  elu x = x  for x > 0,  1 · (eˣ − 1)  otherwise (eluB*); then the per-graph sums and node counts (pooledSum,
  cnt), and the head: mean over the graph's nodes, layer normalisation over the 32 features, a linear layer, elu, and the
  product with the sampled weight row  w_mu + softplus(w_rho) · w_eps  plus the sampled bias (head, wv, bbv).
  Every stage is the composition of array operations that the plain jnp program applies, so that program's buffers read
  back as these functions by unfolding; the kernel program's arrays are proved equal to them stage by stage elsewhere.
-/
import proofs.«401103_j7610682049034_2_alg».proof.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F] [hR : Cert.ReferenceIdeal.Facts]

/-- Contents of an f32 array of shape S. -/
abbrev FA (F : FTy → Type) (S : Shape) : Type := (⟨S, .f32⟩ : BufTy).Contents (Elt F)
/-- Contents of an i32 array of shape S. -/
abbrev IA (F : FTy → Type) (S : Shape) : Type := (⟨S, .i32⟩ : BufTy).Contents (Elt F)

/-! ## The edge list and its normalisation -/

/-- Row 0 of the 2 × E edge array followed by the node ids 0 … N−1 (the self loops). -/
def edgeRow0 (ei : IA F S2x640000) : IA F S740000 :=
  concatenate S740000 0 [⟨S640000, shapeCast S640000 (extractStridedSlice S1x640000 ![0, 0] ei slices_S2x640000_S1x640000_0_0) shapeCasts_S1x640000_S640000⟩, ⟨S100000, iotaInDim S100000 32 0⟩] concatenates_S640000_S100000_S740000_d0
/-- Row 1 of the edge array followed by the node ids. -/
def edgeRow1 (ei : IA F S2x640000) : IA F S740000 :=
  concatenate S740000 0 [⟨S640000, shapeCast S640000 (extractStridedSlice S1x640000 ![1, 0] ei slices_S2x640000_S1x640000_1_0) shapeCasts_S1x640000_S640000⟩, ⟨S100000, iotaInDim S100000 32 0⟩] concatenates_S640000_S100000_S740000_d0
/-- Source node of every edge, self loops last. -/
def src (ei : IA F S2x640000) : IA F S740000 := edgeRow0 (F := F) ei
/-- Destination node of every edge, self loops last. -/
def dst (ei : IA F S2x640000) : IA F S740000 := edgeRow1 (F := F) ei
/-- The edge weights followed by a weight 1 for every self loop. -/
def ew1 (ew : FA F S640000) : FA F S740000 :=
  concatenate S740000 0 [⟨S640000, ew⟩, ⟨S100000, broadcastInDim S100000 ![] bcast_S_S100000 (constant S_ .f32 0x3F800000#32)⟩] concatenates_S640000_S100000_S740000_d0
/-- A node index as the gather reads it: a negative one wraps by the node count; as a column. -/
def wrapIdx (s : IA F S740000) : IA F S740000x1 :=
  broadcastInDim S740000x1 ![0] bcast_S740000_S740000x1_0
    (select (cmpi .slt s (broadcastInDim S740000 ![] bcast_S_S740000 (constantI S_ 32 0#32)))
      (addi s (broadcastInDim S740000 ![] bcast_S_S740000 (constantI S_ 32 100000#32))) s)
/-- A node index as the scatter reads it: as a column. -/
def colIdx (d : IA F S740000) : IA F S740000x1 := broadcastInDim S740000x1 ![0] bcast_S740000_S740000x1_0 d
/-- The weighted in-degree of every node. -/
def deg (d : IA F S740000) (w : FA F S740000) : FA F S100000 :=
  Host.scatterAdd scatter_S100000_S740000x1_S740000_n_0_0_1
    (broadcastInDim S100000 ![] bcast_S_S100000 (constant S_ .f32 0x00000000#32)) (colIdx (F := F) d) w
/-- deg^(-1/2) where the degree is positive (the degree clamped below first), 0 elsewhere. -/
def dinv (d : IA F S740000) (w : FA F S740000) : FA F S100000 :=
  select (cmpf .ogt (deg d w) (broadcastInDim S100000 ![] bcast_S_S100000 (constant S_ .f32 0x00000000#32)))
    (Host.rsqrt (maximumf (deg d w) (broadcastInDim S100000 ![] bcast_S_S100000 (constant S_ .f32 0x2B8CBCCC#32))))
    (broadcastInDim S100000 ![] bcast_S_S100000 (id (constant S_ .f32 0x00000000#32)))
/-- The per-edge coefficient from the source and destination ids and the weights. -/
def normOf (s d : IA F S740000) (w : FA F S740000) : FA F S740000 :=
  mulf (mulf (Host.gather gather_S100000_S740000x1_S740000_n_0_n_n_0_1_1 (dinv d w) (wrapIdx (F := F) s)) w)
    (Host.gather gather_S100000_S740000x1_S740000_n_0_n_n_0_1_1 (dinv d w) (wrapIdx (F := F) d))
/-- The per-edge coefficient of the graph. -/
def norm (ei : IA F S2x640000) (ew : FA F S640000) : FA F S740000 :=
  normOf (src (F := F) ei) (dst (F := F) ei) (ew1 ew)

/-! ## One layer: product with the weights, neighbourhood sum, bias and elu -/

/-- Node features times the first weight matrix. -/
def mm128 (x : FA F S100000x128) (W : FA F S128x128) : FA F S100000x128 :=
  Host.dotGeneral dot_S100000x128_S128x128_S100000x128_1_0_0_1_n_n none x W
/-- Node features times the second weight matrix. -/
def mm64 (x : FA F S100000x128) (W : FA F S128x64) : FA F S100000x64 :=
  Host.dotGeneral dot_S100000x128_S128x64_S100000x64_1_0_0_1_n_n none x W
/-- Node features times the third weight matrix. -/
def mm32 (x : FA F S100000x64) (W : FA F S64x32) : FA F S100000x32 :=
  Host.dotGeneral dot_S100000x64_S64x32_S100000x32_1_0_0_1_n_n none x W

/-- Row (src e) of hw scaled by (n e), summed into row (dst e): 128 features. -/
def agg128 (hw : FA F S100000x128) (s d : IA F S740000) (n : FA F S740000) : FA F S100000x128 :=
  Host.scatterAdd scatter_S100000x128_S740000x1_S740000x128_1_0_0_1
    (broadcastInDim S100000x128 ![] bcast_S_S100000x128 (constant S_ .f32 0x00000000#32)) (colIdx (F := F) d)
    (mulf (Host.gather gather_S100000x128_S740000x1_S740000x128_1_0_n_n_0_1_1128 hw (wrapIdx (F := F) s))
      (broadcastInDim S740000x128 ![0, 1] bcast_S740000x1_S740000x128_0_1 (broadcastInDim S740000x1 ![0] bcast_S740000_S740000x1_0 n)))
/-- The same with 64 features. -/
def agg64 (hw : FA F S100000x64) (s d : IA F S740000) (n : FA F S740000) : FA F S100000x64 :=
  Host.scatterAdd scatter_S100000x64_S740000x1_S740000x64_1_0_0_1
    (broadcastInDim S100000x64 ![] bcast_S_S100000x64 (constant S_ .f32 0x00000000#32)) (colIdx (F := F) d)
    (mulf (Host.gather gather_S100000x64_S740000x1_S740000x64_1_0_n_n_0_1_164 hw (wrapIdx (F := F) s))
      (broadcastInDim S740000x64 ![0, 1] bcast_S740000x1_S740000x64_0_1 (broadcastInDim S740000x1 ![0] bcast_S740000_S740000x1_0 n)))
/-- The same with 32 features. -/
def agg32 (hw : FA F S100000x32) (s d : IA F S740000) (n : FA F S740000) : FA F S100000x32 :=
  Host.scatterAdd scatter_S100000x32_S740000x1_S740000x32_1_0_0_1
    (broadcastInDim S100000x32 ![] bcast_S_S100000x32 (constant S_ .f32 0x00000000#32)) (colIdx (F := F) d)
    (mulf (Host.gather gather_S100000x32_S740000x1_S740000x32_1_0_n_n_0_1_132 hw (wrapIdx (F := F) s))
      (broadcastInDim S740000x32 ![0, 1] bcast_S740000x1_S740000x32_0_1 (broadcastInDim S740000x1 ![0] bcast_S740000_S740000x1_0 n)))

/-- elu as the plain program spells it: x where x > 0, else 1 · expm1 (x where not x > 0, else 0). -/
def elu (S : Shape) (hb : S_.BroadcastsInDim S ![]) (x : FA F S) : FA F S :=
  select (cmpf .ogt x (broadcastInDim S ![] hb (constant S_ .f32 0x00000000#32))) x
    (mulf (broadcastInDim S ![] hb (constant S_ .f32 0x3F800000#32))
      (Host.expm1 (select (cmpf .ogt x (broadcastInDim S ![] hb (constant S_ .f32 0x00000000#32)))
        (broadcastInDim S ![] hb (id (constant S_ .f32 0x00000000#32))) x)))

/-- The bias row added to every node, then elu: 128 features. -/
def eluB128 (a : FA F S100000x128) (b : FA F S128) : FA F S100000x128 :=
  elu S100000x128 bcast_S_S100000x128
    (addf a (broadcastInDim S100000x128 ![0, 1] bcast_S1x128_S100000x128_0_1 (broadcastInDim S1x128 ![1] bcast_S128_S1x128_1 b)))
/-- The same with 64 features. -/
def eluB64 (a : FA F S100000x64) (b : FA F S64) : FA F S100000x64 :=
  elu S100000x64 bcast_S_S100000x64
    (addf a (broadcastInDim S100000x64 ![0, 1] bcast_S1x64_S100000x64_0_1 (broadcastInDim S1x64 ![1] bcast_S64_S1x64_1 b)))
/-- The same with 32 features. -/
def eluB32 (a : FA F S100000x32) (b : FA F S32) : FA F S100000x32 :=
  elu S100000x32 bcast_S_S100000x32
    (addf a (broadcastInDim S100000x32 ![0, 1] bcast_S1x32_S100000x32_0_1 (broadcastInDim S1x32 ![1] bcast_S32_S1x32_1 b)))

/-! ## Pooling over graphs -/

/-- How many nodes carry each graph id. -/
def cnt (batch : IA F S100000) : FA F S64 :=
  Host.scatterAdd scatter_S64_S100000x1_S100000_n_0_0_1
    (broadcastInDim S64 ![] bcast_S_S64 (constant S_ .f32 0x00000000#32))
    (broadcastInDim S100000x1 ![0] bcast_S100000_S100000x1_0 batch)
    (broadcastInDim S100000 ![] bcast_S_S100000 (constant S_ .f32 0x3F800000#32))
/-- The feature rows summed per graph id. -/
def pooledSum (h : FA F S100000x32) (batch : IA F S100000) : FA F S64x32 :=
  Host.scatterAdd scatter_S64x32_S100000x1_S100000x32_1_0_0_1
    (broadcastInDim S64x32 ![] bcast_S_S64x32 (constant S_ .f32 0x00000000#32))
    (broadcastInDim S100000x1 ![0] bcast_S100000_S100000x1_0 batch) h

/-! ## The head -/

/-- softplus x = max(x, 0) + log1p(exp(−|x − 0|)), with the plain program's guard on x − 0 ≠ x − 0. -/
def softplus (S : Shape) (hb : S_.BroadcastsInDim S ![]) (x : FA F S) : FA F S :=
  select (cmpf .une (subf x (broadcastInDim S ![] hb (constant S_ .f32 0x00000000#32))) (subf x (broadcastInDim S ![] hb (constant S_ .f32 0x00000000#32))))
    (addf x (broadcastInDim S ![] hb (constant S_ .f32 0x00000000#32)))
    (addf (maximumf x (broadcastInDim S ![] hb (constant S_ .f32 0x00000000#32)))
      (Host.log1p (Host.exp (Host.negf (Host.absf (subf x (broadcastInDim S ![] hb (constant S_ .f32 0x00000000#32))))))))
/-- The sampled weight row. -/
def wv (w_mu w_rho w_eps : FA F S1x8) : FA F S1x8 := addf w_mu (mulf (softplus S1x8 bcast_S_S1x8 w_rho) w_eps)
/-- The sampled bias. -/
def bbv (b_mu b_rho b_eps : FA F S1) : FA F S1 := addf b_mu (mulf (softplus S1 bcast_S_S1 b_rho) b_eps)

/-- The graph means: the sums over the counts, a count below one read as one. -/
def gmean (ps : FA F S64x32) (cn : FA F S64) : FA F S64x32 :=
  Host.divf ps (broadcastInDim S64x32 ![0, 1] bcast_S64x1_S64x32_0_1 (broadcastInDim S64x1 ![0] bcast_S64_S64x1_0
    (maximumf cn (broadcastInDim S64 ![] bcast_S_S64 (constant S_ .f32 0x3F800000#32)))))
/-- The row mean over the 32 features, as a column. -/
def rowMean (g : FA F S64x32) : FA F S64x1 :=
  Host.divf (broadcastInDim S64x1 ![0] bcast_S64_S64x1_0 (Host.reduceAdd g (constant S_ .f32 0x00000000#32) reducesTo_S64x32_S64_d1 h_S_))
    (broadcastInDim S64x1 ![] bcast_S_S64x1 (constant S_ .f32 0x42000000#32))
/-- A row minus its mean. -/
def centred (g : FA F S64x32) : FA F S64x32 := subf g (broadcastInDim S64x32 ![0, 1] bcast_S64x1_S64x32_0_1 (rowMean g))
/-- Layer normalisation over the 32 features with gain and offset. -/
def layerNorm (g : FA F S64x32) (ln_g ln_b : FA F S32) : FA F S64x32 :=
  addf (mulf (mulf (centred g) (broadcastInDim S64x32 ![0, 1] bcast_S64x1_S64x32_0_1
      (Host.rsqrt (addf (rowMean (mulf (centred g) (centred g))) (broadcastInDim S64x1 ![] bcast_S_S64x1 (constant S_ .f32 0x3727C5AC#32))))))
      (broadcastInDim S64x32 ![0, 1] bcast_S1x32_S64x32_0_1 (broadcastInDim S1x32 ![1] bcast_S32_S1x32_1 ln_g)))
    (broadcastInDim S64x32 ![0, 1] bcast_S1x32_S64x32_0_1 (broadcastInDim S1x32 ![1] bcast_S32_S1x32_1 ln_b))
/-- The head on the per-graph sums and counts. -/
def head (ps : FA F S64x32) (cn : FA F S64) (ln_g ln_b : FA F S32) (fc_w : FA F S32x8) (fc_b : FA F S8)
    (w : FA F S1x8) (bb : FA F S1) : FA F S64x1 :=
  addf (Host.dotGeneral dot_S64x8_S8x1_S64x1_1_0_0_1_n_n none
      (elu S64x8 bcast_S_S64x8 (addf (Host.dotGeneral dot_S64x32_S32x8_S64x8_1_0_0_1_n_n none (layerNorm (gmean ps cn) ln_g ln_b) fc_w)
        (broadcastInDim S64x8 ![0, 1] bcast_S1x8_S64x8_0_1 (broadcastInDim S1x8 ![1] bcast_S8_S1x8_1 fc_b))))
      (transpose S8x1 [1, 0] w transposes_S1x8_S8x1_1_0))
    (broadcastInDim S64x1 ![0, 1] bcast_S1x1_S64x1_0_1 (broadcastInDim S1x1 ![1] bcast_S1_S1x1_1 bb))

end Cert.Spec

end
-- ==== Proof.KerPre.lean ====
/-
  What the first three stretches of host operations of the kernel program leave in the TensorCore's buffers, read as the
  staged functions of the network: the source and destination ids of the edge list with the self loops appended, and the
  symmetric normalisation  norm e = d(src e)^(-1/2) · w e · d(dst e)^(-1/2)  over the weighted in-degrees d. Each stretch
  is a fold of array operations over the buffer contents; a buffer's contents after a stretch are the writing operation's
  function at the contents of its operands, and a buffer no operation writes is carried through unchanged. The operations
  are the ones the staged functions are composed of, so each equation closes by unfolding. The argument arrays are written
  by none of the operations and hold what the launch memory holds.
-/
import proofs.«401103_j7610682049034_2_alg».proof.Proof.Gen.KernelIdeal.Frame
import proofs.«401103_j7610682049034_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Cert.KernelIdeal.Facts₀ Cert.KernelIdeal.Facts

variable {F : FTy → Type} [FloatOps F] [hR : Cert.ReferenceIdeal.Facts]

variable (m : (ℓ : Loc nD τ sig) → Buf (Elt F) ℓ) (ρ : Dev nD → PrngReg)

/-- No operation of the named stretch writes the reference at hand: the stretch's operations listed, each one's
    written set a singleton, the references told apart by their indices. -/
local macro "not_written " ops:ident : tactic =>
  `(tactic| (
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- A buffer that neither the second nor the third stretch writes holds after the third what it held after the first. -/
theorem W3_eq_W1 (c : Dev nD) (r : Ref sig .tc)
    (h1 : ∀ op ∈ (hostOps0_1 : List (HloOp τ sig (Elt F))), (Proc.devRef .tc r : DevRef τ sig) ∉ op.writes)
    (h2 : ∀ op ∈ (hostOps0_2 : List (HloOp τ sig (Elt F))), (Proc.devRef .tc r : DevRef τ sig) ∉ op.writes) :
    Gen.W3 m ρ c (Proc.devRef .tc r) = Gen.W1 m ρ c (Proc.devRef .tc r) :=
  (StableHlo.after_of_forall_not_mem _ _ h2).trans (StableHlo.after_of_forall_not_mem _ _ h1)

/-- A buffer none of the three stretches writes holds after them what the launch memory holds. -/
theorem W3_eq_launch (c : Dev nD) (r : Ref sig .tc)
    (h0 : ∀ op ∈ (hostOps0 : List (HloOp τ sig (Elt F))), (Proc.devRef .tc r : DevRef τ sig) ∉ op.writes)
    (h1 : ∀ op ∈ (hostOps0_1 : List (HloOp τ sig (Elt F))), (Proc.devRef .tc r : DevRef τ sig) ∉ op.writes)
    (h2 : ∀ op ∈ (hostOps0_2 : List (HloOp τ sig (Elt F))), (Proc.devRef .tc r : DevRef τ sig) ∉ op.writes) :
    Gen.W3 m ρ c (Proc.devRef .tc r) = m ((c : Thread nD τ).loc r) :=
  (W3_eq_W1 m ρ c r h1 h2).trans (StableHlo.after_of_forall_not_mem _ _ h0)

/-- The coefficient of every edge from the guarded inverse root g of the degrees, the source ids s, the destination ids d
    and the weights w: g at the wrapped source id, times the weight, times g at the wrapped destination id. -/
def coefOf (g : Cert.Spec.FA F Cert.ReferenceIdeal.S100000) (s d : Cert.Spec.IA F Cert.ReferenceIdeal.S740000)
    (w : Cert.Spec.FA F Cert.ReferenceIdeal.S740000) : Cert.Spec.FA F Cert.ReferenceIdeal.S740000 :=
  mulf (mulf (Host.gather Cert.ReferenceIdeal.gather_S100000_S740000x1_S740000_n_0_n_n_0_1_1 g (Cert.Spec.wrapIdx (F := F) s)) w)
    (Host.gather Cert.ReferenceIdeal.gather_S100000_S740000x1_S740000_n_0_n_n_0_1_1 g (Cert.Spec.wrapIdx (F := F) d))

/-! ## After the first stretch: the edge rows, the weights, and the two operands of the guard -/

/-- Row 0 of the edge array with the node ids appended, as the first stretch leaves it. -/
theorem W1_v3 (c : Dev nD) :
    Gen.W1 m ρ c (Proc.devRef .tc main_v3) = Cert.Spec.src (F := F) (m ((c : Thread nD τ).loc main_arg1)) := by
  show StableHlo.after hostOps0 (W0 m ρ c) (Proc.devRef .tc main_v3) = _
  after_results
  rfl

/-- Row 1 of the edge array with the node ids appended. -/
theorem W1_v6 (c : Dev nD) :
    Gen.W1 m ρ c (Proc.devRef .tc main_v6) = Cert.Spec.dst (F := F) (m ((c : Thread nD τ).loc main_arg1)) := by
  show StableHlo.after hostOps0 (W0 m ρ c) (Proc.devRef .tc main_v6) = _
  after_results
  rfl

/-- The edge weights with a one appended per node. -/
theorem W1_v8 (c : Dev nD) :
    Gen.W1 m ρ c (Proc.devRef .tc main_v8) = Cert.Spec.ew1 (F := F) (m ((c : Thread nD τ).loc main_arg3)) := by
  show StableHlo.after hostOps0 (W0 m ρ c) (Proc.devRef .tc main_v8) = _
  after_results
  rfl

/-! ## After the second stretch: the inverse square root of the degrees, guarded -/

/-- The second stretch selects, per node, the inverse square root of the clamped degree where the degree is positive and
    zero elsewhere: the three operands are what the first stretch left, the select is the second stretch's last operation. -/
theorem W2_v17 (c : Dev nD) :
    Gen.W2 m ρ c (Proc.devRef .tc main_v17)
      = Cert.Spec.dinv (F := F) (Cert.Spec.dst (F := F) (m ((c : Thread nD τ).loc main_arg1)))
          (Cert.Spec.ew1 (F := F) (m ((c : Thread nD τ).loc main_arg3))) := by
  show StableHlo.after hostOps0_1 (StableHlo.after hostOps0 (W0 m ρ c)) (Proc.devRef .tc main_v17) = _
  after_results_simp
  rfl

/-- The second stretch writes none of the edge rows and weights. -/
theorem W2_v3 (c : Dev nD) :
    Gen.W2 m ρ c (Proc.devRef .tc main_v3) = Cert.Spec.src (F := F) (m ((c : Thread nD τ).loc main_arg1)) :=
  (StableHlo.after_of_forall_not_mem (b := Proc.devRef .tc main_v3) _ _ (List.forall_iff_forall_mem.mp (by not_written hostOps0_1))).trans (W1_v3 m ρ c)
theorem W2_v6 (c : Dev nD) :
    Gen.W2 m ρ c (Proc.devRef .tc main_v6) = Cert.Spec.dst (F := F) (m ((c : Thread nD τ).loc main_arg1)) :=
  (StableHlo.after_of_forall_not_mem (b := Proc.devRef .tc main_v6) _ _ (List.forall_iff_forall_mem.mp (by not_written hostOps0_1))).trans (W1_v6 m ρ c)
theorem W2_v8 (c : Dev nD) :
    Gen.W2 m ρ c (Proc.devRef .tc main_v8) = Cert.Spec.ew1 (F := F) (m ((c : Thread nD τ).loc main_arg3)) :=
  (StableHlo.after_of_forall_not_mem (b := Proc.devRef .tc main_v8) _ _ (List.forall_iff_forall_mem.mp (by not_written hostOps0_1))).trans (W1_v8 m ρ c)

/-! ## The third stretch: the coefficient of every edge from the four arrays it reads -/

/-- From any contents V the third stretch leaves, in its last buffer, the product of the guarded inverse root gathered at
    the wrapped source ids, the weights, and the same gathered at the wrapped destination ids. -/
theorem stretch2_v33 (V : Valuation τ sig (Elt F)) :
    StableHlo.after hostOps0_2 V (Proc.devRef .tc main_v33)
      = coefOf (F := F) (V (Proc.devRef .tc main_v17)) (V (Proc.devRef .tc main_v3)) (V (Proc.devRef .tc main_v6))
          (V (Proc.devRef .tc main_v8)) := by
  after_results_simp
  rfl

/-! ## What the three stretches leave -/

/-- The source ids: the first stretch builds them, the other two leave them. -/
theorem pre_src (c : Dev nD) :
    Gen.W3 m ρ c (Proc.devRef .tc main_v3) = Cert.Spec.src (F := F) (m ((c : Thread nD τ).loc main_arg1)) :=
  (StableHlo.after_of_forall_not_mem (b := Proc.devRef .tc main_v3) _ _ (List.forall_iff_forall_mem.mp (by not_written hostOps0_2))).trans (W2_v3 m ρ c)

/-- The destination ids likewise. -/
theorem pre_dst (c : Dev nD) :
    Gen.W3 m ρ c (Proc.devRef .tc main_v6) = Cert.Spec.dst (F := F) (m ((c : Thread nD τ).loc main_arg1)) :=
  (StableHlo.after_of_forall_not_mem (b := Proc.devRef .tc main_v6) _ _ (List.forall_iff_forall_mem.mp (by not_written hostOps0_2))).trans (W2_v6 m ρ c)

/-- The coefficient of every edge: the third stretch's product at what the second left, which is the normalisation
    d(src e)^(-1/2) · w e · d(dst e)^(-1/2) of the edge list by unfolding. -/
theorem pre_norm (c : Dev nD) :
    Gen.W3 m ρ c (Proc.devRef .tc main_v33)
      = Cert.Spec.norm (F := F) (m ((c : Thread nD τ).loc main_arg1)) (m ((c : Thread nD τ).loc main_arg3)) := by
  show StableHlo.after hostOps0_2 (W2 m ρ c) (Proc.devRef .tc main_v33) = _
  rw [stretch2_v33, W2_v17, W2_v3, W2_v6, W2_v8]
  rfl

/-! ## The arguments: no operation of the three stretches writes one -/

theorem pre_arg0 (c : Dev nD) : Gen.W3 m ρ c (Proc.devRef .tc main_arg0) = m ((c : Thread nD τ).loc main_arg0) :=
  W3_eq_launch m ρ c main_arg0 (List.forall_iff_forall_mem.mp (by not_written hostOps0))
    (List.forall_iff_forall_mem.mp (by not_written hostOps0_1)) (List.forall_iff_forall_mem.mp (by not_written hostOps0_2))
theorem pre_arg1 (c : Dev nD) : Gen.W3 m ρ c (Proc.devRef .tc main_arg1) = m ((c : Thread nD τ).loc main_arg1) :=
  W3_eq_launch m ρ c main_arg1 (List.forall_iff_forall_mem.mp (by not_written hostOps0))
    (List.forall_iff_forall_mem.mp (by not_written hostOps0_1)) (List.forall_iff_forall_mem.mp (by not_written hostOps0_2))
theorem pre_arg2 (c : Dev nD) : Gen.W3 m ρ c (Proc.devRef .tc main_arg2) = m ((c : Thread nD τ).loc main_arg2) :=
  W3_eq_launch m ρ c main_arg2 (List.forall_iff_forall_mem.mp (by not_written hostOps0))
    (List.forall_iff_forall_mem.mp (by not_written hostOps0_1)) (List.forall_iff_forall_mem.mp (by not_written hostOps0_2))
theorem pre_arg3 (c : Dev nD) : Gen.W3 m ρ c (Proc.devRef .tc main_arg3) = m ((c : Thread nD τ).loc main_arg3) :=
  W3_eq_launch m ρ c main_arg3 (List.forall_iff_forall_mem.mp (by not_written hostOps0))
    (List.forall_iff_forall_mem.mp (by not_written hostOps0_1)) (List.forall_iff_forall_mem.mp (by not_written hostOps0_2))
theorem pre_arg4 (c : Dev nD) : Gen.W3 m ρ c (Proc.devRef .tc main_arg4) = m ((c : Thread nD τ).loc main_arg4) :=
  W3_eq_launch m ρ c main_arg4 (List.forall_iff_forall_mem.mp (by not_written hostOps0))
    (List.forall_iff_forall_mem.mp (by not_written hostOps0_1)) (List.forall_iff_forall_mem.mp (by not_written hostOps0_2))
theorem pre_arg5 (c : Dev nD) : Gen.W3 m ρ c (Proc.devRef .tc main_arg5) = m ((c : Thread nD τ).loc main_arg5) :=
  W3_eq_launch m ρ c main_arg5 (List.forall_iff_forall_mem.mp (by not_written hostOps0))
    (List.forall_iff_forall_mem.mp (by not_written hostOps0_1)) (List.forall_iff_forall_mem.mp (by not_written hostOps0_2))
theorem pre_arg6 (c : Dev nD) : Gen.W3 m ρ c (Proc.devRef .tc main_arg6) = m ((c : Thread nD τ).loc main_arg6) :=
  W3_eq_launch m ρ c main_arg6 (List.forall_iff_forall_mem.mp (by not_written hostOps0))
    (List.forall_iff_forall_mem.mp (by not_written hostOps0_1)) (List.forall_iff_forall_mem.mp (by not_written hostOps0_2))
theorem pre_arg7 (c : Dev nD) : Gen.W3 m ρ c (Proc.devRef .tc main_arg7) = m ((c : Thread nD τ).loc main_arg7) :=
  W3_eq_launch m ρ c main_arg7 (List.forall_iff_forall_mem.mp (by not_written hostOps0))
    (List.forall_iff_forall_mem.mp (by not_written hostOps0_1)) (List.forall_iff_forall_mem.mp (by not_written hostOps0_2))
theorem pre_arg8 (c : Dev nD) : Gen.W3 m ρ c (Proc.devRef .tc main_arg8) = m ((c : Thread nD τ).loc main_arg8) :=
  W3_eq_launch m ρ c main_arg8 (List.forall_iff_forall_mem.mp (by not_written hostOps0))
    (List.forall_iff_forall_mem.mp (by not_written hostOps0_1)) (List.forall_iff_forall_mem.mp (by not_written hostOps0_2))
theorem pre_arg9 (c : Dev nD) : Gen.W3 m ρ c (Proc.devRef .tc main_arg9) = m ((c : Thread nD τ).loc main_arg9) :=
  W3_eq_launch m ρ c main_arg9 (List.forall_iff_forall_mem.mp (by not_written hostOps0))
    (List.forall_iff_forall_mem.mp (by not_written hostOps0_1)) (List.forall_iff_forall_mem.mp (by not_written hostOps0_2))
theorem pre_arg10 (c : Dev nD) : Gen.W3 m ρ c (Proc.devRef .tc main_arg10) = m ((c : Thread nD τ).loc main_arg10) :=
  W3_eq_launch m ρ c main_arg10 (List.forall_iff_forall_mem.mp (by not_written hostOps0))
    (List.forall_iff_forall_mem.mp (by not_written hostOps0_1)) (List.forall_iff_forall_mem.mp (by not_written hostOps0_2))
theorem pre_arg11 (c : Dev nD) : Gen.W3 m ρ c (Proc.devRef .tc main_arg11) = m ((c : Thread nD τ).loc main_arg11) :=
  W3_eq_launch m ρ c main_arg11 (List.forall_iff_forall_mem.mp (by not_written hostOps0))
    (List.forall_iff_forall_mem.mp (by not_written hostOps0_1)) (List.forall_iff_forall_mem.mp (by not_written hostOps0_2))
theorem pre_arg12 (c : Dev nD) : Gen.W3 m ρ c (Proc.devRef .tc main_arg12) = m ((c : Thread nD τ).loc main_arg12) :=
  W3_eq_launch m ρ c main_arg12 (List.forall_iff_forall_mem.mp (by not_written hostOps0))
    (List.forall_iff_forall_mem.mp (by not_written hostOps0_1)) (List.forall_iff_forall_mem.mp (by not_written hostOps0_2))
theorem pre_arg13 (c : Dev nD) : Gen.W3 m ρ c (Proc.devRef .tc main_arg13) = m ((c : Thread nD τ).loc main_arg13) :=
  W3_eq_launch m ρ c main_arg13 (List.forall_iff_forall_mem.mp (by not_written hostOps0))
    (List.forall_iff_forall_mem.mp (by not_written hostOps0_1)) (List.forall_iff_forall_mem.mp (by not_written hostOps0_2))
theorem pre_arg14 (c : Dev nD) : Gen.W3 m ρ c (Proc.devRef .tc main_arg14) = m ((c : Thread nD τ).loc main_arg14) :=
  W3_eq_launch m ρ c main_arg14 (List.forall_iff_forall_mem.mp (by not_written hostOps0))
    (List.forall_iff_forall_mem.mp (by not_written hostOps0_1)) (List.forall_iff_forall_mem.mp (by not_written hostOps0_2))
theorem pre_arg15 (c : Dev nD) : Gen.W3 m ρ c (Proc.devRef .tc main_arg15) = m ((c : Thread nD τ).loc main_arg15) :=
  W3_eq_launch m ρ c main_arg15 (List.forall_iff_forall_mem.mp (by not_written hostOps0))
    (List.forall_iff_forall_mem.mp (by not_written hostOps0_1)) (List.forall_iff_forall_mem.mp (by not_written hostOps0_2))
theorem pre_arg16 (c : Dev nD) : Gen.W3 m ρ c (Proc.devRef .tc main_arg16) = m ((c : Thread nD τ).loc main_arg16) :=
  W3_eq_launch m ρ c main_arg16 (List.forall_iff_forall_mem.mp (by not_written hostOps0))
    (List.forall_iff_forall_mem.mp (by not_written hostOps0_1)) (List.forall_iff_forall_mem.mp (by not_written hostOps0_2))
theorem pre_arg17 (c : Dev nD) : Gen.W3 m ρ c (Proc.devRef .tc main_arg17) = m ((c : Thread nD τ).loc main_arg17) :=
  W3_eq_launch m ρ c main_arg17 (List.forall_iff_forall_mem.mp (by not_written hostOps0))
    (List.forall_iff_forall_mem.mp (by not_written hostOps0_1)) (List.forall_iff_forall_mem.mp (by not_written hostOps0_2))
theorem pre_arg18 (c : Dev nD) : Gen.W3 m ρ c (Proc.devRef .tc main_arg18) = m ((c : Thread nD τ).loc main_arg18) :=
  W3_eq_launch m ρ c main_arg18 (List.forall_iff_forall_mem.mp (by not_written hostOps0))
    (List.forall_iff_forall_mem.mp (by not_written hostOps0_1)) (List.forall_iff_forall_mem.mp (by not_written hostOps0_2))
theorem pre_arg19 (c : Dev nD) : Gen.W3 m ρ c (Proc.devRef .tc main_arg19) = m ((c : Thread nD τ).loc main_arg19) :=
  W3_eq_launch m ρ c main_arg19 (List.forall_iff_forall_mem.mp (by not_written hostOps0))
    (List.forall_iff_forall_mem.mp (by not_written hostOps0_1)) (List.forall_iff_forall_mem.mp (by not_written hostOps0_2))

end Cert.KernelIdeal.Hand

end
-- ==== Proof.KerMM0.lean ====
/-
  Node features times a weight matrix, tiled over ten blocks of 10000 rows: the 100000 × 128 features x and the
  128 × 128 weights W give the 100000 × 128 array whose entry (r, j) is the sum over k of x[r,k] · W[k,j] in the
  extended reals. A block's product reads the same sum inside the block (the narrowing to bf16 is the identity on
  the extended reals, the accumulator is zero); block t of the features is rows 10000·t … 10000·t + 9999, every block
  reads the whole W, and the ten output blocks tile the rows. So the array the blocks leave is the whole product.
-/
import proofs.«401103_j7610682049034_2_alg».proof.Proof.Gen.KernelIdeal.Frame
import proofs.«401103_j7610682049034_2_alg».proof.Proof.Gen.ReferenceIdeal
import proofs.«401103_j7610682049034_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts
open scoped BigOperators

/-! ## A block's product, entry by entry -/

/-- The left operand's row coordinate is the output's row. -/
theorem k0l_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem k0l_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem k0r_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem k0r_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, q) of the block product is Σ_k x0[p,k] · x1[k,q]. -/
theorem pay0_apply (x0 : Vec Ideal S10000x128 .f32) (x1 : Vec Ideal S128x128 .f32) (p : Fin 10000) (q : Fin 128) :
    Gen.k0_pay1 (F := Ideal) x0 x1 (ix2 p q) = ∑ k : Fin 128, x0 (ix2 p k) * x1 (ix2 k q) := by
  unfold Gen.k0_pay1
  simp only [matmul]
  rw [Ideal.matmul_constant_zero_apply]
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact k0l_0 _ _
    | ⟨1, _⟩ => exact (k0l_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (k0r_0 _ _).trans hk
    | ⟨1, _⟩ => exact k0r_1 _ _)
  rw [el, er]
  rfl

/-! ## The whole product, entry by entry -/

/-- The left operand's row coordinate is the output's row. -/
theorem h0l_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left operand's column coordinate is the summation index. -/
theorem h0l_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row coordinate is the summation index. -/
theorem h0r_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- The right operand's column coordinate is the output's column. -/
theorem h0r_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (r, q) of the whole product is Σ_k x[r,k] · W[k,q]. -/
theorem whole0_apply (x : Cert.Spec.FA Ideal Cert.ReferenceIdeal.S100000x128) (W : Cert.Spec.FA Ideal Cert.ReferenceIdeal.S128x128) (r : Fin 100000) (q : Fin 128) :
    Cert.Spec.mm128 (F := Ideal) x W (ix2 r q) = ∑ k : Fin 128, x (ix2 r k) * W (ix2 k q) := by
  unfold Cert.Spec.mm128
  simp only [Host.dotGeneral]
  rw [Ideal.dotGeneral_apply]
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact h0l_0 _ _
    | ⟨1, _⟩ => exact (h0l_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (h0r_0 _ _).trans hk
    | ⟨1, _⟩ => exact h0r_1 _ _)
  rw [el, er]

/-- A block entry whose row of x0 is row r of x and whose x1 is W is entry (r, q) of the whole product. -/
theorem point0 (x0 : Vec Ideal S10000x128 .f32) (x1 : Vec Ideal S128x128 .f32)
    (x : Cert.Spec.FA Ideal Cert.ReferenceIdeal.S100000x128) (W : Cert.Spec.FA Ideal Cert.ReferenceIdeal.S128x128) (p : Fin 10000) (q : Fin 128) (r : Fin 100000)
    (h0 : ∀ k : Fin 128, x0 (ix2 p k) = x (ix2 r k)) (h1 : ∀ k : Fin 128, x1 (ix2 k q) = W (ix2 k q)) :
    Gen.k0_pay1 (F := Ideal) x0 x1 (ix2 p q) = Cert.Spec.mm128 (F := Ideal) x W (ix2 r q) := by
  rw [pay0_apply, whole0_apply]
  exact Finset.sum_congr rfl fun k _ => by rw [h0 k, h1 k]

/-! ## From the blocks to the array -/

theorem hz0 : (![0, 0] : Fin 2 → Nat) = fun _ => 0 := funext fun a => by
  match a with
  | ⟨0, _⟩ => rfl
  | ⟨1, _⟩ => rfl

/-- Block t of the features and of the output starts at row block t and column block 0; the weights' one block is
    block (0, 0). -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays as the region finds them. -/
theorem flushed0_eq (c : Dev nD) (t : Fin cfg0.N) :
    (Gen.dat0 (F := Ideal) V c).flushed 2 t
      = ((cfg0.win 2).blk t).view.read (Elt Ideal) (Cert.Spec.mm128 (F := Ideal) (V c main_arg0) (V c main_arg4)) := by
  show (cfg0.win 2).cut (grid0.coords t) ((Gen.dat0 (F := Ideal) V c).after 2 t) = _
  rw [Gen.after0_2]
  unfold Gen.out0_2
  rw [View.canon_unit_zero hz0]
  simp only [View.ld_unit_zero (S := S10000x128) hz0, View.ld_unit_zero (S := S128x128) hz0]
  obtain ⟨e0, e1, e2, e3, e4, e5⟩ := blocks0 t
  have hN : t.val < 10 := by have h := t.isLt; have hn : cfg0.N = 10 := Gen.N_0; omega
  funext j
  show Gen.k0_pay1 (F := Ideal) (Gen.iblk0 V c 0 t) (Gen.iblk0 V c 1 t) j
      = Cert.Spec.mm128 (F := Ideal) (V c main_arg0) (V c main_arg4) (((cfg0.win 2).blk t).view.emb j)
  have hj0 : (j 0).val < 10000 := (j 0).isLt
  have hj1 : (j 1).val < 128 := (j 1).isLt
  have ej : j = ix2 (⟨(j 0).val, hj0⟩ : Fin 10000) (⟨(j 1).val, hj1⟩ : Fin 128) := funext fun a => by
    match a with
    | ⟨0, _⟩ => rfl
    | ⟨1, _⟩ => rfl
  have ei : ((cfg0.win 2).blk t).view.emb j
      = ix2 (⟨t.val * 10000 + (j 0).val, by omega⟩ : Fin 100000) (⟨(j 1).val, hj1⟩ : Fin 128) := by
    funext a; apply Fin.ext
    match a with
    | ⟨0, _⟩ => show win0_2.index t (0 : Fin 2) * 10000 + 1 * (j 0).val = t.val * 10000 + (j 0).val; omega
    | ⟨1, _⟩ => show win0_2.index t (1 : Fin 2) * 128 + 1 * (j 1).val = (j 1).val; omega
  have h0 : ∀ k : Fin 128, Gen.iblk0 V c 0 t (ix2 (⟨(j 0).val, hj0⟩ : Fin 10000) k)
      = V c main_arg0 (ix2 (⟨t.val * 10000 + (j 0).val, by omega⟩ : Fin 100000) k) := fun k => by
    show V c main_arg0 (((cfg0.win 0).blk t).view.emb (ix2 (⟨(j 0).val, hj0⟩ : Fin 10000) k)) = _
    refine congrArg _ (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 128 + 1 * k.val = k.val; omega
  have h1 : ∀ k : Fin 128, Gen.iblk0 V c 1 t (ix2 k (⟨(j 1).val, hj1⟩ : Fin 128))
      = V c main_arg4 (ix2 k (⟨(j 1).val, hj1⟩ : Fin 128)) := fun k => by
    show V c main_arg4 (((cfg0.win 1).blk t).view.emb (ix2 k (⟨(j 1).val, hj1⟩ : Fin 128))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  exact (congrArg (Gen.k0_pay1 (F := Ideal) (Gen.iblk0 V c 0 t) (Gen.iblk0 V c 1 t)) ej).trans
    ((point0 _ _ _ _ _ _ _ h0 h1).trans
      (congrArg (Cert.Spec.mm128 (F := Ideal) (V c main_arg0) (V c main_arg4)) ei.symm))

/-- An entry of the array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v34).slice (win0_2.rect t)).set ↔ _
  rw [View.set_slice_whole, Rect.mem_set_unit]
  exact Iff.rfl

/-- Row r lies in block r / 10000: the ten blocks cover the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hn : cfg0.N = 10 := Gen.N_0
  obtain ⟨t, ht⟩ : ∃ t : Fin cfg0.N, t.val = (i 0).val / 10000 := ⟨⟨(i 0).val / 10000, by omega⟩, rfl⟩
  obtain ⟨e0, e1, e2, e3, e4, e5⟩ := blocks0 t
  refine ⟨t, Gen.flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array the region leaves is the whole product of the arrays it found. -/
theorem reg0_val (c : Dev nD) :
    (Gen.dat0 (F := Ideal) V c).arrAt 2 cfg0.N = Cert.Spec.mm128 (F := Ideal) (V c main_arg0) (V c main_arg4) :=
  (Gen.dat0 (F := Ideal) V c).arrAt_eq_of_cover 2 _ (fun t _ => flushed0_eq V c t) cover0

end Cert.KernelIdeal.Hand

end
-- ==== Proof.KerMM2.lean ====
/-
  Node features times a weight matrix, tiled over ten blocks of 10000 rows: the 100000 × 128 features x and the
  128 × 64 weights W give the 100000 × 64 array whose entry (r, j) is the sum over k of x[r,k] · W[k,j] in the
  extended reals. A block's product reads the same sum inside the block (the narrowing to bf16 is the identity on
  the extended reals, the accumulator is zero); block t of the features is rows 10000·t … 10000·t + 9999, every block
  reads the whole W, and the ten output blocks tile the rows. So the array the blocks leave is the whole product.
-/
import proofs.«401103_j7610682049034_2_alg».proof.Proof.Gen.KernelIdeal.Frame
import proofs.«401103_j7610682049034_2_alg».proof.Proof.Gen.ReferenceIdeal
import proofs.«401103_j7610682049034_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts
open scoped BigOperators

/-! ## A block's product, entry by entry -/

/-- The left operand's row coordinate is the output's row. -/
theorem k2l_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column coordinate is the summation index. -/
theorem k2l_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the summation index. -/
theorem k2r_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate is the output's column. -/
theorem k2r_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of the block product is Σ_k x0[p,k] · x1[k,q]. -/
theorem pay2_apply (x0 : Vec Ideal S10000x128 .f32) (x1 : Vec Ideal S128x64 .f32) (p : Fin 10000) (q : Fin 64) :
    Gen.k2_pay1 (F := Ideal) x0 x1 (ix2 p q) = ∑ k : Fin 128, x0 (ix2 p k) * x1 (ix2 k q) := by
  unfold Gen.k2_pay1
  rw [shapeCast_self]
  simp only [matmul]
  rw [Ideal.matmul_constant_zero_apply]
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact k2l_0 _ _
    | ⟨1, _⟩ => exact (k2l_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (k2r_0 _ _).trans hk
    | ⟨1, _⟩ => exact k2r_1 _ _)
  rw [el, er]
  rfl

/-! ## The whole product, entry by entry -/

/-- The left operand's row coordinate is the output's row. -/
theorem h2l_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- The left operand's column coordinate is the summation index. -/
theorem h2l_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- The right operand's row coordinate is the summation index. -/
theorem h2r_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- The right operand's column coordinate is the output's column. -/
theorem h2r_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Entry (r, q) of the whole product is Σ_k x[r,k] · W[k,q]. -/
theorem whole2_apply (x : Cert.Spec.FA Ideal Cert.ReferenceIdeal.S100000x128) (W : Cert.Spec.FA Ideal Cert.ReferenceIdeal.S128x64) (r : Fin 100000) (q : Fin 64) :
    Cert.Spec.mm64 (F := Ideal) x W (ix2 r q) = ∑ k : Fin 128, x (ix2 r k) * W (ix2 k q) := by
  unfold Cert.Spec.mm64
  simp only [Host.dotGeneral]
  rw [Ideal.dotGeneral_apply]
  rw [← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact h2l_0 _ _
    | ⟨1, _⟩ => exact (h2l_1 _ _).trans hk)
  have er : Cert.ReferenceIdeal.dot_S100000x128_S128x64_S100000x64_1_0_0_1_n_n.rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (h2r_0 _ _).trans hk
    | ⟨1, _⟩ => exact h2r_1 _ _)
  rw [el, er]

/-- A block entry whose row of x0 is row r of x and whose x1 is W is entry (r, q) of the whole product. -/
theorem point2 (x0 : Vec Ideal S10000x128 .f32) (x1 : Vec Ideal S128x64 .f32)
    (x : Cert.Spec.FA Ideal Cert.ReferenceIdeal.S100000x128) (W : Cert.Spec.FA Ideal Cert.ReferenceIdeal.S128x64) (p : Fin 10000) (q : Fin 64) (r : Fin 100000)
    (h0 : ∀ k : Fin 128, x0 (ix2 p k) = x (ix2 r k)) (h1 : ∀ k : Fin 128, x1 (ix2 k q) = W (ix2 k q)) :
    Gen.k2_pay1 (F := Ideal) x0 x1 (ix2 p q) = Cert.Spec.mm64 (F := Ideal) x W (ix2 r q) := by
  rw [pay2_apply, whole2_apply]
  exact Finset.sum_congr rfl fun k _ => by rw [h0 k, h1 k]

/-! ## From the blocks to the array -/

theorem hz2 : (![0, 0] : Fin 2 → Nat) = fun _ => 0 := funext fun a => by
  match a with
  | ⟨0, _⟩ => rfl
  | ⟨1, _⟩ => rfl

/-- Block t of the features and of the output starts at row block t and column block 0; the weights' one block is
    block (0, 0). -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole product of the arrays as the region finds them. -/
theorem flushed2_eq (c : Dev nD) (t : Fin cfg2.N) :
    (Gen.dat2 (F := Ideal) V c).flushed 2 t
      = ((cfg2.win 2).blk t).view.read (Elt Ideal) (Cert.Spec.mm64 (F := Ideal) (V c main_v49) (V c main_arg6)) := by
  show (cfg2.win 2).cut (grid2.coords t) ((Gen.dat2 (F := Ideal) V c).after 2 t) = _
  rw [Gen.after2_2]
  unfold Gen.out2_2
  rw [View.canon_unit_zero hz2]
  simp only [View.ld_unit_zero (S := S10000x128) hz2, View.ld_unit_zero (S := S128x64) hz2, View.ld_unit_zero (S := S10000x64) hz2]
  obtain ⟨e0, e1, e2, e3, e4, e5⟩ := blocks2 t
  have hN : t.val < 10 := by have h := t.isLt; have hn : cfg2.N = 10 := Gen.N_2; omega
  funext j
  show Gen.k2_pay1 (F := Ideal) (Gen.iblk2 V c 0 t) (Gen.iblk2 V c 1 t) j
      = Cert.Spec.mm64 (F := Ideal) (V c main_v49) (V c main_arg6) (((cfg2.win 2).blk t).view.emb j)
  have hj0 : (j 0).val < 10000 := (j 0).isLt
  have hj1 : (j 1).val < 64 := (j 1).isLt
  have ej : j = ix2 (⟨(j 0).val, hj0⟩ : Fin 10000) (⟨(j 1).val, hj1⟩ : Fin 64) := funext fun a => by
    match a with
    | ⟨0, _⟩ => rfl
    | ⟨1, _⟩ => rfl
  have ei : ((cfg2.win 2).blk t).view.emb j
      = ix2 (⟨t.val * 10000 + (j 0).val, by omega⟩ : Fin 100000) (⟨(j 1).val, hj1⟩ : Fin 64) := by
    funext a; apply Fin.ext
    match a with
    | ⟨0, _⟩ => show win2_2.index t (0 : Fin 2) * 10000 + 1 * (j 0).val = t.val * 10000 + (j 0).val; omega
    | ⟨1, _⟩ => show win2_2.index t (1 : Fin 2) * 64 + 1 * (j 1).val = (j 1).val; omega
  have h0 : ∀ k : Fin 128, Gen.iblk2 V c 0 t (ix2 (⟨(j 0).val, hj0⟩ : Fin 10000) k)
      = V c main_v49 (ix2 (⟨t.val * 10000 + (j 0).val, by omega⟩ : Fin 100000) k) := fun k => by
    show V c main_v49 (((cfg2.win 0).blk t).view.emb (ix2 (⟨(j 0).val, hj0⟩ : Fin 10000) k)) = _
    refine congrArg _ (funext fun a => Fin.ext ?_)
    match a with
    | ⟨0, _⟩ => show win2_0.index t (0 : Fin 2) * 10000 + 1 * (j 0).val = t.val * 10000 + (j 0).val; omega
    | ⟨1, _⟩ => show win2_0.index t (1 : Fin 2) * 128 + 1 * k.val = k.val; omega
  have h1 : ∀ k : Fin 128, Gen.iblk2 V c 1 t (ix2 k (⟨(j 1).val, hj1⟩ : Fin 64))
      = V c main_arg6 (ix2 k (⟨(j 1).val, hj1⟩ : Fin 64)) := fun k => by
    show V c main_arg6 (((cfg2.win 1).blk t).view.emb (ix2 k (⟨(j 1).val, hj1⟩ : Fin 64))) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * (j 1).val = (j 1).val; omega
  exact (congrArg (Gen.k2_pay1 (F := Ideal) (Gen.iblk2 V c 0 t) (Gen.iblk2 V c 1 t)) ej).trans
    ((point2 _ _ _ _ _ _ _ h0 h1).trans
      (congrArg (Cert.Spec.mm64 (F := Ideal) (V c main_v49) (V c main_arg6)) ei.symm))

/-- An entry of the array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v50).slice (win2_2.rect t)).set ↔ _
  rw [View.set_slice_whole, Rect.mem_set_unit]
  exact Iff.rfl

/-- Row r lies in block r / 10000: the ten blocks cover the array. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hn : cfg2.N = 10 := Gen.N_2
  obtain ⟨t, ht⟩ : ∃ t : Fin cfg2.N, t.val = (i 0).val / 10000 := ⟨⟨(i 0).val / 10000, by omega⟩, rfl⟩
  obtain ⟨e0, e1, e2, e3, e4, e5⟩ := blocks2 t
  refine ⟨t, Gen.flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the region leaves is the whole product of the arrays it found. -/
theorem reg2_val (c : Dev nD) :
    (Gen.dat2 (F := Ideal) V c).arrAt 2 cfg2.N = Cert.Spec.mm64 (F := Ideal) (V c main_v49) (V c main_arg6) :=
  (Gen.dat2 (F := Ideal) V c).arrAt_eq_of_cover 2 _ (fun t _ => flushed2_eq V c t) cover2

end Cert.KernelIdeal.Hand

end
-- ==== Proof.KerMM4.lean ====
/-
  Node features times a weight matrix, tiled over ten blocks of 10000 rows: the 100000 × 64 features x and the
  64 × 32 weights W give the 100000 × 32 array whose entry (r, j) is the sum over k of x[r,k] · W[k,j] in the
  extended reals. A block's product reads the same sum inside the block (the narrowing to bf16 is the identity on
  the extended reals, the accumulator is zero); block t of the features is rows 10000·t … 10000·t + 9999, every block
  reads the whole W, and the ten output blocks tile the rows. So the array the blocks leave is the whole product.
-/
import proofs.«401103_j7610682049034_2_alg».proof.Proof.Gen.KernelIdeal.Frame
import proofs.«401103_j7610682049034_2_alg».proof.Proof.Gen.ReferenceIdeal
import proofs.«401103_j7610682049034_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts
open scoped BigOperators

/-! ## A block's product, entry by entry -/

/-- The left operand's row coordinate is the output's row. -/
theorem k4l_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- The left operand's column coordinate is the summation index. -/
theorem k4l_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand's row coordinate is the summation index. -/
theorem k4r_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- The right operand's column coordinate is the output's column. -/
theorem k4r_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry (p, q) of the block product is Σ_k x0[p,k] · x1[k,q]. -/
theorem pay4_apply (x0 : Vec Ideal S10000x64 .f32) (x1 : Vec Ideal S64x32 .f32) (p : Fin 10000) (q : Fin 32) :
    Gen.k4_pay1 (F := Ideal) x0 x1 (ix2 p q) = ∑ k : Fin 64, x0 (ix2 p k) * x1 (ix2 k q) := by
  unfold Gen.k4_pay1
  rw [shapeCast_self]
  simp only [matmul]
  rw [Ideal.matmul_constant_zero_apply]
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact k4l_0 _ _
    | ⟨1, _⟩ => exact (k4l_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (k4r_0 _ _).trans hk
    | ⟨1, _⟩ => exact k4r_1 _ _)
  rw [el, er]
  rfl

/-! ## The whole product, entry by entry -/

/-- The left operand's row coordinate is the output's row. -/
theorem h4l_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
/-- The left operand's column coordinate is the summation index. -/
theorem h4l_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
/-- The right operand's row coordinate is the summation index. -/
theorem h4r_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
/-- The right operand's column coordinate is the output's column. -/
theorem h4r_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl

/-- Entry (r, q) of the whole product is Σ_k x[r,k] · W[k,q]. -/
theorem whole4_apply (x : Cert.Spec.FA Ideal Cert.ReferenceIdeal.S100000x64) (W : Cert.Spec.FA Ideal Cert.ReferenceIdeal.S64x32) (r : Fin 100000) (q : Fin 32) :
    Cert.Spec.mm32 (F := Ideal) x W (ix2 r q) = ∑ k : Fin 64, x (ix2 r k) * W (ix2 k q) := by
  unfold Cert.Spec.mm32
  simp only [Host.dotGeneral]
  rw [Ideal.dotGeneral_apply]
  rw [← Equiv.sum_comp (contrEquiv1 Cert.ReferenceIdeal.dot_S100000x64_S64x32_S100000x32_1_0_0_1_n_n 64 rfl rfl).symm]
  refine Finset.sum_congr rfl fun k _ => ?_
  have hk := contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ix2 r q) ((contrEquiv1 Cert.ReferenceIdeal.dot_S100000x64_S64x32_S100000x32_1_0_0_1_n_n 64 rfl rfl).symm k) = ix2 r k := funext fun a => Fin.ext (by
    match a with
    | ⟨0, _⟩ => exact h4l_0 _ _
    | ⟨1, _⟩ => exact (h4l_1 _ _).trans hk)
  have er : Cert.ReferenceIdeal.dot_S100000x64_S64x32_S100000x32_1_0_0_1_n_n.rhsIdx (ix2 r q) ((contrEquiv1 Cert.ReferenceIdeal.dot_S100000x64_S64x32_S100000x32_1_0_0_1_n_n 64 rfl rfl).symm k) = ix2 k q := funext fun a => Fin.ext (by
    match a with
    | ⟨0, _⟩ => exact (h4r_0 _ _).trans hk
    | ⟨1, _⟩ => exact h4r_1 _ _)
  rw [el, er]

/-- A block entry whose row of x0 is row r of x and whose x1 is W is entry (r, q) of the whole product. -/
theorem point4 (x0 : Vec Ideal S10000x64 .f32) (x1 : Vec Ideal S64x32 .f32)
    (x : Cert.Spec.FA Ideal Cert.ReferenceIdeal.S100000x64) (W : Cert.Spec.FA Ideal Cert.ReferenceIdeal.S64x32) (p : Fin 10000) (q : Fin 32) (r : Fin 100000)
    (h0 : ∀ k : Fin 64, x0 (ix2 p k) = x (ix2 r k)) (h1 : ∀ k : Fin 64, x1 (ix2 k q) = W (ix2 k q)) :
    Gen.k4_pay1 (F := Ideal) x0 x1 (ix2 p q) = Cert.Spec.mm32 (F := Ideal) x W (ix2 r q) := by
  rw [pay4_apply, whole4_apply]
  exact Finset.sum_congr rfl fun k _ => by rw [h0 k, h1 k]

/-! ## From the blocks to the array -/

theorem hz4 : (![0, 0] : Fin 2 → Nat) = fun _ => 0 := funext fun a => by
  match a with
  | ⟨0, _⟩ => rfl
  | ⟨1, _⟩ => rfl

/-- Block t of the features and of the output starts at row block t and column block 0; the weights' one block is
    block (0, 0). -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the whole product of the arrays as the region finds them. -/
theorem flushed4_eq (c : Dev nD) (t : Fin cfg4.N) :
    (Gen.dat4 (F := Ideal) V c).flushed 2 t
      = ((cfg4.win 2).blk t).view.read (Elt Ideal) (Cert.Spec.mm32 (F := Ideal) (V c main_v65) (V c main_arg8)) := by
  show (cfg4.win 2).cut (grid4.coords t) ((Gen.dat4 (F := Ideal) V c).after 2 t) = _
  rw [Gen.after4_2]
  unfold Gen.out4_2
  rw [View.canon_unit_zero hz4]
  simp only [View.ld_unit_zero (S := S10000x64) hz4, View.ld_unit_zero (S := S64x32) hz4, View.ld_unit_zero (S := S10000x32) hz4]
  obtain ⟨e0, e1, e2, e3, e4, e5⟩ := blocks4 t
  have hN : t.val < 10 := by have h := t.isLt; have hn : cfg4.N = 10 := Gen.N_4; omega
  funext j
  show Gen.k4_pay1 (F := Ideal) (Gen.iblk4 V c 0 t) (Gen.iblk4 V c 1 t) j
      = Cert.Spec.mm32 (F := Ideal) (V c main_v65) (V c main_arg8) (((cfg4.win 2).blk t).view.emb j)
  have hj0 : (j 0).val < 10000 := (j 0).isLt
  have hj1 : (j 1).val < 32 := (j 1).isLt
  have ej : j = ix2 (⟨(j 0).val, hj0⟩ : Fin 10000) (⟨(j 1).val, hj1⟩ : Fin 32) := funext fun a => by
    match a with
    | ⟨0, _⟩ => rfl
    | ⟨1, _⟩ => rfl
  have ei : ((cfg4.win 2).blk t).view.emb j
      = ix2 (⟨t.val * 10000 + (j 0).val, by omega⟩ : Fin 100000) (⟨(j 1).val, hj1⟩ : Fin 32) := by
    funext a; apply Fin.ext
    match a with
    | ⟨0, _⟩ => show win4_2.index t (0 : Fin 2) * 10000 + 1 * (j 0).val = t.val * 10000 + (j 0).val; omega
    | ⟨1, _⟩ => show win4_2.index t (1 : Fin 2) * 32 + 1 * (j 1).val = (j 1).val; omega
  have h0 : ∀ k : Fin 64, Gen.iblk4 V c 0 t (ix2 (⟨(j 0).val, hj0⟩ : Fin 10000) k)
      = V c main_v65 (ix2 (⟨t.val * 10000 + (j 0).val, by omega⟩ : Fin 100000) k) := fun k => by
    show V c main_v65 (((cfg4.win 0).blk t).view.emb (ix2 (⟨(j 0).val, hj0⟩ : Fin 10000) k)) = _
    refine congrArg _ (funext fun a => Fin.ext ?_)
    match a with
    | ⟨0, _⟩ => show win4_0.index t (0 : Fin 2) * 10000 + 1 * (j 0).val = t.val * 10000 + (j 0).val; omega
    | ⟨1, _⟩ => show win4_0.index t (1 : Fin 2) * 64 + 1 * k.val = k.val; omega
  have h1 : ∀ k : Fin 64, Gen.iblk4 V c 1 t (ix2 k (⟨(j 1).val, hj1⟩ : Fin 32))
      = V c main_arg8 (ix2 k (⟨(j 1).val, hj1⟩ : Fin 32)) := fun k => by
    show V c main_arg8 (((cfg4.win 1).blk t).view.emb (ix2 k (⟨(j 1).val, hj1⟩ : Fin 32))) = _
    refine congrArg _ (funext fun a => Fin.ext ?_)
    match a with
    | ⟨0, _⟩ => show win4_1.index t (0 : Fin 2) * 64 + 1 * k.val = k.val; omega
    | ⟨1, _⟩ => show win4_1.index t (1 : Fin 2) * 32 + 1 * (j 1).val = (j 1).val; omega
  exact (congrArg (Gen.k4_pay1 (F := Ideal) (Gen.iblk4 V c 0 t) (Gen.iblk4 V c 1 t)) ej).trans
    ((point4 _ _ _ _ _ _ _ h0 h1).trans
      (congrArg (Cert.Spec.mm32 (F := Ideal) (V c main_v65) (V c main_arg8)) ei.symm))

/-- An entry of the array is in point t's block iff each coordinate is in the block's range on its axis. -/
theorem mem_blk4 (t : Fin cfg4.N) (i : S100000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v66).slice (win4_2.rect t)).set ↔ _
  rw [View.set_slice_whole, Rect.mem_set_unit]
  exact Iff.rfl

/-- Row r lies in block r / 10000: the ten blocks cover the array. -/
theorem cover4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hn : cfg4.N = 10 := Gen.N_4
  obtain ⟨t, ht⟩ : ∃ t : Fin cfg4.N, t.val = (i 0).val / 10000 := ⟨⟨(i 0).val / 10000, by omega⟩, rfl⟩
  obtain ⟨e0, e1, e2, e3, e4, e5⟩ := blocks4 t
  refine ⟨t, Gen.flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- The array the region leaves is the whole product of the arrays it found. -/
theorem reg4_val (c : Dev nD) :
    (Gen.dat4 (F := Ideal) V c).arrAt 2 cfg4.N = Cert.Spec.mm32 (F := Ideal) (V c main_v65) (V c main_arg8) :=
  (Gen.dat4 (F := Ideal) V c).arrAt_eq_of_cover 2 _ (fun t _ => flushed4_eq V c t) cover4

end Cert.KernelIdeal.Hand

end
-- ==== Proof.KerElu.lean ====
/-
  Regions 1, 3 and 5 of the kernel program: the bias row added to every node's features, then elu, over ten blocks
  of 10000 rows. Index by index both programs compute  elu (a[r, j] + b[j]):  the kernel spells  elu y = y  for
  y > 0,  exp y − 1  otherwise; the plain program guards the exponential's argument and multiplies by one, which
  changes nothing (eluS_guarded). Per region: the block's arithmetic at an index (payK_apply), the whole array as
  one function GK of the arrays the region finds, each point's write-back as block t of GK (flushedK_eq: the feature
  and output windows sit at the same row block, the bias window at its one block), the ten blocks cover the rows
  (coverK), so the array after the region is GK (regK_arr); and GK is the staged function of Spec once the bias row
  is the bias vector laid as one row (regK_val).
-/
import proofs.«401103_j7610682049034_2_alg».proof.Proof.Gen.KernelIdeal.Frame
import proofs.«401103_j7610682049034_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## elu on the extended reals, and the two spellings of it -/

/-- elu of an extended real: y where y > 0, otherwise exp y − 1. -/
def eluS (y : EReal) : EReal := Scalar.select (Ideal.cmp .ogt y 0) y (Ideal.exp y - 1)

/-- The exponential of an array, entry by entry. -/
theorem exp_apply {s : Shape} {φ : FTy} (a : FVec Ideal s φ) (i : s.Idx) : exp a i = Ideal.exp (a i) := rfl

/-- exp − 1 of an array, entry by entry. -/
theorem expm1_apply {s : Shape} {φ : FTy} (a : FVec Ideal s φ) (i : s.Idx) : Host.expm1 a i = Ideal.exp (a i) - 1 := rfl

/-- The guarded spelling  y if y > 0 else 1 · (exp (y if not y > 0 else 0) − 1)  is elu: where y > 0 both are y,
    elsewhere the inner guard returns y and the factor one drops. -/
theorem eluS_guarded (y : EReal) :
    Scalar.select (Ideal.cmp .ogt y 0) y (1 * (Ideal.exp (Scalar.select (Ideal.cmp .ogt y 0) 0 y) - 1)) = eluS y := by
  unfold eluS
  generalize Ideal.cmp .ogt y 0 = k
  by_cases h : k = 1
  · simp only [Scalar.select, h, if_true]
  · simp only [Scalar.select, h, if_false, one_mul]

theorem hz : (![0, 0] : Fin 2 → Nat) = fun _ => 0 := funext fun a => by fin_cases a <;> rfl

/-- A vector of K entries viewed as one row reads, at (0, j), entry j. -/
theorem rowCast_apply {K : Nat} (h : (⟨1, ![K]⟩ : Shape).ShapeCasts ⟨2, ![1, K]⟩) (b : (⟨1, ![K]⟩ : Shape).Idx → EReal) (j : Fin K) :
    shapeCast ⟨2, ![1, K]⟩ b h (ix2 (0 : Fin 1) j) = b (ix1 j) :=
  shapeCast_apply b h _ _ (by rw [Shape.rowMajor_val_one, Shape.rowMajor_val_two]; show j.val = 0 * K + j.val; omega)

/-! ## The staged function at an index -/

section Stage
variable [hR : Cert.ReferenceIdeal.Facts]

/-- The plain program's elu of an array, at an index: elu of the entry. -/
theorem elu_apply (S : Shape) (hb : Cert.ReferenceIdeal.S_.BroadcastsInDim S ![]) (x : Cert.Spec.FA Ideal S) (j : S.Idx) :
    Cert.Spec.elu (F := Ideal) S hb x j = eluS (x j) := by
  unfold Cert.Spec.elu
  rw [select_apply, cmpf_apply, mulf_apply, expm1_apply, select_apply, cmpf_apply]
  simp only [broadcastInDim_scalar_apply, constant_apply, id_eq, Ideal.cmpf_def, Ideal.ofBits_zero_f32, Ideal.ofBits_one_f32]
  exact eluS_guarded (x j)

/-- A vector of K entries laid as one row and that row repeated down R rows reads, at (r, j), entry j. -/
theorem rowBcast_apply {R K : Nat} (h1 : (⟨1, ![K]⟩ : Shape).BroadcastsInDim ⟨2, ![1, K]⟩ ![1])
    (h2 : (⟨2, ![1, K]⟩ : Shape).BroadcastsInDim ⟨2, ![R, K]⟩ ![0, 1]) (b : (⟨1, ![K]⟩ : Shape).Idx → EReal) (r : Fin R) (j : Fin K) :
    broadcastInDim ⟨2, ![R, K]⟩ ![0, 1] h2 (broadcastInDim ⟨2, ![1, K]⟩ ![1] h1 b) (ix2 r j) = b (ix1 j) := by
  rw [broadcastInDim_apply ![0, 1] h2 _ (ix2 r j) (ix2 (0 : Fin 1) j) (fun a => by
        match a with
        | ⟨0, _⟩ => rfl
        | ⟨1, _⟩ => show j.val = if K = 1 then 0 else j.val; split <;> [(have := j.isLt; omega); rfl]),
    broadcastInDim_apply ![1] h1 _ (ix2 (0 : Fin 1) j) (ix1 j) (fun a => by
        match a with
        | ⟨0, _⟩ => show j.val = if K = 1 then 0 else j.val; split <;> [(have := j.isLt; omega); rfl])]

/-- The staged function with 128 features at (r, j): elu of the entry plus the bias vector's entry j. -/
theorem eluB128_apply (a : Cert.Spec.FA Ideal S100000x128) (b : Cert.Spec.FA Ideal S128) (r : Fin 100000) (j : Fin 128) :
    Cert.Spec.eluB128 (F := Ideal) a b (ix2 r j) = eluS (a (ix2 r j) + b (ix1 j)) := by
  unfold Cert.Spec.eluB128
  rw [elu_apply, addf_apply, rowBcast_apply]

/-- The staged function with 64 features at (r, j): elu of the entry plus the bias vector's entry j. -/
theorem eluB64_apply (a : Cert.Spec.FA Ideal S100000x64) (b : Cert.Spec.FA Ideal S64) (r : Fin 100000) (j : Fin 64) :
    Cert.Spec.eluB64 (F := Ideal) a b (ix2 r j) = eluS (a (ix2 r j) + b (ix1 j)) := by
  unfold Cert.Spec.eluB64
  rw [elu_apply, addf_apply, rowBcast_apply]

/-- The staged function with 32 features at (r, j): elu of the entry plus the bias vector's entry j. -/
theorem eluB32_apply (a : Cert.Spec.FA Ideal S100000x32) (b : Cert.Spec.FA Ideal S32) (r : Fin 100000) (j : Fin 32) :
    Cert.Spec.eluB32 (F := Ideal) a b (ix2 r j) = eluS (a (ix2 r j) + b (ix1 j)) := by
  unfold Cert.Spec.eluB32
  rw [elu_apply, addf_apply, rowBcast_apply]

end Stage

variable (V : (c : Dev nD) → (b : Ref sig .tc) → Buf (Elt Ideal) ((c : Thread nD τ).loc b))

/-! ## Region 1: 128 features -/

/-- The block's arithmetic at (p, q): elu of the entry plus the bias row's entry q. -/
theorem pay1_apply (x0 : Vec Ideal S10000x128 .f32) (x1 : Vec Ideal S1x128 .f32) (p : Fin 10000) (q : Fin 128) :
    k1_pay1 x0 x1 (ix2 p q) = eluS (x0 (ix2 p q) + x1 (ix2 (0 : Fin 1) q)) := by
  unfold k1_pay1
  simp only [shapeCast_self]
  rw [select_apply, cmpf_apply, subf_apply, exp_apply, addf_apply, broadcast_apply, broadcast_apply, broadcastTo_1b_ab_apply]
  simp only [Ideal.cmpf_def, Scalar.ofBits, Ideal.ofBits_def, Ideal.ofBits_zero_f32, Ideal.ofBits_one_f32]
  rfl

/-- The whole array the region leaves: elu of each entry plus the bias row's entry of its column. -/
def G1 (a : S100000x128.Idx → EReal) (b : S1x128.Idx → EReal) : S100000x128.Idx → EReal :=
  fun i => eluS (a i + b (ix2 (0 : Fin 1) (i 1)))

/-- The block's arithmetic at an index j is the whole-array function at i, when the feature block at j is the
    array at i and the bias block at column j 1 is the bias row at column i 1. -/
theorem pay1_eq_G1 (x0 : Vec Ideal S10000x128 .f32) (x1 : Vec Ideal S1x128 .f32)
    (a : S100000x128.Idx → EReal) (b : S1x128.Idx → EReal) (j : S10000x128.Idx) (i : S100000x128.Idx)
    (h0 : x0 j = a i) (h1 : x1 (ix2 (0 : Fin 1) (j 1)) = b (ix2 (0 : Fin 1) (i 1))) :
    k1_pay1 x0 x1 j = G1 a b i := by
  obtain ⟨p, q, rfl⟩ : ∃ (p : Fin 10000) (q : Fin 128), j = ix2 p q := ⟨j 0, j 1, eq_ix2 j⟩
  rw [pay1_apply, h0]
  show eluS (a i + x1 (ix2 (0 : Fin 1) ((ix2 p q : S10000x128.Idx) 1))) = _
  rw [h1]
  rfl

/-- The printed index maps over the ten points: the feature and output windows sit at row block t, the bias window
    at its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the arrays the region finds. -/
theorem flushed1_eq (c : Dev nD) (t : Fin cfg1.N) :
    (dat1 V c).flushed 2 t = ((cfg1.win 2).blk t).view.read (Elt Ideal) (G1 (V c main_v47) (V c main_v48)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx1 t
  funext j
  refine pay1_eq_G1 _ _ _ _ j _ ?_ ?_
  · have h : ((cfg1.win 0).blk t).view.emb j = ((cfg1.win 2).blk t).view.emb j := by
      funext a; apply Fin.ext
      match a with
      | ⟨0, _⟩ => show win1_0.index t (0 : Fin 2) * 10000 + 1 * (j 0).val = win1_2.index t (0 : Fin 2) * 10000 + 1 * (j 0).val; omega
      | ⟨1, _⟩ => show win1_0.index t (1 : Fin 2) * 128 + 1 * (j 1).val = win1_2.index t (1 : Fin 2) * 128 + 1 * (j 1).val; omega
    show V c main_v47 (((cfg1.win 0).blk t).view.emb j) = V c main_v47 (((cfg1.win 2).blk t).view.emb j)
    rw [h]
  · have h : ((cfg1.win 1).blk t).view.emb (ix2 (0 : Fin 1) (j 1)) = ix2 (0 : Fin 1) ((((cfg1.win 2).blk t).view.emb j) 1) := by
      funext a; apply Fin.ext
      match a with
      | ⟨0, _⟩ => show win1_1.index t (0 : Fin 2) * 1 + 1 * 0 = 0; omega
      | ⟨1, _⟩ => show win1_1.index t (1 : Fin 2) * 128 + 1 * (j 1).val = win1_2.index t (1 : Fin 2) * 128 + 1 * (j 1).val; omega
    show V c main_v48 (((cfg1.win 1).blk t).view.emb (ix2 (0 : Fin 1) (j 1))) = V c main_v48 (ix2 (0 : Fin 1) ((((cfg1.win 2).blk t).view.emb j) 1))
    rw [h]
    rfl

/-- An index of the array lies in point t's block iff each coordinate lies in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Row r lies in the block of point r / 10000: the ten blocks cover the array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  have ht : (i 0).val / 10000 < cfg1.N := by rw [hN]; omega
  refine ⟨⟨(i 0).val / 10000, ht⟩, flush1_2 _, ?_⟩
  rw [mem_blk1]
  obtain ⟨-, -, -, -, e4, e5⟩ := idx1 ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 128 ≤ (i 1).val ∧ (i 1).val < win1_2.index ⟨(i 0).val / 10000, ht⟩ (1 : Fin 2) * 128 + 128
    rw [e5]
    omega

/-- The array after the region: the whole-array function of the arrays the region finds. -/
theorem reg1_arr (c : Dev nD) : (dat1 V c).arrAt 2 cfg1.N = G1 (V c main_v47) (V c main_v48) :=
  (dat1 V c).arrAt_eq_of_cover 2 (G1 (V c main_v47) (V c main_v48)) (fun t _ => flushed1_eq V c t) cover1

/-! ## Region 3: 64 features -/

/-- The block's arithmetic at (p, q): elu of the entry plus the bias row's entry q. -/
theorem pay3_apply (x0 : Vec Ideal S10000x64 .f32) (x1 : Vec Ideal S1x64 .f32) (p : Fin 10000) (q : Fin 64) :
    k3_pay1 x0 x1 (ix2 p q) = eluS (x0 (ix2 p q) + x1 (ix2 (0 : Fin 1) q)) := by
  unfold k3_pay1
  simp only [shapeCast_self]
  rw [select_apply, cmpf_apply, subf_apply, exp_apply, addf_apply, broadcast_apply, broadcast_apply, broadcastTo_1b_ab_apply]
  simp only [Ideal.cmpf_def, Scalar.ofBits, Ideal.ofBits_def, Ideal.ofBits_zero_f32, Ideal.ofBits_one_f32]
  rfl

/-- The whole array the region leaves: elu of each entry plus the bias row's entry of its column. -/
def G3 (a : S100000x64.Idx → EReal) (b : S1x64.Idx → EReal) : S100000x64.Idx → EReal :=
  fun i => eluS (a i + b (ix2 (0 : Fin 1) (i 1)))

/-- The block's arithmetic at an index j is the whole-array function at i, when the feature block at j is the
    array at i and the bias block at column j 1 is the bias row at column i 1. -/
theorem pay3_eq_G3 (x0 : Vec Ideal S10000x64 .f32) (x1 : Vec Ideal S1x64 .f32)
    (a : S100000x64.Idx → EReal) (b : S1x64.Idx → EReal) (j : S10000x64.Idx) (i : S100000x64.Idx)
    (h0 : x0 j = a i) (h1 : x1 (ix2 (0 : Fin 1) (j 1)) = b (ix2 (0 : Fin 1) (i 1))) :
    k3_pay1 x0 x1 j = G3 a b i := by
  obtain ⟨p, q, rfl⟩ : ∃ (p : Fin 10000) (q : Fin 64), j = ix2 p q := ⟨j 0, j 1, eq_ix2 j⟩
  rw [pay3_apply, h0]
  show eluS (a i + x1 (ix2 (0 : Fin 1) ((ix2 p q : S10000x64.Idx) 1))) = _
  rw [h1]
  rfl

/-- The printed index maps over the ten points: the feature and output windows sit at row block t, the bias window
    at its one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the arrays the region finds. -/
theorem flushed3_eq (c : Dev nD) (t : Fin cfg3.N) :
    (dat3 V c).flushed 2 t = ((cfg3.win 2).blk t).view.read (Elt Ideal) (G3 (V c main_v63) (V c main_v64)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx3 t
  funext j
  refine pay3_eq_G3 _ _ _ _ j _ ?_ ?_
  · have h : ((cfg3.win 0).blk t).view.emb j = ((cfg3.win 2).blk t).view.emb j := by
      funext a; apply Fin.ext
      match a with
      | ⟨0, _⟩ => show win3_0.index t (0 : Fin 2) * 10000 + 1 * (j 0).val = win3_2.index t (0 : Fin 2) * 10000 + 1 * (j 0).val; omega
      | ⟨1, _⟩ => show win3_0.index t (1 : Fin 2) * 64 + 1 * (j 1).val = win3_2.index t (1 : Fin 2) * 64 + 1 * (j 1).val; omega
    show V c main_v63 (((cfg3.win 0).blk t).view.emb j) = V c main_v63 (((cfg3.win 2).blk t).view.emb j)
    rw [h]
  · have h : ((cfg3.win 1).blk t).view.emb (ix2 (0 : Fin 1) (j 1)) = ix2 (0 : Fin 1) ((((cfg3.win 2).blk t).view.emb j) 1) := by
      funext a; apply Fin.ext
      match a with
      | ⟨0, _⟩ => show win3_1.index t (0 : Fin 2) * 1 + 1 * 0 = 0; omega
      | ⟨1, _⟩ => show win3_1.index t (1 : Fin 2) * 64 + 1 * (j 1).val = win3_2.index t (1 : Fin 2) * 64 + 1 * (j 1).val; omega
    show V c main_v64 (((cfg3.win 1).blk t).view.emb (ix2 (0 : Fin 1) (j 1))) = V c main_v64 (ix2 (0 : Fin 1) ((((cfg3.win 2).blk t).view.emb j) 1))
    rw [h]
    rfl

/-- An index of the array lies in point t's block iff each coordinate lies in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v65).slice (win3_2.rect t)).set ↔ _
  rw [View.set_slice_whole, Rect.mem_set_unit]
  exact Iff.rfl

/-- Row r lies in the block of point r / 10000: the ten blocks cover the array. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  refine ⟨⟨(i 0).val / 10000, ht⟩, flush3_2 _, ?_⟩
  rw [mem_blk3]
  obtain ⟨-, -, -, -, e4, e5⟩ := idx3 ⟨(i 0).val / 10000, ht⟩
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]
    omega

/-- The array after the region: the whole-array function of the arrays the region finds. -/
theorem reg3_arr (c : Dev nD) : (dat3 V c).arrAt 2 cfg3.N = G3 (V c main_v63) (V c main_v64) :=
  (dat3 V c).arrAt_eq_of_cover 2 (G3 (V c main_v63) (V c main_v64)) (fun t _ => flushed3_eq V c t) cover3

/-! ## Region 5: 32 features -/

/-- The block's arithmetic at (p, q): elu of the entry plus the bias row's entry q. -/
theorem pay5_apply (x0 : Vec Ideal S10000x32 .f32) (x1 : Vec Ideal S1x32 .f32) (p : Fin 10000) (q : Fin 32) :
    k5_pay1 x0 x1 (ix2 p q) = eluS (x0 (ix2 p q) + x1 (ix2 (0 : Fin 1) q)) := by
  unfold k5_pay1
  simp only [shapeCast_self]
  rw [select_apply, cmpf_apply, subf_apply, exp_apply, addf_apply, broadcast_apply, broadcast_apply, broadcastTo_1b_ab_apply]
  simp only [Ideal.cmpf_def, Scalar.ofBits, Ideal.ofBits_def, Ideal.ofBits_zero_f32, Ideal.ofBits_one_f32]
  rfl

/-- The whole array the region leaves: elu of each entry plus the bias row's entry of its column. -/
def G5 (a : S100000x32.Idx → EReal) (b : S1x32.Idx → EReal) : S100000x32.Idx → EReal :=
  fun i => eluS (a i + b (ix2 (0 : Fin 1) (i 1)))

/-- The block's arithmetic at an index j is the whole-array function at i, when the feature block at j is the
    array at i and the bias block at column j 1 is the bias row at column i 1. -/
theorem pay5_eq_G5 (x0 : Vec Ideal S10000x32 .f32) (x1 : Vec Ideal S1x32 .f32)
    (a : S100000x32.Idx → EReal) (b : S1x32.Idx → EReal) (j : S10000x32.Idx) (i : S100000x32.Idx)
    (h0 : x0 j = a i) (h1 : x1 (ix2 (0 : Fin 1) (j 1)) = b (ix2 (0 : Fin 1) (i 1))) :
    k5_pay1 x0 x1 j = G5 a b i := by
  obtain ⟨p, q, rfl⟩ : ∃ (p : Fin 10000) (q : Fin 32), j = ix2 p q := ⟨j 0, j 1, eq_ix2 j⟩
  rw [pay5_apply, h0]
  show eluS (a i + x1 (ix2 (0 : Fin 1) ((ix2 p q : S10000x32.Idx) 1))) = _
  rw [h1]
  rfl

/-- The printed index maps over the ten points: the feature and output windows sit at row block t, the bias window
    at its one block. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array function of the arrays the region finds. -/
theorem flushed5_eq (c : Dev nD) (t : Fin cfg5.N) :
    (dat5 V c).flushed 2 t = ((cfg5.win 2).blk t).view.read (Elt Ideal) (G5 (V c main_v79) (V c main_v80)) := by
  show (cfg5.win 2).cut (grid5.coords t) ((dat5 V c).after 2 t) = _
  rw [after5_2]
  unfold out5_2
  rw [View.canon_unit_zero hz]
  simp only [View.ld_unit_zero (S := S10000x32) hz, View.ld_unit_zero (S := S1x32) hz]
  obtain ⟨e0, e1, e2, e3, e4, e5⟩ := idx5 t
  funext j
  refine pay5_eq_G5 _ _ _ _ j _ ?_ ?_
  · have h : ((cfg5.win 0).blk t).view.emb j = ((cfg5.win 2).blk t).view.emb j := by
      funext a; apply Fin.ext
      match a with
      | ⟨0, _⟩ => show win5_0.index t (0 : Fin 2) * 10000 + 1 * (j 0).val = win5_2.index t (0 : Fin 2) * 10000 + 1 * (j 0).val; omega
      | ⟨1, _⟩ => show win5_0.index t (1 : Fin 2) * 32 + 1 * (j 1).val = win5_2.index t (1 : Fin 2) * 32 + 1 * (j 1).val; omega
    show V c main_v79 (((cfg5.win 0).blk t).view.emb j) = V c main_v79 (((cfg5.win 2).blk t).view.emb j)
    rw [h]
  · have h : ((cfg5.win 1).blk t).view.emb (ix2 (0 : Fin 1) (j 1)) = ix2 (0 : Fin 1) ((((cfg5.win 2).blk t).view.emb j) 1) := by
      funext a; apply Fin.ext
      match a with
      | ⟨0, _⟩ => show win5_1.index t (0 : Fin 2) * 1 + 1 * 0 = 0; omega
      | ⟨1, _⟩ => show win5_1.index t (1 : Fin 2) * 32 + 1 * (j 1).val = win5_2.index t (1 : Fin 2) * 32 + 1 * (j 1).val; omega
    show V c main_v80 (((cfg5.win 1).blk t).view.emb (ix2 (0 : Fin 1) (j 1))) = V c main_v80 (ix2 (0 : Fin 1) ((((cfg5.win 2).blk t).view.emb j) 1))
    rw [h]
    rfl

/-- An index of the array lies in point t's block iff each coordinate lies in the block's range on its axis. -/
theorem mem_blk5 (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v81).slice (win5_2.rect t)).set ↔ _
  rw [View.set_slice_whole, Rect.mem_set_unit]
  exact Iff.rfl

/-- Row r lies in the block of point r / 10000: the ten blocks cover the array. -/
theorem cover5 (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 10 := N_5
  have ht : (i 0).val / 10000 < cfg5.N := by rw [hN]; omega
  refine ⟨⟨(i 0).val / 10000, ht⟩, flush5_2 _, ?_⟩
  rw [mem_blk5]
  obtain ⟨-, -, -, -, e4, e5⟩ := idx5 ⟨(i 0).val / 10000, ht⟩
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, ht⟩ (1 : Fin 2) * 32 ≤ (i 1).val ∧ (i 1).val < win5_2.index ⟨(i 0).val / 10000, ht⟩ (1 : Fin 2) * 32 + 32
    rw [e5]
    omega

/-- The array after the region: the whole-array function of the arrays the region finds. -/
theorem reg5_arr (c : Dev nD) : (dat5 V c).arrAt 2 cfg5.N = G5 (V c main_v79) (V c main_v80) :=
  (dat5 V c).arrAt_eq_of_cover 2 (G5 (V c main_v79) (V c main_v80)) (fun t _ => flushed5_eq V c t) cover5

/-! ## The regions against the staged functions -/

section Val
variable [hR : Cert.ReferenceIdeal.Facts]

/-- Region 1 leaves the staged function of the features it finds and the bias vector, the bias row being that
    vector laid as one row. -/
theorem reg1_val (c : Dev nD) (b : Cert.Spec.FA Ideal S128) (hb : V c main_v48 = shapeCast S1x128 b shapeCasts_S128_S1x128) :
    (dat1 V c).arrAt 2 cfg1.N = Cert.Spec.eluB128 (F := Ideal) (V c main_v47) b := by
  rw [reg1_arr]
  funext i
  obtain ⟨r, j, rfl⟩ : ∃ (r : Fin 100000) (j : Fin 128), i = ix2 r j := ⟨i 0, i 1, eq_ix2 i⟩
  rw [eluB128_apply]
  unfold G1
  rw [hb]
  show eluS (_ + shapeCast S1x128 b shapeCasts_S128_S1x128 (ix2 (0 : Fin 1) j)) = _
  rw [rowCast_apply]

/-- Region 3 leaves the staged function of the features it finds and the bias vector, the bias row being that
    vector laid as one row. -/
theorem reg3_val (c : Dev nD) (b : Cert.Spec.FA Ideal S64) (hb : V c main_v64 = shapeCast S1x64 b shapeCasts_S64_S1x64) :
    (dat3 V c).arrAt 2 cfg3.N = Cert.Spec.eluB64 (F := Ideal) (V c main_v63) b := by
  rw [reg3_arr]
  funext i
  obtain ⟨r, j, rfl⟩ : ∃ (r : Fin 100000) (j : Fin 64), i = ix2 r j := ⟨i 0, i 1, eq_ix2 i⟩
  rw [eluB64_apply]
  unfold G3
  rw [hb]
  show eluS (_ + shapeCast S1x64 b shapeCasts_S64_S1x64 (ix2 (0 : Fin 1) j)) = _
  rw [rowCast_apply]

/-- Region 5 leaves the staged function of the features it finds and the bias vector, the bias row being that
    vector laid as one row. -/
theorem reg5_val (c : Dev nD) (b : Cert.Spec.FA Ideal S32) (hb : V c main_v80 = shapeCast S1x32 b shapeCasts_S32_S1x32) :
    (dat5 V c).arrAt 2 cfg5.N = Cert.Spec.eluB32 (F := Ideal) (V c main_v79) b := by
  rw [reg5_arr]
  funext i
  obtain ⟨r, j, rfl⟩ : ∃ (r : Fin 100000) (j : Fin 32), i = ix2 r j := ⟨i 0, i 1, eq_ix2 i⟩
  rw [eluB32_apply]
  unfold G5
  rw [hb]
  show eluS (_ + shapeCast S1x32 b shapeCasts_S32_S1x32 (ix2 (0 : Fin 1) j)) = _
  rw [rowCast_apply]

end Val

end Cert.KernelIdeal.Hand

end
-- ==== Proof.KerPoolBody.lean ====
/-
  The pooling body, read as values. At the first grid point the body stores a zero block into each of its two outputs,
  reads it back, and adds the point's contribution; at every later point it adds the contribution to what the point
  before left. A contribution is a product over the 10000 nodes of the block: the [10000,64] matrix with a one at
  (p, g) where node p carries graph id g and a zero elsewhere, transposed, times the [10000,32] block of features
  (for the sums) or times a column of ones (for the counts). Over the extended reals a product with that matrix is a
  sum in which the nodes of another graph contribute nothing:  0 · y = 0  for every y, infinite ones included, and
  1 · y = y.
-/
import proofs.«401103_j7610682049034_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.KernelIdeal.Facts₀ Cert.KernelIdeal.Facts

/-! ## What each control case leaves in the two outputs -/

section Pieces
variable {F : FTy → Type} [FloatOps F]

theorem zero_offsets : (![0, 0] : Fin 2 → Nat) = fun _ => 0 := funext fun a => by fin_cases a <;> rfl

/-- At a later point the [64,32] output ends at the one store's payload: the running sums plus the block's product. -/
theorem sums_later (c : Dev nD) (i : grid6.Coords) (a1 : Memref sig .tc .vmem S10000x1 .i32) (h1 : a1.IsWhole)
    (a2 : Memref sig .tc .vmem S10000x32 .f32) (h2 : a2.IsWhole) (a3 : Memref sig .tc .vmem S64x32 .f32) (h3 : a3.IsWhole)
    (a4 : Memref sig .tc .vmem S64x1 .f32) (h4 : a4.IsWhole) (hc : ¬cond6_0 i)
    (x0 : Vec F S10000x1 .i32) (x1 : Vec F S10000x32 .f32) (xo2 : Vec F S64x32 .f32) (xo3 : Vec F S64x1 .f32) :
    out6_B_2 c i a1 h1 a2 h2 a3 h3 a4 h4 hc x0 x1 xo2 xo3 = k6_pay4 x0 x1 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero zero_offsets]
  simp only [View.readAt_eq_ld, h1.read_unread, h2.read_unread, h3.read_unread, View.ld_unit_zero (S := S10000x1) zero_offsets,
    View.ld_unit_zero (S := S10000x32) zero_offsets, View.ld_unit_zero (S := S64x32) zero_offsets]

/-- At a later point the [64,1] output ends at the running counts plus the block's product with the ones. -/
theorem counts_later (c : Dev nD) (i : grid6.Coords) (a1 : Memref sig .tc .vmem S10000x1 .i32) (h1 : a1.IsWhole)
    (a2 : Memref sig .tc .vmem S10000x32 .f32) (h2 : a2.IsWhole) (a3 : Memref sig .tc .vmem S64x32 .f32) (h3 : a3.IsWhole)
    (a4 : Memref sig .tc .vmem S64x1 .f32) (h4 : a4.IsWhole) (hc : ¬cond6_0 i)
    (x0 : Vec F S10000x1 .i32) (x1 : Vec F S10000x32 .f32) (xo2 : Vec F S64x32 .f32) (xo3 : Vec F S64x1 .f32) :
    out6_B_3 c i a1 h1 a2 h2 a3 h3 a4 h4 hc x0 x1 xo2 xo3 = k6_pay5 x0 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero zero_offsets]
  simp only [View.readAt_eq_ld, h1.read_unread, h4.read_unread, View.ld_unit_zero (S := S10000x1) zero_offsets,
    View.ld_unit_zero (S := S64x1) zero_offsets]

/-- At the first point the [64,32] output is zeroed, read back, and ends at the zero block plus the block's product. -/
theorem sums_first (c : Dev nD) (i : grid6.Coords) (a1 : Memref sig .tc .vmem S10000x1 .i32) (h1 : a1.IsWhole)
    (a2 : Memref sig .tc .vmem S10000x32 .f32) (h2 : a2.IsWhole) (a3 : Memref sig .tc .vmem S64x32 .f32) (h3 : a3.IsWhole)
    (a4 : Memref sig .tc .vmem S64x1 .f32) (h4 : a4.IsWhole) (hc : cond6_0 i)
    (x0 : Vec F S10000x1 .i32) (x1 : Vec F S10000x32 .f32) :
    out6_A_2 c i a1 h1 a2 h2 a3 h3 a4 h4 hc x0 x1 = k6_pay4 x0 x1 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S64x32) zero_offsets, View.readCov_unit_zero (S := S64x32) _ zero_offsets]
  simp only [View.readAt_eq_ld, h1.read_unread, h2.read_unread, View.ld_unit_zero (S := S10000x1) zero_offsets,
    View.ld_unit_zero (S := S10000x32) zero_offsets]

/-- At the first point the [64,1] output is zeroed, read back, and ends at the zero block plus the block's product with the ones. -/
theorem counts_first (c : Dev nD) (i : grid6.Coords) (a1 : Memref sig .tc .vmem S10000x1 .i32) (h1 : a1.IsWhole)
    (a2 : Memref sig .tc .vmem S10000x32 .f32) (h2 : a2.IsWhole) (a3 : Memref sig .tc .vmem S64x32 .f32) (h3 : a3.IsWhole)
    (a4 : Memref sig .tc .vmem S64x1 .f32) (h4 : a4.IsWhole) (hc : cond6_0 i)
    (x0 : Vec F S10000x1 .i32) (x1 : Vec F S10000x32 .f32) :
    out6_A_3 c i a1 h1 a2 h2 a3 h3 a4 h4 hc x0 x1 = k6_pay5 x0 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S64x1) zero_offsets, View.readCov_unit_zero (S := S64x1) _ zero_offsets]
  simp only [View.readAt_eq_ld, h1.read_unread, View.ld_unit_zero (S := S10000x1) zero_offsets]

end Pieces

/-! ## The payloads at an index, over the extended reals -/

section AtIdeal

/-- A compare for equality, widened to a word and converted: one where the two words agree, zero elsewhere. -/
theorem hot_eq (a b : BitVec 32) :
    (FloatOps.sitofp (F := Ideal) .f32 ((IntOp.cmpi .eq a b).setWidth 32) : EReal) = if a = b then 1 else 0 := by
  by_cases h : a = b
  · subst h
    rw [if_pos rfl]
    have e : IntOp.cmpi .eq a a = 1#1 := by simp [IntOp.cmpi]
    rw [e]
    show ((((1#1 : BitVec 1).setWidth 32).toInt : ℝ) : EReal) = 1
    rw [show ((1#1 : BitVec 1).setWidth 32).toInt = 1 from by decide]
    norm_num
  · rw [if_neg h]
    have e : IntOp.cmpi .eq a b = 0#1 := by simp [IntOp.cmpi, beq_eq_false_iff_ne.mpr h]
    rw [e]
    show ((((0#1 : BitVec 1).setWidth 32).toInt : ℝ) : EReal) = 0
    rw [show ((0#1 : BitVec 1).setWidth 32).toInt = 0 from by decide]
    norm_num

/-- The [10000,64] matrix of the block at (p, g): one where node p carries graph id g, zero elsewhere. The id column
    is laid along the 64 columns and compared with the column number. -/
theorem hot_apply (x0 : Vec Ideal S10000x1 .i32) (p : Fin 10000) (g : Fin 64) :
    (k6_pay3 (F := Ideal) x0 (ix2 p g) : EReal) = if x0 (ix2 p (0 : Fin 1)) = BitVec.ofNat 32 g.val then 1 else 0 := by
  have e1 : ∀ (hc : S10000x1.ShapeCasts S10000x1) (hb : S10000x1.Broadcasts S10000x64),
      broadcastTo S10000x64 (shapeCast S10000x1 x0 hc) hb (ix2 p g) = x0 (ix2 p (0 : Fin 1)) := fun hc hb => by
    rw [shapeCast_self]
    refine broadcastTo_apply x0 hb (ix2 p g) (ix2 p (0 : Fin 1)) fun ax => ?_
    match ax with
    | ⟨0, _⟩ => rfl
    | ⟨1, _⟩ => rfl
  have e2 : ∀ (hi : S10000x64.Iotas .tc 32 [1]), iota .tc S10000x64 32 [1] hi (ix2 p g) = BitVec.ofNat 32 g.val :=
    fun hi => iota_single_apply .tc S10000x64 32 1 hi (ix2 p g)
  unfold k6_pay3
  refine Eq.trans ?_ (hot_eq (x0 (ix2 p (0 : Fin 1))) (BitVec.ofNat 32 g.val))
  exact congrArg₂ (fun a b => (FloatOps.sitofp (F := Ideal) .f32 ((IntOp.cmpi .eq a b).setWidth 32) : EReal)) (e1 _ _) (e2 _)

theorem lhs32_0 (j : S64x32.Idx) (k : dot_S10000x64_S10000x32_S64x32_0_0_1_1_n_n.contr.Idx) :
    (dot_S10000x64_S10000x32_S64x32_0_0_1_1_n_n.lhsIdx j k 0).val = (k ⟨0, by decide⟩).val :=
  dot_S10000x64_S10000x32_S64x32_0_0_1_1_n_n.lhsIdx_val_of_single (cl := 0) rfl j k
theorem rhs32_0 (j : S64x32.Idx) (k : dot_S10000x64_S10000x32_S64x32_0_0_1_1_n_n.contr.Idx) :
    (dot_S10000x64_S10000x32_S64x32_0_0_1_1_n_n.rhsIdx j k 0).val = (k ⟨0, by decide⟩).val :=
  dot_S10000x64_S10000x32_S64x32_0_0_1_1_n_n.rhsIdx_val_of_single (cr := 0) rfl j k
theorem lhs32_1 (j : S64x32.Idx) (k : dot_S10000x64_S10000x32_S64x32_0_0_1_1_n_n.contr.Idx) :
    (dot_S10000x64_S10000x32_S64x32_0_0_1_1_n_n.lhsIdx j k 1).val = (j 0).val := by
  unfold DotDims.lhsIdx
  rw [dif_neg (show ¬(1 : Fin S10000x64.rank) ∈ dot_S10000x64_S10000x32_S64x32_0_0_1_1_n_n.lhsBatch by decide),
    dif_pos (show (1 : Fin S10000x64.rank) ∈ dot_S10000x64_S10000x32_S64x32_0_0_1_1_n_n.lhsNonContracting by decide)]
  rfl
theorem rhs32_1 (j : S64x32.Idx) (k : dot_S10000x64_S10000x32_S64x32_0_0_1_1_n_n.contr.Idx) :
    (dot_S10000x64_S10000x32_S64x32_0_0_1_1_n_n.rhsIdx j k 1).val = (j 1).val := by
  unfold DotDims.rhsIdx
  rw [dif_neg (show ¬(1 : Fin S10000x32.rank) ∈ dot_S10000x64_S10000x32_S64x32_0_0_1_1_n_n.rhsBatch by decide),
    dif_pos (show (1 : Fin S10000x32.rank) ∈ dot_S10000x64_S10000x32_S64x32_0_0_1_1_n_n.rhsNonContracting by decide)]
  rfl

theorem lhs1_0 (j : S64x1.Idx) (k : dot_S10000x64_S10000x1_S64x1_0_0_1_1_n_n.contr.Idx) :
    (dot_S10000x64_S10000x1_S64x1_0_0_1_1_n_n.lhsIdx j k 0).val = (k ⟨0, by decide⟩).val :=
  dot_S10000x64_S10000x1_S64x1_0_0_1_1_n_n.lhsIdx_val_of_single (cl := 0) rfl j k
theorem rhs1_0 (j : S64x1.Idx) (k : dot_S10000x64_S10000x1_S64x1_0_0_1_1_n_n.contr.Idx) :
    (dot_S10000x64_S10000x1_S64x1_0_0_1_1_n_n.rhsIdx j k 0).val = (k ⟨0, by decide⟩).val :=
  dot_S10000x64_S10000x1_S64x1_0_0_1_1_n_n.rhsIdx_val_of_single (cr := 0) rfl j k
theorem lhs1_1 (j : S64x1.Idx) (k : dot_S10000x64_S10000x1_S64x1_0_0_1_1_n_n.contr.Idx) :
    (dot_S10000x64_S10000x1_S64x1_0_0_1_1_n_n.lhsIdx j k 1).val = (j 0).val := by
  unfold DotDims.lhsIdx
  rw [dif_neg (show ¬(1 : Fin S10000x64.rank) ∈ dot_S10000x64_S10000x1_S64x1_0_0_1_1_n_n.lhsBatch by decide),
    dif_pos (show (1 : Fin S10000x64.rank) ∈ dot_S10000x64_S10000x1_S64x1_0_0_1_1_n_n.lhsNonContracting by decide)]
  rfl
theorem rhs1_1 (j : S64x1.Idx) (k : dot_S10000x64_S10000x1_S64x1_0_0_1_1_n_n.contr.Idx) :
    (dot_S10000x64_S10000x1_S64x1_0_0_1_1_n_n.rhsIdx j k 1).val = (j 1).val := by
  unfold DotDims.rhsIdx
  rw [dif_neg (show ¬(1 : Fin S10000x1.rank) ∈ dot_S10000x64_S10000x1_S64x1_0_0_1_1_n_n.rhsBatch by decide),
    dif_pos (show (1 : Fin S10000x1.rank) ∈ dot_S10000x64_S10000x1_S64x1_0_0_1_1_n_n.rhsNonContracting by decide)]
  rfl

/-- The product of a transposed [10000,64] matrix with a [10000,32] matrix into zero, at (g, f): the sum over the rows. -/
theorem matmul32_apply (L : FVec Ideal S10000x64 .f32) (R : FVec Ideal S10000x32 .f32) (g : Fin 64) (f : Fin 32) :
    FloatOps.matmul dot_S10000x64_S10000x32_S64x32_0_0_1_1_n_n none L R (constant S64x32 .f32 0x00000000#32) (ix2 g f)
      = ∑ p : Fin 10000, L (ix2 p g) * R (ix2 p f) := by
  rw [Ideal.matmul_constant_zero_apply]
  rw [← Equiv.sum_comp (contrEquiv1 dot_S10000x64_S10000x32_S64x32_0_0_1_1_n_n 10000 rfl rfl).symm]
  refine Finset.sum_congr rfl fun p _ => ?_
  have hk := contrEquiv1_symm_val dot_S10000x64_S10000x32_S64x32_0_0_1_1_n_n 10000 rfl rfl p
  congr 1
  · exact congrArg L (Shape.idx_ext₂ ((lhs32_0 _ _).trans hk) (lhs32_1 _ _))
  · exact congrArg R (Shape.idx_ext₂ ((rhs32_0 _ _).trans hk) (rhs32_1 _ _))

/-- The same against a [10000,1] column, at (g, 0). -/
theorem matmul1_apply (L : FVec Ideal S10000x64 .f32) (R : FVec Ideal S10000x1 .f32) (g : Fin 64) :
    FloatOps.matmul dot_S10000x64_S10000x1_S64x1_0_0_1_1_n_n none L R (constant S64x1 .f32 0x00000000#32) (ix2 g (0 : Fin 1))
      = ∑ p : Fin 10000, L (ix2 p g) * R (ix2 p (0 : Fin 1)) := by
  rw [Ideal.matmul_constant_zero_apply]
  rw [← Equiv.sum_comp (contrEquiv1 dot_S10000x64_S10000x1_S64x1_0_0_1_1_n_n 10000 rfl rfl).symm]
  refine Finset.sum_congr rfl fun p _ => ?_
  have hk := contrEquiv1_symm_val dot_S10000x64_S10000x1_S64x1_0_0_1_1_n_n 10000 rfl rfl p
  congr 1
  · exact congrArg L (Shape.idx_ext₂ ((lhs1_0 _ _).trans hk) (lhs1_1 _ _))
  · exact congrArg R (Shape.idx_ext₂ ((rhs1_0 _ _).trans hk) (rhs1_1 _ _))

/-- A product with the one-or-zero factor keeps the other factor or vanishes: 1 · y = y and 0 · y = 0 for every
    extended real y. -/
theorem hot_mul (a b : BitVec 32) (y : EReal) : (if a = b then (1 : EReal) else 0) * y = if a = b then y else 0 := by
  by_cases h : a = b
  · rw [if_pos h, if_pos h, one_mul]
  · rw [if_neg h, if_neg h, zero_mul]

/-- The float one as the kernel's column of ones and the plain program's updates both spell it. -/
abbrev one : EReal := Ideal.ofBits .f32 0x3F800000#32

/-- The sums' payload at (g, f): what was there plus, over the block's nodes that carry id g, their feature f. -/
theorem sums_apply (x0 : Vec Ideal S10000x1 .i32) (x1 : Vec Ideal S10000x32 .f32) (xo : Vec Ideal S64x32 .f32)
    (g : Fin 64) (f : Fin 32) :
    (k6_pay4 (F := Ideal) x0 x1 xo (ix2 g f) : EReal)
      = xo (ix2 g f) + ∑ p : Fin 10000, if x0 (ix2 p (0 : Fin 1)) = BitVec.ofNat 32 g.val then (x1 (ix2 p f) : EReal) else 0 := by
  have em : ∀ (hc : S10000x32.ShapeCasts S10000x32),
      FloatOps.matmul dot_S10000x64_S10000x32_S64x32_0_0_1_1_n_n none (k6_pay3 (F := Ideal) x0) (shapeCast S10000x32 x1 hc) (constant S64x32 .f32 0x00000000#32) (ix2 g f)
        = ∑ p : Fin 10000, if x0 (ix2 p (0 : Fin 1)) = BitVec.ofNat 32 g.val then (x1 (ix2 p f) : EReal) else 0 := fun hc => by
    rw [shapeCast_self]
    refine (matmul32_apply (k6_pay3 (F := Ideal) x0) x1 g f).trans (Finset.sum_congr rfl fun p _ => ?_)
    rw [hot_apply]
    exact hot_mul _ _ _
  have eo : ∀ (hc : S64x32.ShapeCasts S64x32), shapeCast S64x32 xo hc (ix2 g f) = xo (ix2 g f) := fun hc => by rw [shapeCast_self]
  unfold k6_pay4
  exact congrArg₂ (fun a b : EReal => a + b) (eo _) (em _)

/-- The counts' payload at (g, 0): what was there plus a one for every node of the block that carries id g. -/
theorem counts_apply (x0 : Vec Ideal S10000x1 .i32) (xo : Vec Ideal S64x1 .f32) (g : Fin 64) :
    (k6_pay5 (F := Ideal) x0 xo (ix2 g (0 : Fin 1)) : EReal)
      = xo (ix2 g (0 : Fin 1)) + ∑ p : Fin 10000, if x0 (ix2 p (0 : Fin 1)) = BitVec.ofNat 32 g.val then one else 0 := by
  have em : FloatOps.matmul dot_S10000x64_S10000x1_S64x1_0_0_1_1_n_n none (k6_pay3 (F := Ideal) x0) (broadcast S10000x1 (Scalar.ofBits (F := Ideal) .f32 0x3F800000#32))
        (constant S64x1 .f32 0x00000000#32) (ix2 g (0 : Fin 1))
        = ∑ p : Fin 10000, if x0 (ix2 p (0 : Fin 1)) = BitVec.ofNat 32 g.val then one else 0 := by
    refine (matmul1_apply (k6_pay3 (F := Ideal) x0) _ g).trans (Finset.sum_congr rfl fun p _ => ?_)
    rw [hot_apply]
    exact hot_mul _ _ _
  have eo : ∀ (hc : S64x1.ShapeCasts S64x1), shapeCast S64x1 xo hc (ix2 g (0 : Fin 1)) = xo (ix2 g (0 : Fin 1)) := fun hc => by rw [shapeCast_self]
  unfold k6_pay5
  exact congrArg₂ (fun a b : EReal => a + b) (eo _) em

/-- The zero blocks the first point stores read zero everywhere. -/
theorem zeros32_apply (i : S64x32.Idx) : (k6_pay1 (F := Ideal) i : EReal) = 0 := by
  unfold k6_pay1
  exact Ideal.ofBits_zero_f32
theorem zeros1_apply (i : S64x1.Idx) : (k6_pay2 (F := Ideal) i : EReal) = 0 := by
  unfold k6_pay2
  exact Ideal.ofBits_zero_f32

end AtIdeal

end Cert.KernelIdeal.Hand
end
-- ==== Proof.KerPoolRun.lean ====
/-
  The pooling region's run, read as values. The ten grid points walk the 100000 nodes in blocks of 10000; the two
  outputs keep one block, the whole [64,32] resp. [64,1] array, across the points and write it back after the last.
  After point n they hold, for every graph g, the sum over the first 10000 · (n + 1) nodes of the node's feature row
  (resp. of a one) where the node carries id g — an induction on the point, each step splitting an initial segment
  of the naturals into the segment before and the block:  ∑_{r < a + b} = ∑_{r < a} + ∑_{p < b} (a + p).  So the two
  arrays end at the sums over all nodes.
-/
import proofs.«401103_j7610682049034_2_alg».proof.Proof.KerPoolBody
import Mathlib.Algebra.BigOperators.Fin

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-! ## The region's run: after point n the outputs hold the sums over the first 10000 · (n + 1) nodes -/

section Run
variable (V : (c : Dev nD) → (b : Ref sig .tc) → Buf (Elt Ideal) ((c : Thread nD τ).loc b))

/-- The id column and the feature rows as the region finds them, and their blocks at a point, at their literal types. -/
abbrev ids (c : Dev nD) : Vec Ideal S100000x1 .i32 := V c main_v82
abbrev feats (c : Dev nD) : Vec Ideal S100000x32 .f32 := V c main_v81
abbrev idBlk (c : Dev nD) (t : Fin cfg6.N) : Vec Ideal S10000x1 .i32 := iblk6 V c 0 t
abbrev featBlk (c : Dev nD) (t : Fin cfg6.N) : Vec Ideal S10000x32 .f32 := iblk6 V c 1 t

/-- Both input windows step one block of 10000 rows per point and stay in column block 0. -/
theorem in_index : ∀ t : Fin cfg6.N, win6_0.index t 0 = t.val ∧ win6_0.index t 1 = 0 ∧ win6_1.index t 0 = t.val ∧ win6_1.index t 1 = 0 :=
  (by decide +kernel : ∀ t : Fin grid6.N, win6_0.index t 0 = t.val ∧ win6_0.index t 1 = 0 ∧ win6_1.index t 0 = t.val ∧ win6_1.index t 1 = 0)

/-- Row p of the id block at point t is node 10000 t + p. -/
theorem idBlk_apply (c : Dev nD) (t : Fin cfg6.N) (p : Fin 10000) (hr : 10000 * t.val + p.val < 100000) :
    idBlk V c t (ix2 p (0 : Fin 1)) = ids V c (ix2 (⟨10000 * t.val + p.val, hr⟩ : Fin 100000) (0 : Fin 1)) := by
  have hi := in_index t
  show iblk6 V c 0 t (ix2 p (0 : Fin 1)) = _
  unfold iblk6
  rw [View.read_apply]
  show V c main_v82 _ = V c main_v82 _
  congr 1
  funext a
  apply Fin.ext
  match a with
  | ⟨0, _⟩ => show win6_0.index t 0 * 10000 + 1 * p.val = 10000 * t.val + p.val; rw [hi.1]; omega
  | ⟨1, _⟩ => show win6_0.index t 1 * 1 + 1 * 0 = 0; rw [hi.2.1]

/-- Row p of the feature block at point t is node 10000 t + p. -/
theorem featBlk_apply (c : Dev nD) (t : Fin cfg6.N) (p : Fin 10000) (f : Fin 32) (hr : 10000 * t.val + p.val < 100000) :
    featBlk V c t (ix2 p f) = feats V c (ix2 (⟨10000 * t.val + p.val, hr⟩ : Fin 100000) f) := by
  have hi := in_index t
  show iblk6 V c 1 t (ix2 p f) = _
  unfold iblk6
  rw [View.read_apply]
  show V c main_v81 _ = V c main_v81 _
  congr 1
  funext a
  apply Fin.ext
  match a with
  | ⟨0, _⟩ => show win6_1.index t 0 * 10000 + 1 * p.val = 10000 * t.val + p.val; rw [hi.2.2.1]; omega
  | ⟨1, _⟩ => show win6_1.index t 1 * 32 + 1 * f.val = f.val; rw [hi.2.2.2]; omega

/-- Node r's contribution to graph g in feature f: its feature where it carries id g, nothing elsewhere (and nothing
    past the last node, so that the partial sums are sums over an initial segment of the naturals). -/
def sumTerm (c : Dev nD) (g : Fin 64) (f : Fin 32) (r : ℕ) : EReal :=
  if hr : r < 100000 then
    (if ids V c (ix2 (⟨r, hr⟩ : Fin 100000) (0 : Fin 1)) = BitVec.ofNat 32 g.val then (feats V c (ix2 (⟨r, hr⟩ : Fin 100000) f) : EReal) else 0)
  else 0
/-- Node r's contribution to graph g's count: a one where it carries id g. -/
def cntTerm (c : Dev nD) (g : Fin 64) (r : ℕ) : EReal :=
  if hr : r < 100000 then
    (if ids V c (ix2 (⟨r, hr⟩ : Fin 100000) (0 : Fin 1)) = BitVec.ofNat 32 g.val then one else 0)
  else 0

/-- The block's contribution to the sums is the sum of its nodes' contributions. -/
theorem blockSum_eq (c : Dev nD) (t : Fin cfg6.N) (g : Fin 64) (f : Fin 32) :
    (∑ p : Fin 10000, if idBlk V c t (ix2 p (0 : Fin 1)) = BitVec.ofNat 32 g.val then (featBlk V c t (ix2 p f) : EReal) else 0)
      = ∑ p ∈ Finset.range 10000, sumTerm V c g f (10000 * t.val + p) := by
  have hN : t.val < 10 := lt_of_lt_of_eq t.isLt (show cfg6.N = 10 from N_6)
  rw [Finset.sum_range]
  refine Finset.sum_congr rfl fun p _ => ?_
  have hr : 10000 * t.val + p.val < 100000 := by have := p.isLt; omega
  unfold sumTerm
  rw [dif_pos hr, idBlk_apply V c t p hr, featBlk_apply V c t p f hr]

/-- The block's contribution to the counts likewise. -/
theorem blockCnt_eq (c : Dev nD) (t : Fin cfg6.N) (g : Fin 64) :
    (∑ p : Fin 10000, if idBlk V c t (ix2 p (0 : Fin 1)) = BitVec.ofNat 32 g.val then one else 0)
      = ∑ p ∈ Finset.range 10000, cntTerm V c g (10000 * t.val + p) := by
  have hN : t.val < 10 := lt_of_lt_of_eq t.isLt (show cfg6.N = 10 from N_6)
  rw [Finset.sum_range]
  refine Finset.sum_congr rfl fun p _ => ?_
  have hr : 10000 * t.val + p.val < 100000 := by have := p.isLt; omega
  unfold cntTerm
  rw [dif_pos hr, idBlk_apply V c t p hr]

/-- At the first point: the payloads over the zero blocks. -/
theorem outs_first (c : Dev nD) (t : Fin cfg6.N) (h0 : t.val % 10 = 0) :
    outsAt6 V c t.val t.isLt
      = (k6_pay4 (idBlk V c t) (featBlk V c t) (k6_pay1 (F := Ideal)), k6_pay5 (idBlk V c t) (k6_pay2 (F := Ideal))) :=
  (outsAt6_A V c t h0).trans (congrArg₂ Prod.mk
    (sums_first (F := Ideal) c (grid6.coords t) (ms6_0 t) (hs6_0 t) (ms6_1 t) (hs6_1 t) (ms6_2 t) (hs6_2 t) (ms6_3 t) (hs6_3 t)
      ((hcond6_0 t).mpr h0) (iblk6 V c 0 t) (iblk6 V c 1 t))
    (counts_first (F := Ideal) c (grid6.coords t) (ms6_0 t) (hs6_0 t) (ms6_1 t) (hs6_1 t) (ms6_2 t) (hs6_2 t) (ms6_3 t) (hs6_3 t)
      ((hcond6_0 t).mpr h0) (iblk6 V c 0 t) (iblk6 V c 1 t)))

/-- At a later point: the payloads over what the point before left. -/
theorem outs_later (c : Dev nD) (t : Fin cfg6.N) (h0 : ¬t.val % 10 = 0) :
    outsAt6 V c t.val t.isLt
      = (k6_pay4 (idBlk V c t) (featBlk V c t) (outsAt6 V c (t.val - 1) (Nat.lt_of_le_of_lt (Nat.sub_le _ _) t.isLt)).1,
          k6_pay5 (idBlk V c t) (outsAt6 V c (t.val - 1) (Nat.lt_of_le_of_lt (Nat.sub_le _ _) t.isLt)).2) :=
  (outsAt6_B V c t h0).trans (congrArg₂ Prod.mk
    (sums_later (F := Ideal) c (grid6.coords t) (ms6_0 t) (hs6_0 t) (ms6_1 t) (hs6_1 t) (ms6_2 t) (hs6_2 t) (ms6_3 t) (hs6_3 t)
      (fun h => h0 ((hcond6_0 t).mp h)) (iblk6 V c 0 t) (iblk6 V c 1 t)
      (outsAt6 V c (t.val - 1) (Nat.lt_of_le_of_lt (Nat.sub_le _ _) t.isLt)).1 (outsAt6 V c (t.val - 1) (Nat.lt_of_le_of_lt (Nat.sub_le _ _) t.isLt)).2)
    (counts_later (F := Ideal) c (grid6.coords t) (ms6_0 t) (hs6_0 t) (ms6_1 t) (hs6_1 t) (ms6_2 t) (hs6_2 t) (ms6_3 t) (hs6_3 t)
      (fun h => h0 ((hcond6_0 t).mp h)) (iblk6 V c 0 t) (iblk6 V c 1 t)
      (outsAt6 V c (t.val - 1) (Nat.lt_of_le_of_lt (Nat.sub_le _ _) t.isLt)).1 (outsAt6 V c (t.val - 1) (Nat.lt_of_le_of_lt (Nat.sub_le _ _) t.isLt)).2))

/-- THE INVARIANT. After point n the two outputs hold, for every graph, the contributions of the nodes of blocks
    0 … n, that is of the first 10000 · (n + 1) nodes: by induction on the point. -/
theorem outsAt_eq (c : Dev nD) : ∀ (n : ℕ) (h : n < cfg6.N),
    (∀ (g : Fin 64) (f : Fin 32), ((outsAt6 V c n h).1 (ix2 g f) : EReal) = ∑ r ∈ Finset.range (10000 * (n + 1)), sumTerm V c g f r)
    ∧ (∀ g : Fin 64, ((outsAt6 V c n h).2 (ix2 g (0 : Fin 1)) : EReal) = ∑ r ∈ Finset.range (10000 * (n + 1)), cntTerm V c g r)
  | 0, h => by
    have e : outsAt6 V c 0 h = (k6_pay4 (idBlk V c ⟨0, h⟩) (featBlk V c ⟨0, h⟩) (k6_pay1 (F := Ideal)), k6_pay5 (idBlk V c ⟨0, h⟩) (k6_pay2 (F := Ideal))) :=
      outs_first V c ⟨0, h⟩ rfl
    refine ⟨fun g f => ?_, fun g => ?_⟩
    · rw [e]
      dsimp only
      refine (sums_apply (idBlk V c ⟨0, h⟩) (featBlk V c ⟨0, h⟩) (k6_pay1 (F := Ideal)) g f).trans ?_
      rw [zeros32_apply, zero_add, blockSum_eq V c ⟨0, h⟩ g f]
      exact Finset.sum_congr rfl fun p _ => congrArg (sumTerm V c g f) (Nat.zero_add p)
    · rw [e]
      dsimp only
      refine (counts_apply (idBlk V c ⟨0, h⟩) (k6_pay2 (F := Ideal)) g).trans ?_
      rw [zeros1_apply, zero_add, blockCnt_eq V c ⟨0, h⟩ g]
      exact Finset.sum_congr rfl fun p _ => congrArg (cntTerm V c g) (Nat.zero_add p)
  | n + 1, h => by
    have hN : cfg6.N = 10 := N_6
    have hB : ¬(⟨n + 1, h⟩ : Fin cfg6.N).val % 10 = 0 := by dsimp only; omega
    have ih := outsAt_eq c n (Nat.lt_of_succ_lt h)
    have e : outsAt6 V c (n + 1) h
        = (k6_pay4 (idBlk V c ⟨n + 1, h⟩) (featBlk V c ⟨n + 1, h⟩) (outsAt6 V c n (Nat.lt_of_succ_lt h)).1,
            k6_pay5 (idBlk V c ⟨n + 1, h⟩) (outsAt6 V c n (Nat.lt_of_succ_lt h)).2) :=
      outs_later V c ⟨n + 1, h⟩ hB
    have hsplit : 10000 * (n + 1 + 1) = 10000 * (n + 1) + 10000 := by omega
    refine ⟨fun g f => ?_, fun g => ?_⟩
    · rw [e]
      dsimp only
      refine (sums_apply (idBlk V c ⟨n + 1, h⟩) (featBlk V c ⟨n + 1, h⟩) (outsAt6 V c n (Nat.lt_of_succ_lt h)).1 g f).trans ?_
      rw [ih.1 g f, blockSum_eq V c ⟨n + 1, h⟩ g f, hsplit]
      exact (Finset.sum_range_add (sumTerm V c g f) (10000 * (n + 1)) 10000).symm
    · rw [e]
      dsimp only
      refine (counts_apply (idBlk V c ⟨n + 1, h⟩) (outsAt6 V c n (Nat.lt_of_succ_lt h)).2 g).trans ?_
      rw [ih.2 g, blockCnt_eq V c ⟨n + 1, h⟩ g, hsplit]
      exact (Finset.sum_range_add (cntTerm V c g) (10000 * (n + 1)) 10000).symm

end Run

/-! ## The arrays after the run -/

section Arrays
variable (V : (c : Dev nD) → (b : Ref sig .tc) → Buf (Elt Ideal) ((c : Thread nD τ).loc b))

theorem nine_lt : 9 < cfg6.N := by rw [show cfg6.N = 10 from N_6]; decide

/-- What the last point leaves in the two outputs, as contents of the two result arrays (one block is the array). -/
abbrev sumsEnd (c : Dev nD) : Buf (Elt Ideal) ((c : Thread nD τ).loc main_v83_0) := (outsAt6 V c 9 nine_lt).1
abbrev cntsEnd (c : Dev nD) : Buf (Elt Ideal) ((c : Thread nD τ).loc main_v83_1) := (outsAt6 V c 9 nine_lt).2

/-- The one write-back of the sums, after the last point, writes what that point left. -/
theorem flushed_sums (c : Dev nD) (t : Fin cfg6.N) (hf : (cfg6.win 2).flush t = true) :
    (dat6 V c).flushed 2 t = ((cfg6.win 2).blk t).view.read (Elt Ideal) (sumsEnd V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2]
  have hz' : (fun a => win6_2.index t6_9 a * main_v83_0.ty.shape.size a) = fun _ => 0 := funext fun a => by fin_cases a <;> decide +kernel
  exact (Memref.read_access_unit_zero (Elt Ideal) main_v83_0 hz' (fun a => by rw [congrFun hz' a]; simp) (sumsEnd V c)).symm

/-- The one write-back of the counts likewise. -/
theorem flushed_cnts (c : Dev nD) (t : Fin cfg6.N) (hf : (cfg6.win 3).flush t = true) :
    (dat6 V c).flushed 3 t = ((cfg6.win 3).blk t).view.read (Elt Ideal) (cntsEnd V c) := by
  have hN : cfg6.N = 10 := N_6
  have h9 : t.val = 9 := by have := (flush6_3 t).mp hf; have := t.isLt; omega
  obtain rfl : t = t6_9 := Fin.ext h9
  show (cfg6.win 3).cut (grid6.coords t6_9) ((dat6 V c).after 3 t6_9) = _
  rw [after6_3]
  have hz' : (fun a => win6_3.index t6_9 a * main_v83_1.ty.shape.size a) = fun _ => 0 := funext fun a => by fin_cases a <;> decide +kernel
  exact (Memref.read_access_unit_zero (Elt Ideal) main_v83_1 hz' (fun a => by rw [congrFun hz' a]; simp) (cntsEnd V c)).symm

/-- That block is the whole [64,32] array, so the array ends at it. -/
theorem sums_end (c : Dev nD) : (dat6 V c).arrAt 2 cfg6.N = sumsEnd V c :=
  (dat6 V c).arrAt_eq_of_cover 2 (sumsEnd V c) (flushed_sums V c) fun i =>
    ⟨t6_9, (flush6_2 t6_9).mpr rfl, by
      show i ∈ ((View.whole main_v83_0).slice (win6_2.rect t6_9)).set
      rw [View.set_slice_whole, Rect.mem_set_unit]
      intro a
      have h0 : (i 0 : Nat) < 64 := (i 0).isLt
      have h1 : (i 1 : Nat) < 32 := (i 1).isLt
      match a with
      | ⟨0, _⟩ => show win6_2.index t6_9 0 * win6_2.size 0 ≤ (i 0 : Nat) ∧ (i 0 : Nat) < win6_2.index t6_9 0 * win6_2.size 0 + win6_2.xsize (grid6.coords t6_9) 0
                  rw [show win6_2.index t6_9 0 * win6_2.size 0 = 0 from by decide +kernel, show win6_2.xsize (grid6.coords t6_9) 0 = 64 from by decide +kernel]; omega
      | ⟨1, _⟩ => show win6_2.index t6_9 1 * win6_2.size 1 ≤ (i 1 : Nat) ∧ (i 1 : Nat) < win6_2.index t6_9 1 * win6_2.size 1 + win6_2.xsize (grid6.coords t6_9) 1
                  rw [show win6_2.index t6_9 1 * win6_2.size 1 = 0 from by decide +kernel, show win6_2.xsize (grid6.coords t6_9) 1 = 32 from by decide +kernel]; omega⟩

/-- And the [64,1] array at the counts' block. -/
theorem cnts_end (c : Dev nD) : (dat6 V c).arrAt 3 cfg6.N = cntsEnd V c :=
  (dat6 V c).arrAt_eq_of_cover 3 (cntsEnd V c) (flushed_cnts V c) fun i =>
    ⟨t6_9, (flush6_3 t6_9).mpr rfl, by
      show i ∈ ((View.whole main_v83_1).slice (win6_3.rect t6_9)).set
      rw [View.set_slice_whole, Rect.mem_set_unit]
      intro a
      have h0 : (i 0 : Nat) < 64 := (i 0).isLt
      have h1 : (i 1 : Nat) < 1 := (i 1).isLt
      match a with
      | ⟨0, _⟩ => show win6_3.index t6_9 0 * win6_3.size 0 ≤ (i 0 : Nat) ∧ (i 0 : Nat) < win6_3.index t6_9 0 * win6_3.size 0 + win6_3.xsize (grid6.coords t6_9) 0
                  rw [show win6_3.index t6_9 0 * win6_3.size 0 = 0 from by decide +kernel, show win6_3.xsize (grid6.coords t6_9) 0 = 64 from by decide +kernel]; omega
      | ⟨1, _⟩ => show win6_3.index t6_9 1 * win6_3.size 1 ≤ (i 1 : Nat) ∧ (i 1 : Nat) < win6_3.index t6_9 1 * win6_3.size 1 + win6_3.xsize (grid6.coords t6_9) 1
                  rw [show win6_3.index t6_9 1 * win6_3.size 1 = 0 from by decide +kernel, show win6_3.xsize (grid6.coords t6_9) 1 = 1 from by decide +kernel]; omega⟩

/-- THE SUMS. The [64,32] array ends, at (g, f), at the sum over all nodes that carry id g of their feature f. -/
theorem reg6_sums (c : Dev nD) (g : Fin 64) (f : Fin 32) :
    (((dat6 V c).arrAt 2 cfg6.N : Vec Ideal S64x32 .f32) (ix2 g f) : EReal)
      = ∑ r : Fin 100000, if ids V c (ix2 r (0 : Fin 1)) = BitVec.ofNat 32 g.val then (feats V c (ix2 r f) : EReal) else 0 := by
  rw [sums_end]
  refine ((outsAt_eq V c 9 nine_lt).1 g f).trans ?_
  rw [show 10000 * (9 + 1) = 100000 from rfl, Finset.sum_range]
  refine Finset.sum_congr rfl fun r _ => ?_
  unfold sumTerm
  rw [dif_pos r.isLt]

/-- THE COUNTS. The [64,1] array ends, at (g, 0), at a one for every node that carries id g. -/
theorem reg6_cnts (c : Dev nD) (g : Fin 64) :
    (((dat6 V c).arrAt 3 cfg6.N : Vec Ideal S64x1 .f32) (ix2 g (0 : Fin 1)) : EReal)
      = ∑ r : Fin 100000, if ids V c (ix2 r (0 : Fin 1)) = BitVec.ofNat 32 g.val then one else 0 := by
  rw [cnts_end]
  refine ((outsAt_eq V c 9 nine_lt).2 g).trans ?_
  rw [show 10000 * (9 + 1) = 100000 from rfl, Finset.sum_range]
  refine Finset.sum_congr rfl fun r _ => ?_
  unfold cntTerm
  rw [dif_pos r.isLt]

end Arrays

end Cert.KernelIdeal.Hand
end
-- ==== Proof.PoolRef.lean ====
/-
  The per-graph sums and node counts of the plain program, read at an index.
  Both are a scatter-add of rows into a zero array along the graph ids: the element at graph g is the sum over the
  nodes whose id is g. The scatter's result index of update index j is (start + window) per axis, the start read signed
  off the id column; it equals a given index exactly when the id is the word of g (and the feature coordinates agree).
-/
import proofs.«401103_j7610682049034_2_alg».proof.Proof.Spec
import proofs.«401103_j7610682049034_2_alg».proof.Proof.Gen.ReferenceIdeal
import Idealize.ShloMosaic.Lib.ValueIdxRank1
import Idealize.ShloMosaic.Lib.IdealHost
import Idealize.ShloMosaic.Lib.Pipeline.Value

noncomputable section

open scoped BigOperators

namespace Cert.Spec

open Idealize.ShloMosaic Idealize.ShloMosaic.ValueIdx Cert.ReferenceIdeal Cert.ReferenceIdeal.Facts₀ Cert.ReferenceIdeal.Facts

/-! ## Words and scatter indices -/

/-- A 32-bit word read signed is the natural number g < 64 exactly when it is the word of g. -/
theorem toInt_eq_natCast_iff (x : BitVec 32) (g : Nat) (hg : g < 64) : x.toInt = (g : Int) ↔ x = BitVec.ofNat 32 g := by
  have hc := BitVec.toInt_eq_toNat_cond x
  have hx := x.isLt
  constructor
  · intro h
    apply BitVec.eq_of_toNat_eq
    rw [BitVec.toNat_ofNat, Nat.mod_eq_of_lt (by omega)]
    split_ifs at hc <;> omega
  · rintro rfl
    rw [BitVec.toInt_eq_toNat_cond, BitVec.toNat_ofNat, Nat.mod_eq_of_lt (by omega)]
    split_ifs <;> omega

/-- A scatter's result index of update index j is i exactly when start plus window coordinate is i's coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro he a
    split_ifs at he with h
    have hf := Option.some.inj he
    have hv : (d.start j idx a + (d.window j a : Int)).toNat = (i a).val := congrArg (fun q : s.Idx => (q a).val) hf
    have := (h a).1
    omega
  · intro hall
    have h : ∀ a, 0 ≤ d.start j idx a + (d.window j a : Int) ∧ d.start j idx a + (d.window j a : Int) < s.size a := by
      intro a
      rw [hall a]
      exact ⟨Int.natCast_nonneg _, by exact_mod_cast (i a).isLt⟩
    rw [dif_pos h]
    refine congrArg some (funext fun a => Fin.ext ?_)
    show (d.start j idx a + (d.window j a : Int)).toNat = (i a).val
    rw [hall a]
    exact Int.toNat_natCast _

/-! ## The node counts -/

/-- The start of the count scatter on its one axis is the id at row j, read signed. -/
theorem cnt_start (j : S100000.Idx) (idx : IVec S100000x1 32) :
    scatter_S64_S100000x1_S100000_n_0_0_1.start j idx 0 = (idx (ix2 (j 0) 0)).toInt := by
  unfold ScatterDims.start
  rw [dif_pos (show (0 : Fin S64.rank) ∈ scatter_S64_S100000x1_S100000_n_0_0_1.scatterDimsToOperandDims from List.mem_singleton.mpr rfl)]
  refine congrArg (fun q => (idx q).toInt) (funext fun b => Fin.ext ?_)
  match b with
  | ⟨0, _⟩ => rfl
  | ⟨1, _⟩ => rfl

/-- The count scatter has no window axis. -/
theorem cnt_window (j : S100000.Idx) : scatter_S64_S100000x1_S100000_n_0_0_1.window j 0 = 0 := by
  unfold ScatterDims.window
  rw [dif_neg (by decide)]

/-- Update index j of the count scatter lands at graph g exactly when row j's id is the word of g. -/
theorem cnt_resultIdx?_iff (j : S100000.Idx) (idx : IVec S100000x1 32) (g : Fin 64) :
    scatter_S64_S100000x1_S100000_n_0_0_1.resultIdx? j idx = some (ix1 g) ↔ idx (ix2 (j 0) 0) = BitVec.ofNat 32 g.val := by
  rw [resultIdx?_eq_some_iff, ← toInt_eq_natCast_iff _ _ g.isLt]
  constructor
  · intro h
    have h0 := h 0
    rw [cnt_start, cnt_window] at h0
    simpa using h0
  · intro h a
    obtain rfl : a = 0 := Subsingleton.elim _ _
    rw [cnt_start, cnt_window, h]
    simp

/-- The id column read at (r, 0) is the id of node r. -/
theorem idCol_apply (batch : IA Ideal S100000) (r : Fin 100000) :
    (broadcastInDim S100000x1 ![0] bcast_S100000_S100000x1_0 batch : IVec S100000x1 32) (ix2 r 0) = batch (ix1 r) :=
  broadcastInDim_apply ![0] bcast_S100000_S100000x1_0 batch (ix2 r 0) (ix1 r) (fun a => by
    obtain rfl : a = 0 := Subsingleton.elim _ _
    rw [if_neg (by decide)]
    rfl)

/-- The node count of graph g is the sum, over the nodes whose id is g, of one. -/
theorem cnt_apply (batch : Cert.Spec.IA Ideal S100000) (g : Fin 64) :
    (Cert.Spec.cnt (F := Ideal) batch : S64.Idx → EReal) (ix1 g)
      = ∑ r : Fin 100000, if batch (ix1 r) = BitVec.ofNat 32 g.val then (Ideal.ofBits .f32 0x3F800000#32 : EReal) else 0 := by
  unfold cnt Host.scatterAdd
  rw [Ideal.hostScatterAdd_def]
  unfold Ideal.hostScatterAdd
  change _ + ∑ j ∈ Finset.univ.filter _, _ = _
  rw [broadcastInDim_scalar_apply, constant_apply, Ideal.ofBits_zero_f32, zero_add, Finset.sum_filter,
    ← Equiv.sum_comp idxEquiv1.symm]
  refine Finset.sum_congr rfl fun r _ => ?_
  change (if scatter_S64_S100000x1_S100000_n_0_0_1.resultIdx? (ix1 r) _ = some (ix1 g) then _ else _) = _
  rw [broadcastInDim_scalar_apply, constant_apply]
  refine if_congr ?_ rfl rfl
  rw [cnt_resultIdx?_iff (ix1 r) _ g]
  exact Eq.congr_left (idCol_apply batch r)

/-! ## The per-graph sums -/

/-- The start of the row scatter on the graph axis is the id at the update's row, read signed. -/
theorem ps_start0 (r : Fin 100000) (c : Fin 32) (idx : IVec S100000x1 32) :
    scatter_S64x32_S100000x1_S100000x32_1_0_0_1.start (ix2 r c) idx 0 = (idx (ix2 r 0)).toInt := by
  unfold ScatterDims.start
  rw [dif_pos (show (0 : Fin S64x32.rank) ∈ scatter_S64x32_S100000x1_S100000x32_1_0_0_1.scatterDimsToOperandDims from List.mem_singleton.mpr rfl)]
  refine congrArg (fun q => (idx q).toInt) (funext fun b => Fin.ext ?_)
  match b with
  | ⟨0, _⟩ => rfl
  | ⟨1, _⟩ => rfl

/-- The row scatter does not move the feature axis. -/
theorem ps_start1 (j : S100000x32.Idx) (idx : IVec S100000x1 32) :
    scatter_S64x32_S100000x1_S100000x32_1_0_0_1.start j idx 1 = 0 := by
  unfold ScatterDims.start
  rw [dif_neg (by decide)]

/-- The graph axis is not a window axis. -/
theorem ps_window0 (j : S100000x32.Idx) : scatter_S64x32_S100000x1_S100000x32_1_0_0_1.window j 0 = 0 := by
  unfold ScatterDims.window
  rw [dif_neg (by decide)]

/-- The window coordinate on the feature axis is the update's feature coordinate. -/
theorem ps_window1 (r : Fin 100000) (c : Fin 32) :
    scatter_S64x32_S100000x1_S100000x32_1_0_0_1.window (ix2 r c) 1 = c.val := by
  unfold ScatterDims.window
  rw [dif_pos (by decide)]
  rfl

/-- Update index (r, c) of the row scatter lands at (g, f) exactly when row r's id is the word of g and c is f. -/
theorem ps_resultIdx?_iff (r : Fin 100000) (c : Fin 32) (idx : IVec S100000x1 32) (g : Fin 64) (f : Fin 32) :
    scatter_S64x32_S100000x1_S100000x32_1_0_0_1.resultIdx? (ix2 r c) idx = some (ix2 g f)
      ↔ idx (ix2 r 0) = BitVec.ofNat 32 g.val ∧ c = f := by
  rw [resultIdx?_eq_some_iff, ← toInt_eq_natCast_iff _ _ g.isLt]
  constructor
  · intro h
    have h0 := h 0
    have h1 := h 1
    rw [ps_start0, ps_window0] at h0
    rw [ps_start1, ps_window1] at h1
    exact ⟨by simpa using h0, Fin.ext (by simpa using h1)⟩
  · rintro ⟨hx, rfl⟩ a
    match a with
    | ⟨0, _⟩ =>
      show scatter_S64x32_S100000x1_S100000x32_1_0_0_1.start (ix2 r c) idx 0
        + (scatter_S64x32_S100000x1_S100000x32_1_0_0_1.window (ix2 r c) 0 : Int) = (g.val : Int)
      rw [ps_start0, ps_window0, hx]
      simp
    | ⟨1, _⟩ =>
      show scatter_S64x32_S100000x1_S100000x32_1_0_0_1.start (ix2 r c) idx 1
        + (scatter_S64x32_S100000x1_S100000x32_1_0_0_1.window (ix2 r c) 1 : Int) = (c.val : Int)
      rw [ps_start1, ps_window1]
      simp

/-- The sum of graph g at feature f is the sum, over the nodes whose id is g, of the node's feature f. -/
theorem pooledSum_apply (h : Cert.Spec.FA Ideal S100000x32) (batch : Cert.Spec.IA Ideal S100000) (g : Fin 64) (f : Fin 32) :
    (Cert.Spec.pooledSum (F := Ideal) h batch : S64x32.Idx → EReal) (ix2 g f)
      = ∑ r : Fin 100000, if batch (ix1 r) = BitVec.ofNat 32 g.val then (h (ix2 r f) : EReal) else 0 := by
  unfold pooledSum Host.scatterAdd
  rw [Ideal.hostScatterAdd_def]
  unfold Ideal.hostScatterAdd
  change _ + ∑ j ∈ Finset.univ.filter _, _ = _
  rw [broadcastInDim_scalar_apply, constant_apply, Ideal.ofBits_zero_f32, zero_add, Finset.sum_filter, sum_idx2]
  refine Finset.sum_congr rfl fun r _ => ?_
  have hb : ∀ b : Fin 32,
      (if scatter_S64x32_S100000x1_S100000x32_1_0_0_1.resultIdx? (ix2 r b)
            (broadcastInDim S100000x1 ![0] bcast_S100000_S100000x1_0 batch : IVec S100000x1 32) = some (ix2 g f)
          then (h (ix2 r b) : EReal) else 0)
        = if b = f then (if batch (ix1 r) = BitVec.ofNat 32 g.val then (h (ix2 r f) : EReal) else 0) else 0 := by
    intro b
    rw [if_congr (ps_resultIdx?_iff r b _ g f) rfl rfl, idCol_apply]
    by_cases hbf : b = f
    · subst hbf; simp
    · simp [hbf]
  refine (Finset.sum_congr rfl fun b _ => hb b).trans ?_
  rw [Finset.sum_ite_eq', if_pos (Finset.mem_univ f)]

end Cert.Spec

end
-- ==== Proof.KerPool.lean ====
/-
  The pooling region against the plain program's two scatter-adds. The kernel side ends, for graph g, at the sum over
  all nodes whose id word is g of the node's feature row, resp. of a one; the plain program's scatter-add of the
  feature rows (resp. of ones) into a zero array along the id column collects, at g, exactly the same nodes — a node
  whose id is negative as a signed word or at least 64 lands nowhere on either side. The id column the kernel reads
  is the reshape of the ids, the same entries in the same order.
-/
import proofs.«401103_j7610682049034_2_alg».proof.Proof.KerPoolRun
import proofs.«401103_j7610682049034_2_alg».proof.Proof.Spec
import proofs.«401103_j7610682049034_2_alg».proof.Proof.PoolRef

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

section Result
variable (V : (c : Dev nD) → (b : Ref sig .tc) → Buf (Elt Ideal) ((c : Thread nD τ).loc b))

/-- The id column the host reshaped out of the ids reads, at (r, 0), id r: the same row-major position. -/
theorem ids_apply (c : Dev nD) (batch : Cert.Spec.IA Ideal S100000)
    (hb : V c main_v82 = shapeCast S100000x1 batch Facts₀.shapeCasts_S100000_S100000x1) (r : Fin 100000) :
    ids V c (ix2 r (0 : Fin 1)) = batch (ix1 r) := by
  show V c main_v82 (ix2 r (0 : Fin 1)) = _
  rw [hb]
  exact shapeCast_apply batch _ (ix2 r (0 : Fin 1)) (ix1 r)
    (by rw [Shape.rowMajor_val_two, Shape.rowMajor_val_one]; show r.val = r.val * 1 + 0; omega)

/-- The kernel's sum for (g, f) with the id column read as the ids. -/
theorem sums_over_ids (c : Dev nD) (batch : Cert.Spec.IA Ideal S100000)
    (hb : V c main_v82 = shapeCast S100000x1 batch Facts₀.shapeCasts_S100000_S100000x1) (g : Fin 64) (f : Fin 32) :
    (∑ r : Fin 100000, if ids V c (ix2 r (0 : Fin 1)) = BitVec.ofNat 32 g.val then (feats V c (ix2 r f) : EReal) else 0)
      = ∑ r : Fin 100000, if batch (ix1 r) = BitVec.ofNat 32 g.val then (feats V c (ix2 r f) : EReal) else 0 :=
  Finset.sum_congr rfl fun r _ => by rw [ids_apply V c batch hb r]

/-- The kernel's count for g with the id column read as the ids. -/
theorem cnts_over_ids (c : Dev nD) (batch : Cert.Spec.IA Ideal S100000)
    (hb : V c main_v82 = shapeCast S100000x1 batch Facts₀.shapeCasts_S100000_S100000x1) (g : Fin 64) :
    (∑ r : Fin 100000, if ids V c (ix2 r (0 : Fin 1)) = BitVec.ofNat 32 g.val then one else 0)
      = ∑ r : Fin 100000, if batch (ix1 r) = BitVec.ofNat 32 g.val then one else 0 :=
  Finset.sum_congr rfl fun r _ => by rw [ids_apply V c batch hb r]

/-- THE REGION'S VALUE. Entered with the id column the reshape of the graph ids, the pooling region leaves the
    [64,32] array at the per-graph feature sums and the [64,1] array at the per-graph node counts of the plain
    program: on both sides graph g collects exactly the nodes whose id word is g. -/
theorem reg6_val (c : Dev nD) (batch : Cert.Spec.IA Ideal S100000)
    (hb : V c main_v82 = shapeCast S100000x1 batch Facts₀.shapeCasts_S100000_S100000x1) :
    (Gen.dat6 (F := Ideal) V c).arrAt 2 cfg6.N = Cert.Spec.pooledSum (F := Ideal) (V c main_v81) batch
    ∧ ∀ g : Fin 64, ((Gen.dat6 (F := Ideal) V c).arrAt 3 cfg6.N : S64x1.Idx → EReal) (ix2 g (0 : Fin 1))
        = Cert.Spec.cnt (F := Ideal) batch (ix1 g) := by
  have h1 : ((dat6 V c).arrAt 2 cfg6.N : Vec Ideal S64x32 .f32) = Cert.Spec.pooledSum (F := Ideal) (V c main_v81) batch := by
    funext i
    obtain ⟨g, f, rfl⟩ : ∃ (g : Fin 64) (f : Fin 32), i = ix2 g f := ⟨i 0, i 1, eq_ix2 i⟩
    exact (reg6_sums V c g f).trans ((sums_over_ids V c batch hb g f).trans (Cert.Spec.pooledSum_apply (V c main_v81) batch g f).symm)
  exact ⟨h1, fun g => (reg6_cnts V c g).trans ((cnts_over_ids V c batch hb g).trans (Cert.Spec.cnt_apply batch g).symm)⟩

end Result

end Cert.KernelIdeal.Hand
end
-- ==== Proof.KerHeadPay.lean ====
/-
  The head of the graph network, computed in one block: the per-graph sums over the node counts (a count below one read
  as one), layer normalisation over the 32 features, a 32 × 8 linear layer with bias, elu, and the product with the sampled
  weight row plus the sampled bias. The body's stored value is read as a composition of array operations and each
  operation is matched with the plain program's spelling of it: a cast of a vector to a column or a row and a broadcast of
  a column or a row against a placement on named axes, a lane sum against a sum over axis 1 from zero, a product into zeros
  against a product with no accumulator, a product contracting the columns of both operands against a plain product with
  the right operand transposed, and elu as  y  for  y > 0,  exp y − 1  elsewhere. Both sides are then one expression on
  the extended reals: no algebraic law joins them beyond  0 + x = x  and  1 · x = x.
-/
import proofs.«401103_j7610682049034_2_alg».proof.Proof.Gen.KernelIdeal.Skeleton
import proofs.«401103_j7610682049034_2_alg».proof.Proof.Spec
import Idealize.ShloMosaic.Lib.ValueLayout
import Idealize.ShloMosaic.Lib.IdealHost
import Idealize.ShloMosaic.Lib.KernelVsHost
import Idealize.ShloMosaic.Lib.StackMember
import proofs.«401103_j7610682049034_2_alg».proof.Proof.KerElu

noncomputable section

namespace Cert.KernelIdeal.Hand.Head

open Idealize.ShloMosaic Idealize.ShloMosaic.ValueIdx

/-! ## Columns, rows and row sums read at an index -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The host's form of the cast to a column: `[a]` placed on axis 0 of `[a, 1]`. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's form of the column broadcast along the rows. -/
theorem broadcastInDim_a1_ab_apply {a b : ℕ} (h : (⟨2, ![a, 1]⟩ : Shape).BroadcastsInDim ⟨2, ![a, b]⟩ ![0, 1])
    (v : (⟨2, ![a, 1]⟩ : Shape).Idx → α) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

/-- The host's form of the cast to a row: `[b]` placed on axis 1 of `[1, b]`. -/
theorem broadcastInDim_b_1b_apply {b : ℕ} (h : (⟨1, ![b]⟩ : Shape).BroadcastsInDim ⟨2, ![1, b]⟩ ![1])
    (x : (⟨1, ![b]⟩ : Shape).Idx → α) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- The index over row `i` with `k` inserted on the summed axis 1 is `(i, k)`. -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

end Layout

/-! ## Sums: a row sum on either side, a product with one contracted axis -/

section Sums
variable {φ₁ φ₂ : FTy}

/-- The lane sum of row `i` of an `[a, b]` array is the sum of its `b` entries. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ x 0x00000000#32 h hφ hacc (ix1 i) = ∑ k : Fin b, x (ix2 i k) :=
  (Ideal.multiReduction_add_single x 0x00000000#32 h hφ hacc (ix1 i)).trans
    (Finset.sum_congr rfl fun k _ => congrArg x (lift_row h i k))

/-- The host's sum over axis 1 from a zero initial value is the same sum. -/
theorem hostRowSum_apply {a b : ℕ} (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) {u : Shape} (init : u.Idx → Ideal .f32) (hu : 0 < u.numel)
    (h0 : init (Shape.Idx.first hu) = 0) (i : Fin a) :
    Host.reduceAdd x init h' hu (ix1 i) = ∑ k : Fin b, x (ix2 i k) := by
  rw [hostReduceAdd_apply, Ideal.hostReduceAdd_single h' h, h0, zero_add]
  exact Finset.sum_congr rfl fun k _ => congrArg x (lift_row h i k)

/-- A product contracting the left operand's columns with the right operand's COLUMNS (the right operand
    transposed), read at `(a, b)`: the sum over the contracted coordinate of the products of the entries. -/
theorem dotGeneral_transposedRhs_apply {m k n : ℕ} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [hl, hr]

end Sums

/-! ## The kernel's spelling of a layout or a sum against the host's -/

section KernelVsHost
variable {α : Type} {φ₁ φ₂ : FTy}

/-- A vector cast to a column is the host's placement of it on axis 0. -/
theorem shapeCast_col_eq_broadcastInDim {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext idx
  obtain ⟨i, u, rfl⟩ : ∃ (i : Fin a) (u : Fin 1), idx = ix2 i u := ⟨idx 0, idx 1, eq_ix2 idx⟩
  rw [shapeCast_a_a1_apply, broadcastInDim_a_a1_apply]

/-- A column broadcast along the rows, in either spelling. -/
theorem broadcastTo_col_eq_broadcastInDim {a b : ℕ} (v : (⟨2, ![a, 1]⟩ : Shape).Idx → α)
    (h : (⟨2, ![a, 1]⟩ : Shape).Broadcasts ⟨2, ![a, b]⟩) (h' : (⟨2, ![a, 1]⟩ : Shape).BroadcastsInDim ⟨2, ![a, b]⟩ ![0, 1]) :
    broadcastTo ⟨2, ![a, b]⟩ v h = broadcastInDim ⟨2, ![a, b]⟩ ![0, 1] h' v := by
  funext idx
  obtain ⟨i, j, rfl⟩ : ∃ (i : Fin a) (j : Fin b), idx = ix2 i j := ⟨idx 0, idx 1, eq_ix2 idx⟩
  rw [broadcastTo_a1_ab_apply, broadcastInDim_a1_ab_apply]

/-- A vector cast to a row is the host's placement of it on axis 1. -/
theorem shapeCast_row_eq_broadcastInDim {b : ℕ} (x : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ x h = broadcastInDim ⟨2, ![1, b]⟩ ![1] h' x := by
  funext idx
  obtain ⟨u, j, rfl⟩ : ∃ (u : Fin 1) (j : Fin b), idx = ix2 u j := ⟨idx 0, idx 1, eq_ix2 idx⟩
  rw [shapeCast_a_1a_apply, broadcastInDim_b_1b_apply]

/-- A row broadcast down the rows, in either spelling. -/
theorem broadcastTo_oneRow_eq_broadcastInDim {a b : ℕ} (v : (⟨2, ![1, b]⟩ : Shape).Idx → α)
    (h : (⟨2, ![1, b]⟩ : Shape).Broadcasts ⟨2, ![a, b]⟩) (h' : (⟨2, ![1, b]⟩ : Shape).BroadcastsInDim ⟨2, ![a, b]⟩ ![0, 1]) :
    broadcastTo ⟨2, ![a, b]⟩ v h = broadcastInDim ⟨2, ![a, b]⟩ ![0, 1] h' v := by
  funext idx
  obtain ⟨i, j, rfl⟩ : ∃ (i : Fin a) (j : Fin b), idx = ix2 i j := ⟨idx 0, idx 1, eq_ix2 idx⟩
  rw [broadcastTo_1b_ab_apply, broadcastInDim_oneRow_apply]

/-- The lane sum over axis 1 is the host's sum over that axis from a zero initial value. -/
theorem rowSum_eq_hostReduceAdd {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (h' : (⟨2, ![a, b]⟩ : Shape).ReducesTo [1] ⟨1, ![a]⟩) {u : Shape} (init : u.Idx → Ideal .f32) (hu : 0 < u.numel)
    (h0 : init (Shape.Idx.first hu) = 0) :
    multiReduction .add [1] ⟨1, ![a]⟩ x 0x00000000#32 h hφ hacc = Host.reduceAdd x init h' hu :=
  multiReduction_add_eq_hostReduceAdd x 0x00000000#32 h hφ hacc init h' hu h0

/-- A product of operands narrowed to bf16, accumulated into zeros, is the host's product of the operands: at the
    extended reals the narrowing is the identity and the zero accumulator adds nothing. -/
theorem matmul_narrowed_eq_dotGeneral {sl sr so : Shape} (d : DotDims sl sr so) (prec : Option ContractPrecision)
    (A : FVec Ideal sl .f32) (B : FVec Ideal sr .f32) (hA : FTy.bits .bf16 < FTy.bits .f32) (hB : FTy.bits .bf16 < FTy.bits .f32) :
    matmul d prec (truncf .bf16 A hA) (truncf .bf16 B hB) (constant so .f32 0x00000000#32) = Host.dotGeneral d prec A B := by
  funext j
  show FloatOps.matmul d prec _ _ (constant so .f32 0x00000000#32) j = FloatOps.dotGeneral d prec _ A B j
  rw [Ideal.matmul_constant_zero_apply, Ideal.dotGeneral_apply]
  first | done | rfl

/-- Contracting with the right operand's columns is the plain product with the right operand transposed. -/
theorem dotGeneral_transposedRhs_eq_plain_transpose {m k n : ℕ} (prec : Option ContractPrecision)
    (A : FVec Ideal ⟨2, ![m, k]⟩ φ₁) (B : FVec Ideal ⟨2, ![n, k]⟩ φ₂)
    (ht : (⟨2, ![n, k]⟩ : Shape).Transposes [1, 0] ⟨2, ![k, n]⟩) :
    Host.dotGeneral (DotDims.transposedRhs m k n) prec A B
      = Host.dotGeneral (DotDims.plain m k n) prec A (transpose ⟨2, ![k, n]⟩ [1, 0] B ht) := by
  funext idx
  obtain ⟨i, j, rfl⟩ : ∃ (i : Fin m) (j : Fin n), idx = ix2 i j := ⟨idx 0, idx 1, eq_ix2 idx⟩
  rw [dotGeneral_transposedRhs_apply, StackMember.dotGeneral_plain_apply]
  refine Finset.sum_congr rfl fun c _ => ?_
  rw [transpose_ix2_apply]

end KernelVsHost

/-! ## The head's stages, the kernel's spelling against the staged functions -/

section Stages
open Cert.KernelIdeal
variable [hR : Cert.ReferenceIdeal.Facts]

/-- The graph means: the sums over the counts clamped below at one, the counts read off a column. -/
theorem gmean_eq (x0 : FVec Ideal S64x32 .f32) (x1 : FVec Ideal S64x1 .f32) (cn : FVec Ideal S64 .f32)
    (hcn : ∀ i : Fin 64, x1 (ix2 i 0) = cn (ix1 i))
    (h0 : S64x32.ShapeCasts S64x32) (h1 : S64x1.ShapeCasts S64x1) (hb : S64x1.Broadcasts S64x32) :
    divf (shapeCast S64x32 x0 h0) (broadcastTo S64x32 (maximumf (shapeCast S64x1 x1 h1) (broadcast S64x1 (Scalar.ofBits .f32 0x3F800000#32))) hb)
      = Cert.Spec.gmean (F := Ideal) x0 cn := by
  funext idx
  obtain ⟨i, j, rfl⟩ : ∃ (i : Fin 64) (j : Fin 32), idx = ix2 i j := ⟨idx 0, idx 1, eq_ix2 idx⟩
  unfold Cert.Spec.gmean
  rw [shapeCast_self, shapeCast_self, divf_apply, broadcastTo_a1_ab_apply, maximumf_apply, broadcast_apply, hcn,
    hostDivf_apply, broadcastInDim_a1_ab_apply, broadcastInDim_a_a1_apply, maximumf_apply, broadcastInDim_scalar_apply, constant_apply]
  first | done | rfl

/-- The row mean: the lane sum over the 32 features divided by 32, as a column. -/
theorem rowMean_eq (G : FVec Ideal S64x32 .f32) (h : S64x32.Reduces [1] S64) (hφ : FKind.Formats .f32)
    (hacc : (0x00000000#32 : BitVec 32) = 0x00000000#32) (hc : S64.ShapeCasts S64x1) :
    divf (shapeCast S64x1 (multiReduction .add [1] S64 G 0x00000000#32 h hφ hacc) hc) (broadcast S64x1 (Scalar.ofBits .f32 0x42000000#32))
      = Cert.Spec.rowMean (F := Ideal) G := by
  unfold Cert.Spec.rowMean
  rw [broadcastInDim_constant, ← rowSum_eq_hostReduceAdd G h hφ hacc _ (constant (F := Ideal) Cert.ReferenceIdeal.S_ .f32 0x00000000#32) _ Ideal.ofBits_zero_f32,
    ← shapeCast_col_eq_broadcastInDim _ hc]
  first | done | rfl

/-- A row minus its mean. -/
theorem centred_eq (G : FVec Ideal S64x32 .f32) (hb : S64x1.Broadcasts S64x32) :
    subf G (broadcastTo S64x32 (Cert.Spec.rowMean (F := Ideal) G) hb) = Cert.Spec.centred (F := Ideal) G := by
  unfold Cert.Spec.centred
  rw [← broadcastTo_col_eq_broadcastInDim _ hb]

/-- The normalisation: centred, times rsqrt(variance + ε), times the gain row, plus the offset row. -/
theorem layerNorm_eq (G : FVec Ideal S64x32 .f32) (g b : FVec Ideal S32 .f32)
    (hb : S64x1.Broadcasts S64x32) (hr : S1x32.Broadcasts S64x32) (hc : S32.ShapeCasts S1x32) :
    addf (mulf (mulf (Cert.Spec.centred (F := Ideal) G)
          (broadcastTo S64x32 (rsqrt (addf (Cert.Spec.rowMean (F := Ideal) (mulf (Cert.Spec.centred (F := Ideal) G) (Cert.Spec.centred (F := Ideal) G) : FVec Ideal S64x32 .f32))
            (broadcast S64x1 (Scalar.ofBits .f32 0x3727C5AC#32)))) hb))
        (broadcastTo S64x32 (shapeCast S1x32 g hc) hr))
      (broadcastTo S64x32 (shapeCast S1x32 b hc) hr)
      = Cert.Spec.layerNorm (F := Ideal) G g b := by
  unfold Cert.Spec.layerNorm
  rw [broadcastInDim_constant, ← broadcastTo_col_eq_broadcastInDim _ hb, ← shapeCast_row_eq_broadcastInDim g hc,
    ← shapeCast_row_eq_broadcastInDim b hc, ← broadcastTo_oneRow_eq_broadcastInDim _ hr, ← broadcastTo_oneRow_eq_broadcastInDim _ hr]
  first | done | rfl

end Stages

section Stages2
open Cert.KernelIdeal
variable [hR : Cert.ReferenceIdeal.Facts]

/-- The linear layer: the product with the weights (the operands narrowed to bf16, which is the identity here)
    plus the bias row. -/
theorem linear_eq (N : FVec Ideal S64x32 .f32) (W : FVec Ideal S32x8 .f32) (fb : FVec Ideal S8 .f32)
    (hA : FTy.bits .bf16 < FTy.bits .f32) (hB : FTy.bits .bf16 < FTy.bits .f32)
    (hr : S1x8.Broadcasts S64x8) (hc : S8.ShapeCasts S1x8) :
    addf (matmul dot_S64x32_S32x8_S64x8_1_0_0_1_n_n none (truncf .bf16 N hA) (truncf .bf16 W hB) (constant S64x8 .f32 0x00000000#32))
        (broadcastTo S64x8 (shapeCast S1x8 fb hc) hr)
      = addf (Host.dotGeneral Cert.ReferenceIdeal.dot_S64x32_S32x8_S64x8_1_0_0_1_n_n none N W)
          (broadcastInDim S64x8 ![0, 1] Cert.ReferenceIdeal.Facts₀.bcast_S1x8_S64x8_0_1
            (broadcastInDim S1x8 ![1] Cert.ReferenceIdeal.Facts₀.bcast_S8_S1x8_1 fb)) := by
  rw [matmul_narrowed_eq_dotGeneral, ← broadcastTo_oneRow_eq_broadcastInDim _ hr, ← shapeCast_row_eq_broadcastInDim fb hc]
  first | done | rfl

/-- The kernel's elu, y where y > 0 and exp y − 1 elsewhere, is the staged one. -/
theorem elu_eq (S : Shape) (hb : Cert.ReferenceIdeal.S_.BroadcastsInDim S ![]) (Y : FVec Ideal S .f32) :
    select (cmpf .ogt Y (broadcast S (Scalar.ofBits .f32 0x00000000#32))) Y
        (subf (exp Y) (broadcast S (Scalar.ofBits .f32 0x3F800000#32)))
      = Cert.Spec.elu (F := Ideal) S hb Y := by
  funext idx
  rw [Cert.KernelIdeal.Hand.elu_apply]
  show Scalar.select (Ideal.cmp .ogt (Y idx) (Ideal.ofBits .f32 0x00000000#32)) (Y idx)
      (Ideal.exp (Y idx) - Ideal.ofBits .f32 0x3F800000#32) = _
  rw [Ideal.ofBits_zero_f32, Ideal.ofBits_one_f32]
  first | done | rfl

/-- The output: the product with the weight row (contracting the 8 features of both) plus the bias. -/
theorem out_eq (A : FVec Ideal S64x8 .f32) (w : FVec Ideal S1x8 .f32) (bb : FVec Ideal S1 .f32)
    (hr : S1x1.Broadcasts S64x1) (hc : S1.ShapeCasts S1x1) :
    addf (matmul dot_S64x8_S1x8_S64x1_1_1_0_0_n_n none A w (constant S64x1 .f32 0x00000000#32))
        (broadcastTo S64x1 (shapeCast S1x1 bb hc) hr)
      = addf (Host.dotGeneral Cert.ReferenceIdeal.dot_S64x8_S8x1_S64x1_1_0_0_1_n_n none A
            (transpose Cert.ReferenceIdeal.S8x1 [1, 0] w Cert.ReferenceIdeal.Facts₀.transposes_S1x8_S8x1_1_0))
          (broadcastInDim S64x1 ![0, 1] Cert.ReferenceIdeal.Facts₀.bcast_S1x1_S64x1_0_1
            (broadcastInDim S1x1 ![1] Cert.ReferenceIdeal.Facts₀.bcast_S1_S1x1_1 bb)) := by
  rw [matmul_zero_eq_dotGeneral, ← broadcastTo_oneRow_eq_broadcastInDim _ hr, ← shapeCast_row_eq_broadcastInDim bb hc]
  show addf (Host.dotGeneral (DotDims.transposedRhs 64 8 1) none A w) _ = addf (Host.dotGeneral (DotDims.plain 64 8 1) none A _) _
  rw [dotGeneral_transposedRhs_eq_plain_transpose]

end Stages2

/-! ## The body's value is the head of its loaded blocks -/

section Payload
open Cert.KernelIdeal
variable [hR : Cert.ReferenceIdeal.Facts]

/-- What the body stores, as a function of the eight blocks it loads: the staged head, when the counts' column holds the
    counts and the four rows are the casts of the gain, the offset, the linear layer's bias and the sampled bias. -/
theorem head_payload_eq (x0 : FVec Ideal S64x32 .f32) (x1 : FVec Ideal S64x1 .f32) (x2 x3 : FVec Ideal S1x32 .f32)
    (x4 : FVec Ideal S32x8 .f32) (x5 x6 : FVec Ideal S1x8 .f32) (x7 : FVec Ideal S1x1 .f32)
    (cn : FVec Ideal S64 .f32) (g b : FVec Ideal S32 .f32) (fb : FVec Ideal S8 .f32) (bb : FVec Ideal S1 .f32)
    (hcn : ∀ i : Fin 64, x1 (ix2 i 0) = cn (ix1 i))
    (h32 : S32.ShapeCasts S1x32) (h8 : S8.ShapeCasts S1x8) (h1 : S1.ShapeCasts S1x1)
    (hg : x2 = shapeCast S1x32 g h32) (hb : x3 = shapeCast S1x32 b h32)
    (hfb : x5 = shapeCast S1x8 fb h8) (hbb : x7 = shapeCast S1x1 bb h1) :
    Gen.k7_pay1 (F := Ideal) (Gen.k7_pay2 (F := Ideal) x0 x1 x2 x3 x4) (Gen.k7_pay3 (F := Ideal) x5) x6 x7
      = Cert.Spec.head (F := Ideal) x0 cn g b x4 fb x6 bb := by
  subst hg hb hfb hbb
  unfold Gen.k7_pay1 Gen.k7_pay2 Gen.k7_pay3 Cert.Spec.head
  dsimp only
  rw [shapeCast_self (shapeCast S1x32 g h32), shapeCast_self (shapeCast S1x32 b h32), shapeCast_self (shapeCast S1x8 fb h8),
    shapeCast_self (shapeCast S1x1 bb h1), shapeCast_self x6]
  rw [gmean_eq x0 x1 cn hcn, rowMean_eq (Cert.Spec.gmean (F := Ideal) x0 cn), centred_eq, rowMean_eq, layerNorm_eq, linear_eq,
    elu_eq _ Cert.ReferenceIdeal.Facts₀.bcast_S_S64x8, out_eq]

end Payload

end Cert.KernelIdeal.Hand.Head

end
-- ==== Proof.KerHead.lean ====
/-
  The head's result array. The region runs its body once, every window one whole block at block index (0, 0): each loaded
  block is its whole array, the one store covers the output block, and the output block is the whole output array. So the
  array after the region is the body's stored value of the arrays as the region finds them, which is the staged head of the
  per-graph sums, the counts, the gain, the offset, the linear layer and the sampled weight row and bias.
-/
import proofs.«401103_j7610682049034_2_alg».proof.Proof.Gen.KernelIdeal.Frame
import proofs.«401103_j7610682049034_2_alg».proof.Proof.Spec
import proofs.«401103_j7610682049034_2_alg».proof.Proof.KerHeadPay
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Facts₀ Cert.KernelIdeal.Facts

variable (V : (c : Dev nD) → (b : Ref sig .tc) → Buf (Elt Ideal) ((c : Thread nD τ).loc b))

namespace Head

/-- Block index (0, 0): the offsets of every window's one block. -/
theorem zeroOffsets : (![0, 0] : Fin 2 → Nat) = fun _ => 0 := funext fun a => by fin_cases a <;> rfl

/-! ### Each input window's one block is its whole array -/

theorem blk0 (c : Dev nD) : (Gen.iblk7 V c 0 Gen.t7_0 : Vec Ideal S64x32 .f32) = (V c main_v83_0 : Vec Ideal S64x32 .f32) := by
  unfold Gen.iblk7
  have hz' : (fun a => win7_0.index Gen.t7_0 a * main_v83_0.ty.shape.size a) = fun _ => 0 := funext fun a => by fin_cases a <;> decide
  exact Memref.read_access_unit_zero (Elt Ideal) main_v83_0 hz' (fun a => by rw [congrFun hz' a]; simp) (V c main_v83_0)

theorem blk1 (c : Dev nD) : (Gen.iblk7 V c 1 Gen.t7_0 : Vec Ideal S64x1 .f32) = (V c main_v83_1 : Vec Ideal S64x1 .f32) := by
  unfold Gen.iblk7
  have hz' : (fun a => win7_1.index Gen.t7_0 a * main_v83_1.ty.shape.size a) = fun _ => 0 := funext fun a => by fin_cases a <;> decide
  exact Memref.read_access_unit_zero (Elt Ideal) main_v83_1 hz' (fun a => by rw [congrFun hz' a]; simp) (V c main_v83_1)

theorem blk2 (c : Dev nD) : (Gen.iblk7 V c 2 Gen.t7_0 : Vec Ideal S1x32 .f32) = (V c main_v90 : Vec Ideal S1x32 .f32) := by
  unfold Gen.iblk7
  have hz' : (fun a => win7_2.index Gen.t7_0 a * main_v90.ty.shape.size a) = fun _ => 0 := funext fun a => by fin_cases a <;> decide
  exact Memref.read_access_unit_zero (Elt Ideal) main_v90 hz' (fun a => by rw [congrFun hz' a]; simp) (V c main_v90)

theorem blk3 (c : Dev nD) : (Gen.iblk7 V c 3 Gen.t7_0 : Vec Ideal S1x32 .f32) = (V c main_v91 : Vec Ideal S1x32 .f32) := by
  unfold Gen.iblk7
  have hz' : (fun a => win7_3.index Gen.t7_0 a * main_v91.ty.shape.size a) = fun _ => 0 := funext fun a => by fin_cases a <;> decide
  exact Memref.read_access_unit_zero (Elt Ideal) main_v91 hz' (fun a => by rw [congrFun hz' a]; simp) (V c main_v91)

theorem blk4 (c : Dev nD) : (Gen.iblk7 V c 4 Gen.t7_0 : Vec Ideal S32x8 .f32) = (V c main_arg12 : Vec Ideal S32x8 .f32) := by
  unfold Gen.iblk7
  have hz' : (fun a => win7_4.index Gen.t7_0 a * main_arg12.ty.shape.size a) = fun _ => 0 := funext fun a => by fin_cases a <;> decide
  exact Memref.read_access_unit_zero (Elt Ideal) main_arg12 hz' (fun a => by rw [congrFun hz' a]; simp) (V c main_arg12)

theorem blk5 (c : Dev nD) : (Gen.iblk7 V c 5 Gen.t7_0 : Vec Ideal S1x8 .f32) = (V c main_v92 : Vec Ideal S1x8 .f32) := by
  unfold Gen.iblk7
  have hz' : (fun a => win7_5.index Gen.t7_0 a * main_v92.ty.shape.size a) = fun _ => 0 := funext fun a => by fin_cases a <;> decide
  exact Memref.read_access_unit_zero (Elt Ideal) main_v92 hz' (fun a => by rw [congrFun hz' a]; simp) (V c main_v92)

theorem blk6 (c : Dev nD) : (Gen.iblk7 V c 6 Gen.t7_0 : Vec Ideal S1x8 .f32) = (V c main_v86 : Vec Ideal S1x8 .f32) := by
  unfold Gen.iblk7
  have hz' : (fun a => win7_6.index Gen.t7_0 a * main_v86.ty.shape.size a) = fun _ => 0 := funext fun a => by fin_cases a <;> decide
  exact Memref.read_access_unit_zero (Elt Ideal) main_v86 hz' (fun a => by rw [congrFun hz' a]; simp) (V c main_v86)

theorem blk7 (c : Dev nD) : (Gen.iblk7 V c 7 Gen.t7_0 : Vec Ideal S1x1 .f32) = (V c main_v93 : Vec Ideal S1x1 .f32) := by
  unfold Gen.iblk7
  have hz' : (fun a => win7_7.index Gen.t7_0 a * main_v93.ty.shape.size a) = fun _ => 0 := funext fun a => by fin_cases a <;> decide
  exact Memref.read_access_unit_zero (Elt Ideal) main_v93 hz' (fun a => by rw [congrFun hz' a]; simp) (V c main_v93)

end Head

section Value
variable [hR : Cert.ReferenceIdeal.Facts]

namespace Head

/-- The output block after the body, as a function of the eight loaded blocks: the staged head. -/
theorem out_block_eq (x0 : Vec Ideal S64x32 .f32) (x1 : Vec Ideal S64x1 .f32) (x2 x3 : Vec Ideal S1x32 .f32)
    (x4 : Vec Ideal S32x8 .f32) (x5 x6 : Vec Ideal S1x8 .f32) (x7 : Vec Ideal S1x1 .f32)
    (cn : Cert.Spec.FA Ideal S64) (g b : Cert.Spec.FA Ideal S32) (fb : Cert.Spec.FA Ideal S8) (bb : Cert.Spec.FA Ideal S1)
    (hcn : ∀ i : Fin 64, x1 (ix2 i 0) = cn (ix1 i))
    (h32 : S32.ShapeCasts S1x32) (h8 : S8.ShapeCasts S1x8) (h1 : S1.ShapeCasts S1x1)
    (hg : x2 = shapeCast S1x32 g h32) (hb : x3 = shapeCast S1x32 b h32)
    (hfb : x5 = shapeCast S1x8 fb h8) (hbb : x7 = shapeCast S1x1 bb h1) :
    Gen.out7_8 (F := Ideal) x0 x1 x2 x3 x4 x5 x6 x7 = Cert.Spec.head (F := Ideal) x0 cn g b x4 fb x6 bb := by
  unfold Gen.out7_8
  rw [View.canon_unit_zero zeroOffsets]
  simp only [View.ld_unit_zero (S := S64x32) zeroOffsets, View.ld_unit_zero (S := S64x1) zeroOffsets,
    View.ld_unit_zero (S := S1x32) zeroOffsets, View.ld_unit_zero (S := S32x8) zeroOffsets,
    View.ld_unit_zero (S := S1x8) zeroOffsets, View.ld_unit_zero (S := S1x1) zeroOffsets]
  exact head_payload_eq x0 x1 x2 x3 x4 x5 x6 x7 cn g b fb bb hcn h32 h8 h1 hg hb hfb hbb

/-- What the one point writes back is the one block of the staged head of the arrays as the region finds them. -/
theorem flushed_eq (c : Dev nD) (cn : Cert.Spec.FA Ideal S64) (g b : Cert.Spec.FA Ideal S32) (fb : Cert.Spec.FA Ideal S8)
    (bb : Cert.Spec.FA Ideal S1)
    (hcn : ∀ i : Fin 64, (V c main_v83_1 : S64x1.Idx → EReal) (ix2 i 0) = cn (ix1 i))
    (hg : V c main_v90 = shapeCast S1x32 g shapeCasts_S32_S1x32) (hb : V c main_v91 = shapeCast S1x32 b shapeCasts_S32_S1x32)
    (hfb : V c main_v92 = shapeCast S1x8 fb shapeCasts_S8_S1x8) (hbb : V c main_v93 = shapeCast S1x1 bb shapeCasts_S1_S1x1)
    (t : Fin cfg7.N) :
    (Gen.dat7 (F := Ideal) V c).flushed 8 t = ((cfg7.win 8).blk t).view.read (Elt Ideal)
      (Cert.Spec.head (F := Ideal) (V c main_v83_0) cn g b (V c main_arg12) fb (V c main_v86) bb) := by
  obtain rfl := Gen.fin_N7 t
  show (cfg7.win 8).cut (grid7.coords Gen.t7_0) ((Gen.dat7 (F := Ideal) V c).after 8 Gen.t7_0) = _
  rw [Gen.after7_8, blk0 V c, blk1 V c, blk2 V c, blk3 V c, blk4 V c, blk5 V c, blk6 V c, blk7 V c,
    out_block_eq (V c main_v83_0) (V c main_v83_1) (V c main_v90) (V c main_v91) (V c main_arg12) (V c main_v92) (V c main_v86)
      (V c main_v93) cn g b fb bb hcn shapeCasts_S32_S1x32 shapeCasts_S8_S1x8 shapeCasts_S1_S1x1 hg hb hfb hbb]
  have hz' : (fun a => win7_8.index Gen.t7_0 a * main_v94.ty.shape.size a) = fun _ => 0 := funext fun a => by fin_cases a <;> decide
  exact (Memref.read_access_unit_zero (Elt Ideal) main_v94 hz' (fun a => by rw [congrFun hz' a]; simp) _).symm

end Head

/-- THE HEAD'S ARRAY after the region: the staged head of the per-graph sums and counts the pooling left, the gain, the
    offset and the two biases as the host reshaped them to rows, the linear layer's weights and the sampled weight row. -/
theorem reg7_val (c : Dev nD) (cn : Cert.Spec.FA Ideal S64) (g b : Cert.Spec.FA Ideal S32) (fb : Cert.Spec.FA Ideal S8)
    (bb : Cert.Spec.FA Ideal S1)
    (hcn : ∀ i : Fin 64, (V c main_v83_1 : S64x1.Idx → EReal) (ix2 i 0) = cn (ix1 i))
    (hg : V c main_v90 = shapeCast S1x32 g shapeCasts_S32_S1x32) (hb : V c main_v91 = shapeCast S1x32 b shapeCasts_S32_S1x32)
    (hfb : V c main_v92 = shapeCast S1x8 fb shapeCasts_S8_S1x8) (hbb : V c main_v93 = shapeCast S1x1 bb shapeCasts_S1_S1x1) :
    (Gen.dat7 (F := Ideal) V c).arrAt 8 cfg7.N
      = Cert.Spec.head (F := Ideal) (V c main_v83_0) cn g b (V c main_arg12) fb (V c main_v86) bb :=
  (Gen.dat7 (F := Ideal) V c).arrAt_eq_of_cover 8 _ (fun t _ => Head.flushed_eq V c cn g b fb bb hcn hg hb hfb hbb t) fun i =>
    ⟨Gen.t7_0, Gen.flush7_8 Gen.t7_0, by
      show i ∈ ((View.whole main_v94).slice (win7_8.rect Gen.t7_0)).set
      rw [View.set_slice_whole, Rect.mem_set_unit]
      intro a
      have h0 : (i 0 : Nat) < 64 := (i 0).isLt
      have h1 : (i 1 : Nat) < 1 := (i 1).isLt
      match a with
      | ⟨0, _⟩ =>
        show win7_8.index Gen.t7_0 0 * win7_8.size 0 ≤ (i 0 : Nat)
          ∧ (i 0 : Nat) < win7_8.index Gen.t7_0 0 * win7_8.size 0 + win7_8.xsize (grid7.coords Gen.t7_0) 0
        rw [show win7_8.index Gen.t7_0 0 * win7_8.size 0 = 0 from by decide +kernel,
          show win7_8.xsize (grid7.coords Gen.t7_0) 0 = 64 from by decide +kernel]
        omega
      | ⟨1, _⟩ =>
        show win7_8.index Gen.t7_0 1 * win7_8.size 1 ≤ (i 1 : Nat)
          ∧ (i 1 : Nat) < win7_8.index Gen.t7_0 1 * win7_8.size 1 + win7_8.xsize (grid7.coords Gen.t7_0) 1
        rw [show win7_8.index Gen.t7_0 1 * win7_8.size 1 = 0 from by decide +kernel,
          show win7_8.xsize (grid7.coords Gen.t7_0) 1 = 1 from by decide +kernel]
        omega⟩

end Value

end Cert.KernelIdeal.Hand

end
-- ==== Proof.KerChain.lean ====
/-
  The kernel program's result buffer read back as the staged graph network.

  The program's main function is nineteen segments: stretches of host operations and eight kernel regions.  A region leaves
  in its output array a stage function of the arrays it reads (the hypotheses H0 … H7 below, one per region, stated at any
  contents of the buffers when the region is entered); a stretch of host operations computes a neighbourhood sum
  Σ_{e : dst e = v} norm e · h (src e), a row reshaped to a 1 × n matrix, or the sampled head weights
  mu + softplus(rho) · eps; and a buffer that a segment does not write holds after it what it held before.  Composing the
  nineteen steps from the launch memory gives the result buffer as  head ∘ pooling ∘ layer₃ ∘ layer₂ ∘ layer₁.
-/
import proofs.«401103_j7610682049034_2_alg».proof.Proof.Gen.KernelIdeal.Frame
import proofs.«401103_j7610682049034_2_alg».proof.Proof.Spec
import Idealize.ShloMosaic.Lib.StableHlo.Run
import Idealize.ShloMosaic.Lib.ValueIdx

set_option maxRecDepth 16384

noncomputable section

namespace Cert.KernelIdeal.Hand

open Cert.KernelIdeal
open Idealize.ShloMosaic Idealize.ShloMosaic.TcCoe Idealize.ShloMosaic.StableHlo
open Cert.KernelIdeal.Facts₀ Cert.KernelIdeal.Facts

variable [hR : Cert.ReferenceIdeal.Facts]

local notation "R⟨" b "⟩" => Proc.devRef Proc.tc b

/-- The contents of every buffer of every core, as a region's proof data take them. -/
abbrev TcVal : Type := (c : Dev nD) → (b : Ref sig .tc) → Buf (Elt Ideal) ((c : Thread nD τ).loc b)

/-! ## What each region computes, as hypotheses -/

/-- Region 0: the node features times the first weight matrix. -/
abbrev H0 : Prop := ∀ (V : TcVal) (c : Dev nD),
  (Gen.dat0 (F := Ideal) V c).arrAt 2 cfg0.N = Cert.Spec.mm128 (V c main_arg0) (V c main_arg4)
/-- Region 1: bias and elu on 128 features, the bias row given as a 1 × 128 matrix. -/
abbrev H1 : Prop := ∀ (V : TcVal) (c : Dev nD) (b : Cert.Spec.FA Ideal S128),
  V c main_v48 = shapeCast (s := S128) S1x128 b shapeCasts_S128_S1x128 →
  (Gen.dat1 (F := Ideal) V c).arrAt 2 cfg1.N = Cert.Spec.eluB128 (V c main_v47) b
/-- Region 2: the first layer's output times the second weight matrix. -/
abbrev H2 : Prop := ∀ (V : TcVal) (c : Dev nD),
  (Gen.dat2 (F := Ideal) V c).arrAt 2 cfg2.N = Cert.Spec.mm64 (V c main_v49) (V c main_arg6)
/-- Region 3: bias and elu on 64 features. -/
abbrev H3 : Prop := ∀ (V : TcVal) (c : Dev nD) (b : Cert.Spec.FA Ideal S64),
  V c main_v64 = shapeCast (s := S64) S1x64 b shapeCasts_S64_S1x64 →
  (Gen.dat3 (F := Ideal) V c).arrAt 2 cfg3.N = Cert.Spec.eluB64 (V c main_v63) b
/-- Region 4: the second layer's output times the third weight matrix. -/
abbrev H4 : Prop := ∀ (V : TcVal) (c : Dev nD),
  (Gen.dat4 (F := Ideal) V c).arrAt 2 cfg4.N = Cert.Spec.mm32 (V c main_v65) (V c main_arg8)
/-- Region 5: bias and elu on 32 features. -/
abbrev H5 : Prop := ∀ (V : TcVal) (c : Dev nD) (b : Cert.Spec.FA Ideal S32),
  V c main_v80 = shapeCast (s := S32) S1x32 b shapeCasts_S32_S1x32 →
  (Gen.dat5 (F := Ideal) V c).arrAt 2 cfg5.N = Cert.Spec.eluB32 (V c main_v79) b
/-- Region 6: the per-graph sums of the feature rows and the per-graph node counts (the counts as a column). -/
abbrev H6 : Prop := ∀ (V : TcVal) (c : Dev nD) (batch : Cert.Spec.IA Ideal S100000),
  V c main_v82 = shapeCast (s := S100000) S100000x1 batch shapeCasts_S100000_S100000x1 →
  (Gen.dat6 (F := Ideal) V c).arrAt 2 cfg6.N = Cert.Spec.pooledSum (V c main_v81) batch
  ∧ ∀ g : Fin 64, ((Gen.dat6 (F := Ideal) V c).arrAt 3 cfg6.N : S64x1.Idx → EReal) (ValueIdx.ix2 g 0)
      = Cert.Spec.cnt batch (ValueIdx.ix1 g)
/-- Region 7: the head on the sums and the counts (the counts read from a column, the rows from 1 × n matrices). -/
abbrev H7 : Prop := ∀ (V : TcVal) (c : Dev nD) (cn : Cert.Spec.FA Ideal S64) (g b : Cert.Spec.FA Ideal S32)
    (fb : Cert.Spec.FA Ideal S8) (bb : Cert.Spec.FA Ideal S1),
  (∀ i : Fin 64, (V c main_v83_1 : S64x1.Idx → EReal) (ValueIdx.ix2 i 0) = cn (ValueIdx.ix1 i)) →
  V c main_v90 = shapeCast (s := S32) S1x32 g shapeCasts_S32_S1x32 →
  V c main_v91 = shapeCast (s := S32) S1x32 b shapeCasts_S32_S1x32 →
  V c main_v92 = shapeCast (s := S8) S1x8 fb shapeCasts_S8_S1x8 →
  V c main_v93 = shapeCast (s := S1) S1x1 bb shapeCasts_S1_S1x1 →
  (Gen.dat7 (F := Ideal) V c).arrAt 8 cfg7.N
    = Cert.Spec.head (V c main_v83_0) cn g b (V c main_arg12) fb (V c main_v86) bb
/-- The prelude: after the first three stretches of host operations the source ids, the destination ids and the
    per-edge coefficients of the launch memory's edge list stand in their buffers. -/
abbrev HPre : Prop := ∀ (m : (ℓ : Loc nD τ sig) → Buf (Elt Ideal) ℓ) (ρ : Dev nD → PrngReg) (c : Dev nD),
  Gen.W3 (F := Ideal) m ρ c R⟨main_v3⟩ = Cert.Spec.src (F := Ideal) (m ((c : Thread nD τ).loc main_arg1))
  ∧ Gen.W3 (F := Ideal) m ρ c R⟨main_v6⟩ = Cert.Spec.dst (F := Ideal) (m ((c : Thread nD τ).loc main_arg1))
  ∧ Gen.W3 (F := Ideal) m ρ c R⟨main_v33⟩
      = Cert.Spec.norm (F := Ideal) (m ((c : Thread nD τ).loc main_arg1)) (m ((c : Thread nD τ).loc main_arg3))

/-! ## What a stretch of host operations leaves alone

For each stretch the list of the buffers its operations write; a buffer outside the list holds after the stretch what it
held before. -/

abbrev wr0 : List (Ref sig .tc) :=
  [main_v0, main_v1, main_v2, main_v3, main_v4, main_v5, main_v6, main_cst, main_v7, main_v8, main_cst_0, main_v9,
   main_v10, main_v11, main_cst_1, main_v12, main_v13, main_cst_2, main_v14, main_v15, main_v16, main_cst_3]
abbrev wr0_1 : List (Ref sig .tc) := [main_call0_v0, main_call0_v1, main_v17]
abbrev wr0_2 : List (Ref sig .tc) :=
  [main_c, main_v18, main_v19, main_c_4, main_v20, main_v21, main_v22, main_v23, main_v24, main_v25, main_c_5, main_v26,
   main_v27, main_c_6, main_v28, main_v29, main_v30, main_v31, main_v32, main_v33]
abbrev wr1 : List (Ref sig .tc) :=
  [main_c_7, main_v35, main_v36, main_c_8, main_v37, main_v38, main_v39, main_v40, main_v41, main_v42, main_v43, main_v44,
   main_cst_9, main_v45, main_v46, main_v47, main_v48]
abbrev wr3 : List (Ref sig .tc) :=
  [main_c_10, main_v51, main_v52, main_c_11, main_v53, main_v54, main_v55, main_v56, main_v57, main_v58, main_v59, main_v60,
   main_cst_12, main_v61, main_v62, main_v63, main_v64]
abbrev wr5 : List (Ref sig .tc) :=
  [main_c_13, main_v67, main_v68, main_c_14, main_v69, main_v70, main_v71, main_v72, main_v73, main_v74, main_v75, main_v76,
   main_cst_15, main_v77, main_v78, main_v79, main_v80]
abbrev wr6 : List (Ref sig .tc) := [main_v82]
abbrev wr7 : List (Ref sig .tc) :=
  [main_call1_cst, main_call1_v0, main_call1_v1, main_call1_v2, main_call1_v3, main_call1_v4, main_call1_v5, main_call1_v6,
   main_call1_v7, main_call1_v8, main_call1_v9, main_call1_v10, main_call1_v11, main_v84]
abbrev wr7_1 : List (Ref sig .tc) := [main_v85, main_v86]
abbrev wr7_2 : List (Ref sig .tc) :=
  [main_call2_cst, main_call2_v0, main_call2_v1, main_call2_v2, main_call2_v3, main_call2_v4, main_call2_v5, main_call2_v6,
   main_call2_v7, main_call2_v8, main_call2_v9, main_call2_v10, main_call2_v11, main_v87]
abbrev wr7_3 : List (Ref sig .tc) := [main_v88, main_v89, main_v90, main_v91, main_v92, main_v93]

/-- From `hb : b ∉ l`, the list `l` holding every buffer the stretch `ops` writes: no operation of `ops` writes `b`
    (each operation writes exactly its result buffer). -/
macro "not_written" ops:ident hb:ident : tactic =>
  `(tactic| (
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (fun e => $hb (by subst e; decide))))

section Keep
variable (V : Valuation τ sig (Elt Ideal)) (b : Ref sig .tc)

/-- The first stretch (the edge list with its self loops, the degrees). -/
theorem keep0 (hb : b ∉ wr0) : StableHlo.after Gen.hostOps0 V R⟨b⟩ = V R⟨b⟩ :=
  StableHlo.after_of_forall_not_mem _ _ (List.forall_iff_forall_mem.mp (by not_written Gen.hostOps0 hb))
/-- The second stretch (the guarded inverse square root of the degrees). -/
theorem keep0_1 (hb : b ∉ wr0_1) : StableHlo.after Gen.hostOps0_1 V R⟨b⟩ = V R⟨b⟩ :=
  StableHlo.after_of_forall_not_mem _ _ (List.forall_iff_forall_mem.mp (by not_written Gen.hostOps0_1 hb))
/-- The third stretch (the per-edge coefficients). -/
theorem keep0_2 (hb : b ∉ wr0_2) : StableHlo.after Gen.hostOps0_2 V R⟨b⟩ = V R⟨b⟩ :=
  StableHlo.after_of_forall_not_mem _ _ (List.forall_iff_forall_mem.mp (by not_written Gen.hostOps0_2 hb))
/-- The stretch between regions 0 and 1. -/
theorem keep1 (hb : b ∉ wr1) : StableHlo.after Gen.hostOps1 V R⟨b⟩ = V R⟨b⟩ :=
  StableHlo.after_of_forall_not_mem _ _ (List.forall_iff_forall_mem.mp (by not_written Gen.hostOps1 hb))
/-- The stretch between regions 2 and 3. -/
theorem keep3 (hb : b ∉ wr3) : StableHlo.after Gen.hostOps3 V R⟨b⟩ = V R⟨b⟩ :=
  StableHlo.after_of_forall_not_mem _ _ (List.forall_iff_forall_mem.mp (by not_written Gen.hostOps3 hb))
/-- The stretch between regions 4 and 5. -/
theorem keep5 (hb : b ∉ wr5) : StableHlo.after Gen.hostOps5 V R⟨b⟩ = V R⟨b⟩ :=
  StableHlo.after_of_forall_not_mem _ _ (List.forall_iff_forall_mem.mp (by not_written Gen.hostOps5 hb))
/-- The stretch between regions 5 and 6. -/
theorem keep6 (hb : b ∉ wr6) : StableHlo.after Gen.hostOps6 V R⟨b⟩ = V R⟨b⟩ :=
  StableHlo.after_of_forall_not_mem _ _ (List.forall_iff_forall_mem.mp (by not_written Gen.hostOps6 hb))
/-- The first stretch after region 6 (softplus of the weight row's spread). -/
theorem keep7 (hb : b ∉ wr7) : StableHlo.after Gen.hostOps7 V R⟨b⟩ = V R⟨b⟩ :=
  StableHlo.after_of_forall_not_mem _ _ (List.forall_iff_forall_mem.mp (by not_written Gen.hostOps7 hb))
/-- The second stretch after region 6 (the sampled weight row). -/
theorem keep7_1 (hb : b ∉ wr7_1) : StableHlo.after Gen.hostOps7_1 V R⟨b⟩ = V R⟨b⟩ :=
  StableHlo.after_of_forall_not_mem _ _ (List.forall_iff_forall_mem.mp (by not_written Gen.hostOps7_1 hb))
/-- The third stretch after region 6 (softplus of the bias's spread). -/
theorem keep7_2 (hb : b ∉ wr7_2) : StableHlo.after Gen.hostOps7_2 V R⟨b⟩ = V R⟨b⟩ :=
  StableHlo.after_of_forall_not_mem _ _ (List.forall_iff_forall_mem.mp (by not_written Gen.hostOps7_2 hb))
/-- The last stretch before region 7 (the sampled bias, the rows as 1 × n matrices). -/
theorem keep7_3 (hb : b ∉ wr7_3) : StableHlo.after Gen.hostOps7_3 V R⟨b⟩ = V R⟨b⟩ :=
  StableHlo.after_of_forall_not_mem _ _ (List.forall_iff_forall_mem.mp (by not_written Gen.hostOps7_3 hb))

end Keep

/-! ## What the stretches of host operations compute (at any contents `V` of the buffers before the stretch) -/

section HostValues
variable (V : Valuation τ sig (Elt Ideal))

set_option maxHeartbeats 1600000 in
/-- Between regions 0 and 1: rows gathered at the source ids, scaled by the coefficients, summed at the destination ids. -/
theorem host1_v47 : StableHlo.after Gen.hostOps1 V R⟨main_v47⟩ =
    Cert.Spec.agg128 (V R⟨main_v34⟩) (V R⟨main_v3⟩) (V R⟨main_v6⟩) (V R⟨main_v33⟩) := by
  after_results_simp
  unfold Cert.Spec.agg128 Cert.Spec.wrapIdx Cert.Spec.colIdx
  rfl
set_option maxHeartbeats 1600000 in
/-- … and the first bias row as a 1 × 128 matrix. -/
theorem host1_v48 : StableHlo.after Gen.hostOps1 V R⟨main_v48⟩ =
    shapeCast (s := S128) S1x128 (V R⟨main_arg5⟩) shapeCasts_S128_S1x128 := by
  after_results_simp <;> rfl

set_option maxHeartbeats 1600000 in
/-- Between regions 2 and 3: the neighbourhood sum on 64 features. -/
theorem host3_v63 : StableHlo.after Gen.hostOps3 V R⟨main_v63⟩ =
    Cert.Spec.agg64 (V R⟨main_v50⟩) (V R⟨main_v3⟩) (V R⟨main_v6⟩) (V R⟨main_v33⟩) := by
  after_results_simp
  unfold Cert.Spec.agg64 Cert.Spec.wrapIdx Cert.Spec.colIdx
  rfl
set_option maxHeartbeats 1600000 in
/-- … and the second bias row as a 1 × 64 matrix. -/
theorem host3_v64 : StableHlo.after Gen.hostOps3 V R⟨main_v64⟩ =
    shapeCast (s := S64) S1x64 (V R⟨main_arg7⟩) shapeCasts_S64_S1x64 := by
  after_results_simp <;> rfl

set_option maxHeartbeats 1600000 in
/-- Between regions 4 and 5: the neighbourhood sum on 32 features. -/
theorem host5_v79 : StableHlo.after Gen.hostOps5 V R⟨main_v79⟩ =
    Cert.Spec.agg32 (V R⟨main_v66⟩) (V R⟨main_v3⟩) (V R⟨main_v6⟩) (V R⟨main_v33⟩) := by
  after_results_simp
  unfold Cert.Spec.agg32 Cert.Spec.wrapIdx Cert.Spec.colIdx
  rfl
set_option maxHeartbeats 1600000 in
/-- … and the third bias row as a 1 × 32 matrix. -/
theorem host5_v80 : StableHlo.after Gen.hostOps5 V R⟨main_v80⟩ =
    shapeCast (s := S32) S1x32 (V R⟨main_arg9⟩) shapeCasts_S32_S1x32 := by
  after_results_simp <;> rfl

/-- Between regions 5 and 6: the graph ids as a column. -/
theorem host6_v82 : StableHlo.after Gen.hostOps6 V R⟨main_v82⟩ =
    shapeCast (s := S100000) S100000x1 (V R⟨main_arg2⟩) shapeCasts_S100000_S100000x1 := by
  after_results_simp <;> rfl

set_option maxHeartbeats 1600000 in
/-- After region 6: softplus of the weight row's spread. -/
theorem host7_v84 : StableHlo.after Gen.hostOps7 V R⟨main_v84⟩ =
    Cert.Spec.softplus S1x8 bcast_S_S1x8 (V R⟨main_arg15⟩) := by
  after_results_simp
  unfold Cert.Spec.softplus
  rfl
/-- The sampled weight row from the softplus. -/
theorem host7_1_v86 : StableHlo.after Gen.hostOps7_1 V R⟨main_v86⟩ =
    addf (F := Ideal) (s := S1x8) (φ := .f32) (V R⟨main_arg14⟩)
      (mulf (F := Ideal) (s := S1x8) (φ := .f32) (V R⟨main_v84⟩) (V R⟨main_arg16⟩)) := by
  after_results_simp <;> rfl
set_option maxHeartbeats 1600000 in
/-- Softplus of the bias's spread. -/
theorem host7_2_v87 : StableHlo.after Gen.hostOps7_2 V R⟨main_v87⟩ =
    Cert.Spec.softplus S1 bcast_S_S1 (V R⟨main_arg18⟩) := by
  after_results_simp
  unfold Cert.Spec.softplus
  rfl
/-- The sampled bias from the softplus, as a 1 × 1 matrix. -/
theorem host7_3_v93 : StableHlo.after Gen.hostOps7_3 V R⟨main_v93⟩ =
    shapeCast (s := S1) S1x1 (addf (F := Ideal) (s := S1) (φ := .f32) (V R⟨main_arg17⟩)
      (mulf (F := Ideal) (s := S1) (φ := .f32) (V R⟨main_v87⟩) (V R⟨main_arg19⟩))) shapeCasts_S1_S1x1 := by
  after_results_simp <;> rfl
/-- The gain, the offset and the linear layer's bias as 1 × n matrices. -/
theorem host7_3_v90 : StableHlo.after Gen.hostOps7_3 V R⟨main_v90⟩ =
    shapeCast (s := S32) S1x32 (V R⟨main_arg10⟩) shapeCasts_S32_S1x32 := by
  after_results_simp <;> rfl
theorem host7_3_v91 : StableHlo.after Gen.hostOps7_3 V R⟨main_v91⟩ =
    shapeCast (s := S32) S1x32 (V R⟨main_arg11⟩) shapeCasts_S32_S1x32 := by
  after_results_simp <;> rfl
theorem host7_3_v92 : StableHlo.after Gen.hostOps7_3 V R⟨main_v92⟩ =
    shapeCast (s := S8) S1x8 (V R⟨main_arg13⟩) shapeCasts_S8_S1x8 := by
  after_results_simp <;> rfl

end HostValues

/-! ## Carrying a buffer through the segments -/

/-- No window of region 0 has `b` as its array (likewise `off1` … `off6`). -/
abbrev off0 (b : Ref sig .tc) : Prop := ∀ w, Pipeline.arrRef spec0 w ≠ b
abbrev off1 (b : Ref sig .tc) : Prop := ∀ w, Pipeline.arrRef spec1 w ≠ b
abbrev off2 (b : Ref sig .tc) : Prop := ∀ w, Pipeline.arrRef spec2 w ≠ b
abbrev off3 (b : Ref sig .tc) : Prop := ∀ w, Pipeline.arrRef spec3 w ≠ b
abbrev off4 (b : Ref sig .tc) : Prop := ∀ w, Pipeline.arrRef spec4 w ≠ b
abbrev off5 (b : Ref sig .tc) : Prop := ∀ w, Pipeline.arrRef spec5 w ≠ b
abbrev off6 (b : Ref sig .tc) : Prop := ∀ w, Pipeline.arrRef spec6 w ≠ b

/-- `b` is written by none of the first three stretches. -/
abbrev K3 (b : Ref sig .tc) : Prop := b ∉ wr0 ∧ b ∉ wr0_1 ∧ b ∉ wr0_2
/-- `b` is written by no segment from region 0 up to the boundary numbered in the name. -/
abbrev K4 (b : Ref sig .tc) : Prop := off0 b
abbrev K5 (b : Ref sig .tc) : Prop := K4 b ∧ b ∉ wr1
abbrev K6 (b : Ref sig .tc) : Prop := K5 b ∧ off1 b
abbrev K7 (b : Ref sig .tc) : Prop := K6 b ∧ off2 b
abbrev K8 (b : Ref sig .tc) : Prop := K7 b ∧ b ∉ wr3
abbrev K9 (b : Ref sig .tc) : Prop := K8 b ∧ off3 b
abbrev K10 (b : Ref sig .tc) : Prop := K9 b ∧ off4 b
abbrev K11 (b : Ref sig .tc) : Prop := K10 b ∧ b ∉ wr5
abbrev K12 (b : Ref sig .tc) : Prop := K11 b ∧ off5 b
abbrev K13 (b : Ref sig .tc) : Prop := K12 b ∧ b ∉ wr6
abbrev K14 (b : Ref sig .tc) : Prop := K13 b ∧ off6 b
abbrev K15 (b : Ref sig .tc) : Prop := K14 b ∧ b ∉ wr7
abbrev K16 (b : Ref sig .tc) : Prop := K15 b ∧ b ∉ wr7_1
abbrev K17 (b : Ref sig .tc) : Prop := K16 b ∧ b ∉ wr7_2
abbrev K18 (b : Ref sig .tc) : Prop := K17 b ∧ b ∉ wr7_3

section Chain
variable (m : (ℓ : Loc nD τ sig) → Buf (Elt Ideal) ℓ) (ρ : Dev nD → PrngReg) (c : Dev nD)

set_option quotPrecheck false in
local notation "A⟨" b "⟩" => m ((c : Thread nD τ).loc b)

/-- Through the first three stretches: the launch memory. -/
theorem a3 (b : Ref sig .tc) (h : K3 b) : Gen.W3 (F := Ideal) m ρ c R⟨b⟩ = A⟨b⟩ :=
  (keep0_2 _ b h.2.2).trans ((keep0_1 _ b h.2.1).trans ((keep0 _ b h.1).trans rfl))

theorem c4 (b : Ref sig .tc) (h : K4 b) : Gen.W4 (F := Ideal) m ρ c R⟨b⟩ = Gen.W3 m ρ c R⟨b⟩ :=
  Gen.W4_of_ne m ρ c b h
theorem c5 (b : Ref sig .tc) (h : K5 b) : Gen.W5 (F := Ideal) m ρ c R⟨b⟩ = Gen.W3 m ρ c R⟨b⟩ :=
  (keep1 _ b h.2).trans (c4 m ρ c b h.1)
theorem c6 (b : Ref sig .tc) (h : K6 b) : Gen.W6 (F := Ideal) m ρ c R⟨b⟩ = Gen.W3 m ρ c R⟨b⟩ :=
  (Gen.W6_of_ne m ρ c b h.2).trans (c5 m ρ c b h.1)
theorem c7 (b : Ref sig .tc) (h : K7 b) : Gen.W7 (F := Ideal) m ρ c R⟨b⟩ = Gen.W3 m ρ c R⟨b⟩ :=
  (Gen.W7_of_ne m ρ c b h.2).trans (c6 m ρ c b h.1)
theorem c8 (b : Ref sig .tc) (h : K8 b) : Gen.W8 (F := Ideal) m ρ c R⟨b⟩ = Gen.W3 m ρ c R⟨b⟩ :=
  (keep3 _ b h.2).trans (c7 m ρ c b h.1)
theorem c9 (b : Ref sig .tc) (h : K9 b) : Gen.W9 (F := Ideal) m ρ c R⟨b⟩ = Gen.W3 m ρ c R⟨b⟩ :=
  (Gen.W9_of_ne m ρ c b h.2).trans (c8 m ρ c b h.1)
theorem c10 (b : Ref sig .tc) (h : K10 b) : Gen.W10 (F := Ideal) m ρ c R⟨b⟩ = Gen.W3 m ρ c R⟨b⟩ :=
  (Gen.W10_of_ne m ρ c b h.2).trans (c9 m ρ c b h.1)
theorem c11 (b : Ref sig .tc) (h : K11 b) : Gen.W11 (F := Ideal) m ρ c R⟨b⟩ = Gen.W3 m ρ c R⟨b⟩ :=
  (keep5 _ b h.2).trans (c10 m ρ c b h.1)
theorem c12 (b : Ref sig .tc) (h : K12 b) : Gen.W12 (F := Ideal) m ρ c R⟨b⟩ = Gen.W3 m ρ c R⟨b⟩ :=
  (Gen.W12_of_ne m ρ c b h.2).trans (c11 m ρ c b h.1)
theorem c13 (b : Ref sig .tc) (h : K13 b) : Gen.W13 (F := Ideal) m ρ c R⟨b⟩ = Gen.W3 m ρ c R⟨b⟩ :=
  (keep6 _ b h.2).trans (c12 m ρ c b h.1)
theorem c14 (b : Ref sig .tc) (h : K14 b) : Gen.W14 (F := Ideal) m ρ c R⟨b⟩ = Gen.W3 m ρ c R⟨b⟩ :=
  (Gen.W14_of_ne m ρ c b h.2).trans (c13 m ρ c b h.1)
theorem c15 (b : Ref sig .tc) (h : K15 b) : Gen.W15 (F := Ideal) m ρ c R⟨b⟩ = Gen.W3 m ρ c R⟨b⟩ :=
  (keep7 _ b h.2).trans (c14 m ρ c b h.1)
theorem c16 (b : Ref sig .tc) (h : K16 b) : Gen.W16 (F := Ideal) m ρ c R⟨b⟩ = Gen.W3 m ρ c R⟨b⟩ :=
  (keep7_1 _ b h.2).trans (c15 m ρ c b h.1)
theorem c17 (b : Ref sig .tc) (h : K17 b) : Gen.W17 (F := Ideal) m ρ c R⟨b⟩ = Gen.W3 m ρ c R⟨b⟩ :=
  (keep7_2 _ b h.2).trans (c16 m ρ c b h.1)
theorem c18 (b : Ref sig .tc) (h : K18 b) : Gen.W18 (F := Ideal) m ρ c R⟨b⟩ = Gen.W3 m ρ c R⟨b⟩ :=
  (keep7_3 _ b h.2).trans (c17 m ρ c b h.1)

/-- From the exit of region 6 to the entry of region 7 (four stretches of host operations). -/
theorem d18 (b : Ref sig .tc) (h : b ∉ wr7 ∧ b ∉ wr7_1 ∧ b ∉ wr7_2 ∧ b ∉ wr7_3) :
    Gen.W18 (F := Ideal) m ρ c R⟨b⟩ = Gen.W14 m ρ c R⟨b⟩ :=
  (keep7_3 _ b h.2.2.2).trans ((keep7_2 _ b h.2.2.1).trans ((keep7_1 _ b h.2.1).trans (keep7 _ b h.1)))

/-! ## The stages, from the launch memory -/

/-- The source ids, the destination ids and the per-edge coefficients of the launch memory's edge list. -/
abbrev srcA : Cert.Spec.IA Ideal S740000 := Cert.Spec.src (F := Ideal) A⟨main_arg1⟩
abbrev dstA : Cert.Spec.IA Ideal S740000 := Cert.Spec.dst (F := Ideal) A⟨main_arg1⟩
abbrev nrmA : Cert.Spec.FA Ideal S740000 := Cert.Spec.norm (F := Ideal) A⟨main_arg1⟩ A⟨main_arg3⟩
/-- The three layers' outputs. -/
abbrev lay1 : Cert.Spec.FA Ideal S100000x128 :=
  Cert.Spec.eluB128 (Cert.Spec.agg128 (Cert.Spec.mm128 (F := Ideal) A⟨main_arg0⟩ A⟨main_arg4⟩) (srcA m c) (dstA m c) (nrmA m c))
    A⟨main_arg5⟩
abbrev lay2 : Cert.Spec.FA Ideal S100000x64 :=
  Cert.Spec.eluB64 (Cert.Spec.agg64 (Cert.Spec.mm64 (lay1 m c) A⟨main_arg6⟩) (srcA m c) (dstA m c) (nrmA m c)) A⟨main_arg7⟩
abbrev lay3 : Cert.Spec.FA Ideal S100000x32 :=
  Cert.Spec.eluB32 (Cert.Spec.agg32 (Cert.Spec.mm32 (lay2 m c) A⟨main_arg8⟩) (srcA m c) (dstA m c) (nrmA m c)) A⟨main_arg9⟩

/-- The edge data persist from the prelude to the three neighbourhood sums. -/
theorem edge4 (hpre : HPre) : Gen.W4 (F := Ideal) m ρ c R⟨main_v3⟩ = srcA m c ∧ Gen.W4 (F := Ideal) m ρ c R⟨main_v6⟩ = dstA m c
    ∧ Gen.W4 (F := Ideal) m ρ c R⟨main_v33⟩ = nrmA m c :=
  ⟨(c4 m ρ c main_v3 (by decide)).trans (hpre m ρ c).1, (c4 m ρ c main_v6 (by decide)).trans (hpre m ρ c).2.1,
    (c4 m ρ c main_v33 (by decide)).trans (hpre m ρ c).2.2⟩
theorem edge7 (hpre : HPre) : Gen.W7 (F := Ideal) m ρ c R⟨main_v3⟩ = srcA m c ∧ Gen.W7 (F := Ideal) m ρ c R⟨main_v6⟩ = dstA m c
    ∧ Gen.W7 (F := Ideal) m ρ c R⟨main_v33⟩ = nrmA m c :=
  ⟨(c7 m ρ c main_v3 (by decide)).trans (hpre m ρ c).1, (c7 m ρ c main_v6 (by decide)).trans (hpre m ρ c).2.1,
    (c7 m ρ c main_v33 (by decide)).trans (hpre m ρ c).2.2⟩
theorem edge10 (hpre : HPre) : Gen.W10 (F := Ideal) m ρ c R⟨main_v3⟩ = srcA m c ∧ Gen.W10 (F := Ideal) m ρ c R⟨main_v6⟩ = dstA m c
    ∧ Gen.W10 (F := Ideal) m ρ c R⟨main_v33⟩ = nrmA m c :=
  ⟨(c10 m ρ c main_v3 (by decide)).trans (hpre m ρ c).1, (c10 m ρ c main_v6 (by decide)).trans (hpre m ρ c).2.1,
    (c10 m ρ c main_v33 (by decide)).trans (hpre m ρ c).2.2⟩

/-! ### The first layer -/

theorem v34_eq (h0 : H0) : Gen.W4 (F := Ideal) m ρ c R⟨main_v34⟩ = Cert.Spec.mm128 (F := Ideal) A⟨main_arg0⟩ A⟨main_arg4⟩ := by
  refine (Gen.W4_arr m ρ c 2).trans ((h0 (Gen.V3 m ρ) c).trans ?_)
  show Cert.Spec.mm128 (Gen.W3 m ρ c R⟨main_arg0⟩) (Gen.W3 m ρ c R⟨main_arg4⟩) = _
  rw [a3 m ρ c main_arg0 (by decide), a3 m ρ c main_arg4 (by decide)]

theorem v47_eq (h0 : H0) (hpre : HPre) : Gen.W5 (F := Ideal) m ρ c R⟨main_v47⟩ =
    Cert.Spec.agg128 (Cert.Spec.mm128 (F := Ideal) A⟨main_arg0⟩ A⟨main_arg4⟩) (srcA m c) (dstA m c) (nrmA m c) := by
  refine (host1_v47 (Gen.W4 m ρ c)).trans ?_
  rw [v34_eq m ρ c h0, (edge4 m ρ c hpre).1, (edge4 m ρ c hpre).2.1, (edge4 m ρ c hpre).2.2]

theorem v48_eq : Gen.W5 (F := Ideal) m ρ c R⟨main_v48⟩ = shapeCast (s := S128) S1x128 A⟨main_arg5⟩ shapeCasts_S128_S1x128 := by
  refine (host1_v48 (Gen.W4 m ρ c)).trans ?_
  rw [(c4 m ρ c main_arg5 (by decide)).trans (a3 m ρ c main_arg5 (by decide))]

theorem v49_eq (h0 : H0) (h1 : H1) (hpre : HPre) : Gen.W6 (F := Ideal) m ρ c R⟨main_v49⟩ = lay1 m c := by
  refine (Gen.W6_arr m ρ c 2).trans ((h1 (Gen.V5 m ρ) c A⟨main_arg5⟩ (v48_eq m ρ c)).trans ?_)
  show Cert.Spec.eluB128 (Gen.W5 m ρ c R⟨main_v47⟩) A⟨main_arg5⟩ = _
  rw [v47_eq m ρ c h0 hpre]

/-! ### The second layer -/

theorem v50_eq (h0 : H0) (h1 : H1) (h2 : H2) (hpre : HPre) :
    Gen.W7 (F := Ideal) m ρ c R⟨main_v50⟩ = Cert.Spec.mm64 (lay1 m c) A⟨main_arg6⟩ := by
  refine (Gen.W7_arr m ρ c 2).trans ((h2 (Gen.V6 m ρ) c).trans ?_)
  show Cert.Spec.mm64 (Gen.W6 m ρ c R⟨main_v49⟩) (Gen.W6 m ρ c R⟨main_arg6⟩) = _
  rw [v49_eq m ρ c h0 h1 hpre, (c6 m ρ c main_arg6 (by decide)).trans (a3 m ρ c main_arg6 (by decide))]

theorem v63_eq (h0 : H0) (h1 : H1) (h2 : H2) (hpre : HPre) : Gen.W8 (F := Ideal) m ρ c R⟨main_v63⟩ =
    Cert.Spec.agg64 (Cert.Spec.mm64 (lay1 m c) A⟨main_arg6⟩) (srcA m c) (dstA m c) (nrmA m c) := by
  refine (host3_v63 (Gen.W7 m ρ c)).trans ?_
  rw [v50_eq m ρ c h0 h1 h2 hpre, (edge7 m ρ c hpre).1, (edge7 m ρ c hpre).2.1, (edge7 m ρ c hpre).2.2]

theorem v64_eq : Gen.W8 (F := Ideal) m ρ c R⟨main_v64⟩ = shapeCast (s := S64) S1x64 A⟨main_arg7⟩ shapeCasts_S64_S1x64 := by
  refine (host3_v64 (Gen.W7 m ρ c)).trans ?_
  rw [(c7 m ρ c main_arg7 (by decide)).trans (a3 m ρ c main_arg7 (by decide))]

theorem v65_eq (h0 : H0) (h1 : H1) (h2 : H2) (h3 : H3) (hpre : HPre) : Gen.W9 (F := Ideal) m ρ c R⟨main_v65⟩ = lay2 m c := by
  refine (Gen.W9_arr m ρ c 2).trans ((h3 (Gen.V8 m ρ) c A⟨main_arg7⟩ (v64_eq m ρ c)).trans ?_)
  show Cert.Spec.eluB64 (Gen.W8 m ρ c R⟨main_v63⟩) A⟨main_arg7⟩ = _
  rw [v63_eq m ρ c h0 h1 h2 hpre]

/-! ### The third layer -/

theorem v66_eq (h0 : H0) (h1 : H1) (h2 : H2) (h3 : H3) (h4 : H4) (hpre : HPre) :
    Gen.W10 (F := Ideal) m ρ c R⟨main_v66⟩ = Cert.Spec.mm32 (lay2 m c) A⟨main_arg8⟩ := by
  refine (Gen.W10_arr m ρ c 2).trans ((h4 (Gen.V9 m ρ) c).trans ?_)
  show Cert.Spec.mm32 (Gen.W9 m ρ c R⟨main_v65⟩) (Gen.W9 m ρ c R⟨main_arg8⟩) = _
  rw [v65_eq m ρ c h0 h1 h2 h3 hpre, (c9 m ρ c main_arg8 (by decide)).trans (a3 m ρ c main_arg8 (by decide))]

theorem v79_eq (h0 : H0) (h1 : H1) (h2 : H2) (h3 : H3) (h4 : H4) (hpre : HPre) : Gen.W11 (F := Ideal) m ρ c R⟨main_v79⟩ =
    Cert.Spec.agg32 (Cert.Spec.mm32 (lay2 m c) A⟨main_arg8⟩) (srcA m c) (dstA m c) (nrmA m c) := by
  refine (host5_v79 (Gen.W10 m ρ c)).trans ?_
  rw [v66_eq m ρ c h0 h1 h2 h3 h4 hpre, (edge10 m ρ c hpre).1, (edge10 m ρ c hpre).2.1, (edge10 m ρ c hpre).2.2]

theorem v80_eq : Gen.W11 (F := Ideal) m ρ c R⟨main_v80⟩ = shapeCast (s := S32) S1x32 A⟨main_arg9⟩ shapeCasts_S32_S1x32 := by
  refine (host5_v80 (Gen.W10 m ρ c)).trans ?_
  rw [(c10 m ρ c main_arg9 (by decide)).trans (a3 m ρ c main_arg9 (by decide))]

theorem v81_eq (h0 : H0) (h1 : H1) (h2 : H2) (h3 : H3) (h4 : H4) (h5 : H5) (hpre : HPre) :
    Gen.W12 (F := Ideal) m ρ c R⟨main_v81⟩ = lay3 m c := by
  refine (Gen.W12_arr m ρ c 2).trans ((h5 (Gen.V11 m ρ) c A⟨main_arg9⟩ (v80_eq m ρ c)).trans ?_)
  show Cert.Spec.eluB32 (Gen.W11 m ρ c R⟨main_v79⟩) A⟨main_arg9⟩ = _
  rw [v79_eq m ρ c h0 h1 h2 h3 h4 hpre]

/-! ### Pooling over graphs -/

theorem v82_eq : Gen.W13 (F := Ideal) m ρ c R⟨main_v82⟩ =
    shapeCast (s := S100000) S100000x1 A⟨main_arg2⟩ shapeCasts_S100000_S100000x1 := by
  refine (host6_v82 (Gen.W12 m ρ c)).trans ?_
  rw [(c12 m ρ c main_arg2 (by decide)).trans (a3 m ρ c main_arg2 (by decide))]

theorem v81_at13 (h0 : H0) (h1 : H1) (h2 : H2) (h3 : H3) (h4 : H4) (h5 : H5) (hpre : HPre) :
    Gen.W13 (F := Ideal) m ρ c R⟨main_v81⟩ = lay3 m c :=
  (keep6 _ main_v81 (by decide)).trans (v81_eq m ρ c h0 h1 h2 h3 h4 h5 hpre)

theorem pool_eq (h0 : H0) (h1 : H1) (h2 : H2) (h3 : H3) (h4 : H4) (h5 : H5) (h6 : H6) (hpre : HPre) :
    Gen.W14 (F := Ideal) m ρ c R⟨main_v83_0⟩ = Cert.Spec.pooledSum (lay3 m c) A⟨main_arg2⟩
    ∧ ∀ g : Fin 64, (Gen.W14 (F := Ideal) m ρ c R⟨main_v83_1⟩ : S64x1.Idx → EReal) (ValueIdx.ix2 g 0)
        = Cert.Spec.cnt (F := Ideal) A⟨main_arg2⟩ (ValueIdx.ix1 g) := by
  obtain ⟨hp, hc⟩ := h6 (Gen.V13 m ρ) c A⟨main_arg2⟩ (v82_eq m ρ c)
  refine ⟨(Gen.W14_arr m ρ c 2).trans (hp.trans ?_), fun g => ?_⟩
  · show Cert.Spec.pooledSum (Gen.W13 m ρ c R⟨main_v81⟩) A⟨main_arg2⟩ = _
    rw [v81_at13 m ρ c h0 h1 h2 h3 h4 h5 hpre]
  · have e : (Gen.W14 (F := Ideal) m ρ c R⟨main_v83_1⟩ : S64x1.Idx → EReal)
        = ((Gen.dat6 (F := Ideal) (Gen.V13 m ρ) c).arrAt 3 cfg6.N : S64x1.Idx → EReal) := Gen.W14_arr m ρ c 3
    exact (congrFun e _).trans (hc g)

/-! ### The sampled head weights and the rows as matrices -/

theorem v84_eq : Gen.W15 (F := Ideal) m ρ c R⟨main_v84⟩ = Cert.Spec.softplus S1x8 bcast_S_S1x8 A⟨main_arg15⟩ := by
  refine (host7_v84 (Gen.W14 m ρ c)).trans ?_
  rw [(c14 m ρ c main_arg15 (by decide)).trans (a3 m ρ c main_arg15 (by decide))]

theorem v86_eq : Gen.W16 (F := Ideal) m ρ c R⟨main_v86⟩ = Cert.Spec.wv (F := Ideal) A⟨main_arg14⟩ A⟨main_arg15⟩ A⟨main_arg16⟩ := by
  unfold Cert.Spec.wv
  refine (host7_1_v86 (Gen.W15 m ρ c)).trans ?_
  rw [v84_eq m ρ c, (c15 m ρ c main_arg14 (by decide)).trans (a3 m ρ c main_arg14 (by decide)),
    (c15 m ρ c main_arg16 (by decide)).trans (a3 m ρ c main_arg16 (by decide))]

theorem v86_at18 : Gen.W18 (F := Ideal) m ρ c R⟨main_v86⟩ = Cert.Spec.wv (F := Ideal) A⟨main_arg14⟩ A⟨main_arg15⟩ A⟨main_arg16⟩ :=
  (keep7_3 _ main_v86 (by decide)).trans ((keep7_2 _ main_v86 (by decide)).trans (v86_eq m ρ c))

theorem v87_eq : Gen.W17 (F := Ideal) m ρ c R⟨main_v87⟩ = Cert.Spec.softplus S1 bcast_S_S1 A⟨main_arg18⟩ := by
  refine (host7_2_v87 (Gen.W16 m ρ c)).trans ?_
  rw [(c16 m ρ c main_arg18 (by decide)).trans (a3 m ρ c main_arg18 (by decide))]

theorem v93_eq : Gen.W18 (F := Ideal) m ρ c R⟨main_v93⟩ =
    shapeCast (s := S1) S1x1 (Cert.Spec.bbv (F := Ideal) A⟨main_arg17⟩ A⟨main_arg18⟩ A⟨main_arg19⟩) shapeCasts_S1_S1x1 := by
  unfold Cert.Spec.bbv
  refine (host7_3_v93 (Gen.W17 m ρ c)).trans ?_
  rw [v87_eq m ρ c, (c17 m ρ c main_arg17 (by decide)).trans (a3 m ρ c main_arg17 (by decide)),
    (c17 m ρ c main_arg19 (by decide)).trans (a3 m ρ c main_arg19 (by decide))]

theorem v90_eq : Gen.W18 (F := Ideal) m ρ c R⟨main_v90⟩ = shapeCast (s := S32) S1x32 A⟨main_arg10⟩ shapeCasts_S32_S1x32 := by
  refine (host7_3_v90 (Gen.W17 m ρ c)).trans ?_
  rw [(c17 m ρ c main_arg10 (by decide)).trans (a3 m ρ c main_arg10 (by decide))]
theorem v91_eq : Gen.W18 (F := Ideal) m ρ c R⟨main_v91⟩ = shapeCast (s := S32) S1x32 A⟨main_arg11⟩ shapeCasts_S32_S1x32 := by
  refine (host7_3_v91 (Gen.W17 m ρ c)).trans ?_
  rw [(c17 m ρ c main_arg11 (by decide)).trans (a3 m ρ c main_arg11 (by decide))]
theorem v92_eq : Gen.W18 (F := Ideal) m ρ c R⟨main_v92⟩ = shapeCast (s := S8) S1x8 A⟨main_arg13⟩ shapeCasts_S8_S1x8 := by
  refine (host7_3_v92 (Gen.W17 m ρ c)).trans ?_
  rw [(c17 m ρ c main_arg13 (by decide)).trans (a3 m ρ c main_arg13 (by decide))]

/-! ### The head -/

/-- The head is a function of its arguments. -/
theorem head_congr {ps ps' : Cert.Spec.FA Ideal S64x32} {cn : Cert.Spec.FA Ideal S64} {g b : Cert.Spec.FA Ideal S32}
    {fw fw' : Cert.Spec.FA Ideal S32x8} {fb : Cert.Spec.FA Ideal S8} {w w' : Cert.Spec.FA Ideal S1x8} {bb : Cert.Spec.FA Ideal S1}
    (e1 : ps = ps') (e2 : fw = fw') (e3 : w = w') :
    Cert.Spec.head ps cn g b fw fb w bb = Cert.Spec.head ps' cn g b fw' fb w' bb := by rw [e1, e2, e3]

/-- The result buffer at the last boundary, with the layers abbreviated. -/
theorem kerVal' (h0 : H0) (h1 : H1) (h2 : H2) (h3 : H3) (h4 : H4) (h5 : H5) (h6 : H6) (h7 : H7) (hpre : HPre) :
    Gen.W19 (F := Ideal) m ρ c R⟨main_v94⟩ =
      Cert.Spec.head (Cert.Spec.pooledSum (lay3 m c) A⟨main_arg2⟩) (Cert.Spec.cnt (F := Ideal) A⟨main_arg2⟩)
        A⟨main_arg10⟩ A⟨main_arg11⟩ A⟨main_arg12⟩ A⟨main_arg13⟩
        (Cert.Spec.wv (F := Ideal) A⟨main_arg14⟩ A⟨main_arg15⟩ A⟨main_arg16⟩)
        (Cert.Spec.bbv (F := Ideal) A⟨main_arg17⟩ A⟨main_arg18⟩ A⟨main_arg19⟩) := by
  have hp := pool_eq m ρ c h0 h1 h2 h3 h4 h5 h6 hpre
  have e1 : (Gen.W18 (F := Ideal) m ρ c R⟨main_v83_1⟩ : S64x1.Idx → EReal) = Gen.W14 (F := Ideal) m ρ c R⟨main_v83_1⟩ :=
    d18 m ρ c main_v83_1 (by decide)
  refine (Gen.W19_arr m ρ c 8).trans ((h7 (Gen.V18 m ρ) c (Cert.Spec.cnt (F := Ideal) A⟨main_arg2⟩) A⟨main_arg10⟩ A⟨main_arg11⟩
    A⟨main_arg13⟩ (Cert.Spec.bbv (F := Ideal) A⟨main_arg17⟩ A⟨main_arg18⟩ A⟨main_arg19⟩)
    (fun i => (congrFun e1 _).trans (hp.2 i)) (v90_eq m ρ c) (v91_eq m ρ c) (v92_eq m ρ c) (v93_eq m ρ c)).trans ?_)
  exact head_congr ((d18 m ρ c main_v83_0 (by decide)).trans hp.1)
    ((c18 m ρ c main_arg12 (by decide)).trans (a3 m ρ c main_arg12 (by decide))) (v86_at18 m ρ c)

end Chain

/-- The kernel program's result buffer at the last boundary is the staged network applied to the launch memory: the head on
    the per-graph sums of the third layer's output and on the per-graph node counts, with the sampled weight row and bias. -/
theorem kerVal (h0 : H0) (h1 : H1) (h2 : H2) (h3 : H3) (h4 : H4) (h5 : H5) (h6 : H6) (h7 : H7) (hpre : HPre)
    (m : (ℓ : Loc nD τ sig) → Buf (Elt Ideal) ℓ) (ρ : Dev nD → PrngReg) (c : Dev nD) :
    Gen.W19 (F := Ideal) m ρ c (Proc.devRef .tc main_v94) =
      Cert.Spec.head
        (Cert.Spec.pooledSum
          (Cert.Spec.eluB32
            (Cert.Spec.agg32
              (Cert.Spec.mm32
                (Cert.Spec.eluB64
                  (Cert.Spec.agg64
                    (Cert.Spec.mm64
                      (Cert.Spec.eluB128
                        (Cert.Spec.agg128
                          (Cert.Spec.mm128 (F := Ideal) (m ((c : Thread nD τ).loc main_arg0)) (m ((c : Thread nD τ).loc main_arg4)))
                          (Cert.Spec.src (F := Ideal) (m ((c : Thread nD τ).loc main_arg1)))
                          (Cert.Spec.dst (F := Ideal) (m ((c : Thread nD τ).loc main_arg1)))
                          (Cert.Spec.norm (F := Ideal) (m ((c : Thread nD τ).loc main_arg1)) (m ((c : Thread nD τ).loc main_arg3))))
                        (m ((c : Thread nD τ).loc main_arg5)))
                      (m ((c : Thread nD τ).loc main_arg6)))
                    (Cert.Spec.src (F := Ideal) (m ((c : Thread nD τ).loc main_arg1)))
                    (Cert.Spec.dst (F := Ideal) (m ((c : Thread nD τ).loc main_arg1)))
                    (Cert.Spec.norm (F := Ideal) (m ((c : Thread nD τ).loc main_arg1)) (m ((c : Thread nD τ).loc main_arg3))))
                  (m ((c : Thread nD τ).loc main_arg7)))
                (m ((c : Thread nD τ).loc main_arg8)))
              (Cert.Spec.src (F := Ideal) (m ((c : Thread nD τ).loc main_arg1)))
              (Cert.Spec.dst (F := Ideal) (m ((c : Thread nD τ).loc main_arg1)))
              (Cert.Spec.norm (F := Ideal) (m ((c : Thread nD τ).loc main_arg1)) (m ((c : Thread nD τ).loc main_arg3))))
            (m ((c : Thread nD τ).loc main_arg9)))
          (m ((c : Thread nD τ).loc main_arg2)))
        (Cert.Spec.cnt (F := Ideal) (m ((c : Thread nD τ).loc main_arg2)))
        (m ((c : Thread nD τ).loc main_arg10)) (m ((c : Thread nD τ).loc main_arg11))
        (m ((c : Thread nD τ).loc main_arg12)) (m ((c : Thread nD τ).loc main_arg13))
        (Cert.Spec.wv (F := Ideal) (m ((c : Thread nD τ).loc main_arg14)) (m ((c : Thread nD τ).loc main_arg15))
          (m ((c : Thread nD τ).loc main_arg16)))
        (Cert.Spec.bbv (F := Ideal) (m ((c : Thread nD τ).loc main_arg17)) (m ((c : Thread nD τ).loc main_arg18))
          (m ((c : Thread nD τ).loc main_arg19))) :=
  kerVal' m ρ c h0 h1 h2 h3 h4 h5 h6 h7 hpre

end Cert.KernelIdeal.Hand
-- ==== Proof.RefRun.lean ====
/-
  The plain program's run. Its @main is three consecutive parts; each part is a straight line of host operations
  (the private functions' bodies stand at their call sites), so the whole is the straight line of the seven lists
  one after the other, and a straight line run from any memory with zero counters terminates with every TensorCore
  buffer at the fold of the operations over the launch contents.
-/
import proofs.«401103_j7610682049034_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The whole line: the seven lists in order. -/
abbrev ops : List (HloOp τ sig (Elt F)) := ops0 ++ (ops1 ++ (ops2 ++ (ops3 ++ (ops4 ++ (ops5 ++ ops6)))))

/-- The fold over two lines in turn is the fold over their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 4096 in
/-- Statements 1 … 60: the edge list, its normalisation, and the first layer's product and neighbourhood sum. -/
theorem part0_eq (c : Dev nD) : main_part0 (F := F) c = seq (ops0 ++ ops1) := by
  simp only [main_part0, fn_where.body, seq, List.cons_append, List.nil_append, bind_assoc, pure_bind]
  rfl

set_option maxRecDepth 8192 in
/-- Statements 61 … 120: the first layer's bias and elu, the second and third layers, the per-graph sums and counts. -/
theorem part1_eq (c : Dev nD) : main_part1 (F := F) c = seq (ops2 ++ (ops3 ++ (ops4 ++ ops5))) := by
  simp only [main_part1, fn_elu.body, fn_elu_2.body, fn_elu_5.body, fn_where_0.body, fn_where_1.body, fn_where_3.body,
    fn_where_4.body, fn_where_6.body, fn_where_7.body, seq, List.cons_append, List.nil_append, bind_assoc, pure_bind]
  rfl

set_option maxRecDepth 8192 in
/-- Statements 121 … 168: the head. -/
theorem part2_eq (c : Dev nD) : main_part2 (F := F) c = seq ops6 := by
  simp only [main_part2, fn_elu_8.body, fn_where_9.body, fn_where_10.body, fn_softplus.body, fn_softplus_11.body, seq,
    bind_assoc, pure_bind]

/-- @main is the straight line of all the operations. -/
theorem main_eq (c : Dev nD) : main (F := F) c = seq ops := by
  have e : main (F := F) c = (main_part0 c >>= fun _ => main_part1 c >>= fun _ => main_part2 c) := by
    simp only [main, bind_assoc]
  rw [e, part0_eq, part1_eq, part2_eq]
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub⟩

theorem ops_fresh : (ops : List (HloOp τ sig (Elt F))).Forall fun op => op.fresh = ∅ := by
  simp only [ops, List.forall_append]
  exact ⟨ops0_fresh, ops1_fresh, ops2_fresh, ops3_fresh, ops4_fresh, ops5_fresh, ops6_fresh⟩

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => (List.forall_iff_forall_mem.mp ops_fresh) op h)

end Cert.ReferenceIdeal.Hand

end
-- ==== Proof.RefVal0.lean ====
/-
  The first stretch of the plain program (operations 1 … 45) read back: the source and destination rows of the edge
  list with the self loops appended, and the per-edge coefficient  d(src e)^(-1/2) · w e · d(dst e)^(-1/2)  over the
  weighted in-degrees d. Each buffer is the composition of the operations that feed it, which is the staged function
  by unfolding; a buffer the stretch does not write keeps its contents.
-/
import proofs.«401103_j7610682049034_2_alg».proof.Proof.RefRun
import proofs.«401103_j7610682049034_2_alg».proof.Proof.Spec
import Idealize.ShloMosaic.Lib.StableHlo.Run

set_option maxRecDepth 8192

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- An operation whose one written buffer is listed writes inside the listed buffers. -/
private theorem writes_sub_of_mem {L : List (Ref sig .tc)} {op : HloOp τ sig (Elt F)} {y : Ref sig .tc}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-- The buffers operations 1 … 45 write. -/
abbrev ops0_W : List (Ref sig .tc) :=
  [main_v0, main_v1, main_v2, main_v3, main_v4, main_v5, main_v6, main_cst, main_v7, main_v8, main_cst_0, main_v9, main_v10,
   main_v11, main_cst_1, main_v12, main_v13, main_cst_2, main_v14, main_v15, main_v16, main_cst_3, main_call0.v0.ref,
   main_call0.v1.ref, main_call0.v2.ref, main_c, main_v18, main_v19, main_c_4, main_v20, main_v21, main_v22, main_v23,
   main_v24, main_v25, main_c_5, main_v26, main_v27, main_c_6, main_v28, main_v29, main_v30, main_v31, main_v32, main_v33]

theorem ops0_writes :
    (ops0 : List (HloOp τ sig (Elt F))).Forall fun op => op.writes ⊆ (ops0_W.map (Proc.devRef (τ := τ) .tc)).toFinset := by
  simp only [List.Forall]
  repeat' apply And.intro
  all_goals exact writes_sub_of_mem rfl (by decide)

/-- A buffer that operations 1 … 45 do not write keeps its contents. -/
theorem ops0_keep (W : Valuation τ sig (Elt F)) {r : Ref sig .tc} (h : r ∉ ops0_W) :
    after ops0 W (Proc.devRef .tc r) = W (Proc.devRef .tc r) :=
  after_of_writes_sub ops0 W ops0_writes h

attribute [local irreducible] Host.gather Host.scatterAdd Host.reduceAdd concatenate

set_option maxHeartbeats 1000000 in
/-- Row 0 of the edge array with the node ids appended. -/
theorem ops0_v3 (W : Valuation τ sig (Elt F)) :
    after ops0 W (Proc.devRef .tc main_v3) = Cert.Spec.src (W (Proc.devRef .tc main_arg1)) := by
  show after ops0 W (Proc.devRef .tc main_v3) = _
  after_results_simp
  rfl

set_option maxHeartbeats 1000000 in
/-- Row 1 of the edge array with the node ids appended. -/
theorem ops0_v6 (W : Valuation τ sig (Elt F)) :
    after ops0 W (Proc.devRef .tc main_v6) = Cert.Spec.dst (W (Proc.devRef .tc main_arg1)) := by
  show after ops0 W (Proc.devRef .tc main_v6) = _
  after_results_simp
  rfl

set_option maxHeartbeats 2000000 in
/-- The per-edge coefficient: the two gathers of deg^(-1/2) around the edge weight. -/
theorem ops0_v33 (W : Valuation τ sig (Elt F)) :
    after ops0 W (Proc.devRef .tc main_v33)
      = Cert.Spec.norm (W (Proc.devRef .tc main_arg1)) (W (Proc.devRef .tc main_arg3)) := by
  show after ops0 W (Proc.devRef .tc main_v33) = _
  after_results_simp
  rfl

end Cert.ReferenceIdeal.Hand

end
-- ==== Proof.RefVal1.lean ====
/-
  The first layer of the plain program read back. Operations 46 … 62: the node features times the first weight matrix,
  row (src e) of the product gathered (a negative index wrapped by the node count), scaled by the per-edge coefficient
  and summed into row (dst e). Operations 63 … 80: the bias row added to every node, then  elu x = x  where x > 0 and
  1 · (eˣ − 1)  elsewhere. Each is the staged function by unfolding; buffers not written keep their contents.
-/
import proofs.«401103_j7610682049034_2_alg».proof.Proof.RefRun
import proofs.«401103_j7610682049034_2_alg».proof.Proof.Spec
import Idealize.ShloMosaic.Lib.StableHlo.Run

set_option maxRecDepth 8192

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- An operation whose one written buffer is listed writes inside the listed buffers. -/
private theorem writes_sub_of_mem {L : List (Ref sig .tc)} {op : HloOp τ sig (Elt F)} {y : Ref sig .tc}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-- The buffers operations 46 … 62 write. -/
abbrev ops1_W : List (Ref sig .tc) :=
  [main_v34, main_c_7, main_v35, main_v36, main_c_8, main_v37, main_v38, main_v39, main_v40, main_v41, main_v42, main_v43,
   main_v44, main_cst_9, main_v45, main_v46, main_v47]

theorem ops1_writes :
    (ops1 : List (HloOp τ sig (Elt F))).Forall fun op => op.writes ⊆ (ops1_W.map (Proc.devRef (τ := τ) .tc)).toFinset := by
  simp only [List.Forall]
  repeat' apply And.intro
  all_goals exact writes_sub_of_mem rfl (by decide)

/-- A buffer that operations 46 … 62 do not write keeps its contents. -/
theorem ops1_keep (W : Valuation τ sig (Elt F)) {r : Ref sig .tc} (h : r ∉ ops1_W) :
    after ops1 W (Proc.devRef .tc r) = W (Proc.devRef .tc r) :=
  after_of_writes_sub ops1 W ops1_writes h

/-- The buffers operations 63 … 80 write. -/
abbrev ops2_W : List (Ref sig .tc) :=
  [main_v48, main_v49, main_v50, main_call1.cst.ref, main_call1.v0.ref, main_call1.v1.ref, main_call1.cst_0.ref,
   main_call1.v2.ref, main_call1.v3.ref, main_call1.cst_1.ref, main_call1.call0.v0.ref, main_call1.call0.v1.ref,
   main_call1.call0.v2.ref, main_call1.v5.ref, main_call1.cst_2.ref, main_call1.v6.ref, main_call1.v7.ref,
   main_call1.call1.v0.ref]

theorem ops2_writes :
    (ops2 : List (HloOp τ sig (Elt F))).Forall fun op => op.writes ⊆ (ops2_W.map (Proc.devRef (τ := τ) .tc)).toFinset := by
  simp only [List.Forall]
  repeat' apply And.intro
  all_goals exact writes_sub_of_mem rfl (by decide)

/-- A buffer that operations 63 … 80 do not write keeps its contents. -/
theorem ops2_keep (W : Valuation τ sig (Elt F)) {r : Ref sig .tc} (h : r ∉ ops2_W) :
    after ops2 W (Proc.devRef .tc r) = W (Proc.devRef .tc r) :=
  after_of_writes_sub ops2 W ops2_writes h

attribute [local irreducible] Host.gather Host.scatterAdd Host.reduceAdd concatenate

set_option maxHeartbeats 1000000 in
/-- The neighbourhood sum of the first layer's product, over the edge list and coefficient the stretch finds. -/
theorem ops1_v47 (W : Valuation τ sig (Elt F)) :
    after ops1 W (Proc.devRef .tc main_v47)
      = Cert.Spec.agg128 (Cert.Spec.mm128 (W (Proc.devRef .tc main_arg0)) (W (Proc.devRef .tc main_arg4)))
          (W (Proc.devRef .tc main_v3)) (W (Proc.devRef .tc main_v6)) (W (Proc.devRef .tc main_v33)) := by
  show after ops1 W (Proc.devRef .tc main_v47) = _
  after_results_simp
  rfl

set_option maxHeartbeats 1000000 in
/-- The bias and elu of the first layer. -/
theorem ops2_v51 (W : Valuation τ sig (Elt F)) :
    after ops2 W (Proc.devRef .tc main_v51)
      = Cert.Spec.eluB128 (W (Proc.devRef .tc main_v47)) (W (Proc.devRef .tc main_arg5)) := by
  show after ops2 W (Proc.devRef .tc main_v51) = _
  after_results_simp
  rfl

end Cert.ReferenceIdeal.Hand

end
-- ==== Proof.RefVal2.lean ====
/-
  The second and third layers of the plain program read back (operations 81 … 115 and 116 … 150). Each layer: the node
  features times the layer's weight matrix, row (src e) of the product gathered, scaled by the per-edge coefficient and
  summed into row (dst e), the bias row added, then elu. Each is the staged function by unfolding; buffers not written
  keep their contents.
-/
import proofs.«401103_j7610682049034_2_alg».proof.Proof.RefRun
import proofs.«401103_j7610682049034_2_alg».proof.Proof.Spec
import Idealize.ShloMosaic.Lib.StableHlo.Run

set_option maxRecDepth 8192

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- An operation whose one written buffer is listed writes inside the listed buffers. -/
private theorem writes_sub_of_mem {L : List (Ref sig .tc)} {op : HloOp τ sig (Elt F)} {y : Ref sig .tc}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-- The buffers operations 81 … 115 write. -/
abbrev ops3_W : List (Ref sig .tc) :=
  [main_v52, main_c_10, main_v53, main_v54, main_c_11, main_v55, main_v56, main_v57, main_v58, main_v59, main_v60, main_v61,
   main_v62, main_cst_12, main_v63, main_v64, main_v65, main_v66, main_v67, main_v68, main_call2.cst.ref, main_call2.v0.ref,
   main_call2.v1.ref, main_call2.cst_0.ref, main_call2.v2.ref, main_call2.v3.ref, main_call2.cst_1.ref,
   main_call2.call0.v0.ref, main_call2.call0.v1.ref, main_call2.call0.v2.ref, main_call2.v5.ref, main_call2.cst_2.ref,
   main_call2.v6.ref, main_call2.v7.ref, main_call2.call1.v0.ref]

theorem ops3_writes :
    (ops3 : List (HloOp τ sig (Elt F))).Forall fun op => op.writes ⊆ (ops3_W.map (Proc.devRef (τ := τ) .tc)).toFinset := by
  simp only [List.Forall]
  repeat' apply And.intro
  all_goals exact writes_sub_of_mem rfl (by decide)

/-- A buffer that operations 81 … 115 do not write keeps its contents. -/
theorem ops3_keep (W : Valuation τ sig (Elt F)) {r : Ref sig .tc} (h : r ∉ ops3_W) :
    after ops3 W (Proc.devRef .tc r) = W (Proc.devRef .tc r) :=
  after_of_writes_sub ops3 W ops3_writes h

/-- The buffers operations 116 … 150 write. -/
abbrev ops4_W : List (Ref sig .tc) :=
  [main_v70, main_c_13, main_v71, main_v72, main_c_14, main_v73, main_v74, main_v75, main_v76, main_v77, main_v78, main_v79,
   main_v80, main_cst_15, main_v81, main_v82, main_v83, main_v84, main_v85, main_v86, main_call3.cst.ref, main_call3.v0.ref,
   main_call3.v1.ref, main_call3.cst_0.ref, main_call3.v2.ref, main_call3.v3.ref, main_call3.cst_1.ref,
   main_call3.call0.v0.ref, main_call3.call0.v1.ref, main_call3.call0.v2.ref, main_call3.v5.ref, main_call3.cst_2.ref,
   main_call3.v6.ref, main_call3.v7.ref, main_call3.call1.v0.ref]

theorem ops4_writes :
    (ops4 : List (HloOp τ sig (Elt F))).Forall fun op => op.writes ⊆ (ops4_W.map (Proc.devRef (τ := τ) .tc)).toFinset := by
  simp only [List.Forall]
  repeat' apply And.intro
  all_goals exact writes_sub_of_mem rfl (by decide)

/-- A buffer that operations 116 … 150 do not write keeps its contents. -/
theorem ops4_keep (W : Valuation τ sig (Elt F)) {r : Ref sig .tc} (h : r ∉ ops4_W) :
    after ops4 W (Proc.devRef .tc r) = W (Proc.devRef .tc r) :=
  after_of_writes_sub ops4 W ops4_writes h

attribute [local irreducible] Host.gather Host.scatterAdd Host.reduceAdd concatenate

set_option maxHeartbeats 2000000 in
/-- The second layer: product, neighbourhood sum, bias, elu. -/
theorem ops3_v69 (W : Valuation τ sig (Elt F)) :
    after ops3 W (Proc.devRef .tc main_v69)
      = Cert.Spec.eluB64
          (Cert.Spec.agg64 (Cert.Spec.mm64 (W (Proc.devRef .tc main_v51)) (W (Proc.devRef .tc main_arg6)))
            (W (Proc.devRef .tc main_v3)) (W (Proc.devRef .tc main_v6)) (W (Proc.devRef .tc main_v33)))
          (W (Proc.devRef .tc main_arg7)) := by
  show after ops3 W (Proc.devRef .tc main_v69) = _
  after_results_simp
  rfl

set_option maxHeartbeats 2000000 in
/-- The third layer: product, neighbourhood sum, bias, elu. -/
theorem ops4_v87 (W : Valuation τ sig (Elt F)) :
    after ops4 W (Proc.devRef .tc main_v87)
      = Cert.Spec.eluB32
          (Cert.Spec.agg32 (Cert.Spec.mm32 (W (Proc.devRef .tc main_v69)) (W (Proc.devRef .tc main_arg8)))
            (W (Proc.devRef .tc main_v3)) (W (Proc.devRef .tc main_v6)) (W (Proc.devRef .tc main_v33)))
          (W (Proc.devRef .tc main_arg9)) := by
  show after ops4 W (Proc.devRef .tc main_v87) = _
  after_results_simp
  rfl

end Cert.ReferenceIdeal.Hand

end
-- ==== Proof.RefVal3.lean ====
/-
  The pooling and the head of the plain program read back. Operations 151 … 164: the number of nodes of each graph, the
  feature rows summed per graph, and the column of  max(count, 1). Operations 165 … 251: the graph means (sums over that
  column), layer normalisation over the 32 features, the linear layer, elu, and the product with the sampled weight row
  w_mu + softplus(w_rho) · w_eps  plus the sampled bias. Each is the staged function by unfolding; buffers not written
  keep their contents.
-/
import proofs.«401103_j7610682049034_2_alg».proof.Proof.RefRun
import proofs.«401103_j7610682049034_2_alg».proof.Proof.Spec
import Idealize.ShloMosaic.Lib.StableHlo.Run

set_option maxRecDepth 8192

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- An operation whose one written buffer is listed writes inside the listed buffers. -/
private theorem writes_sub_of_mem {L : List (Ref sig .tc)} {op : HloOp τ sig (Elt F)} {y : Ref sig .tc}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-- The buffers operations 151 … 164 write. -/
abbrev ops5_W : List (Ref sig .tc) :=
  [main_cst_16, main_v88, main_cst_17, main_v89, main_v90, main_v91, main_cst_18, main_v92, main_v93, main_v94, main_cst_19,
   main_v95, main_v96, main_v97]

theorem ops5_writes :
    (ops5 : List (HloOp τ sig (Elt F))).Forall fun op => op.writes ⊆ (ops5_W.map (Proc.devRef (τ := τ) .tc)).toFinset := by
  simp only [List.Forall]
  repeat' apply And.intro
  all_goals exact writes_sub_of_mem rfl (by decide)

/-- A buffer that operations 151 … 164 do not write keeps its contents. -/
theorem ops5_keep (W : Valuation τ sig (Elt F)) {r : Ref sig .tc} (h : r ∉ ops5_W) :
    after ops5 W (Proc.devRef .tc r) = W (Proc.devRef .tc r) :=
  after_of_writes_sub ops5 W ops5_writes h

/-- The buffers operations 165 … 251 write. -/
abbrev ops6_W : List (Ref sig .tc) :=
  [main_v98, main_v99, main_cst_20, main_v100, main_v101, main_cst_21, main_v102, main_v103, main_v104, main_v105, main_v106,
   main_cst_22, main_v107, main_v108, main_cst_23, main_v109, main_v110, main_v111, main_v112, main_cst_24, main_v113,
   main_v114, main_v115, main_v116, main_v117, main_v118, main_v119, main_v120, main_v121, main_v122, main_v123, main_v124,
   main_v125, main_v126, main_v127, main_call4.cst.ref, main_call4.v0.ref, main_call4.v1.ref, main_call4.cst_0.ref,
   main_call4.v2.ref, main_call4.v3.ref, main_call4.cst_1.ref, main_call4.call0.v0.ref, main_call4.call0.v1.ref,
   main_call4.call0.v2.ref, main_call4.v5.ref, main_call4.cst_2.ref, main_call4.v6.ref, main_call4.v7.ref,
   main_call4.call1.v0.ref, main_call5.cst.ref, main_call5.v0.ref, main_call5.v1.ref, main_call5.v2.ref, main_call5.v3.ref,
   main_call5.v4.ref, main_call5.v5.ref, main_call5.v6.ref, main_call5.v7.ref, main_call5.v8.ref, main_call5.v9.ref,
   main_call5.v10.ref, main_call5.v11.ref, main_call5.v12.ref, main_v130, main_v131, main_call6.cst.ref, main_call6.v0.ref,
   main_call6.v1.ref, main_call6.v2.ref, main_call6.v3.ref, main_call6.v4.ref, main_call6.v5.ref, main_call6.v6.ref,
   main_call6.v7.ref, main_call6.v8.ref, main_call6.v9.ref, main_call6.v10.ref, main_call6.v11.ref, main_call6.v12.ref,
   main_v133, main_v134, main_v135, main_v136, main_v137, main_v138, main_v139]

theorem ops6_writes :
    (ops6 : List (HloOp τ sig (Elt F))).Forall fun op => op.writes ⊆ (ops6_W.map (Proc.devRef (τ := τ) .tc)).toFinset := by
  simp only [List.Forall]
  repeat' apply And.intro
  all_goals exact writes_sub_of_mem rfl (by decide)

/-- A buffer that operations 165 … 251 do not write keeps its contents. -/
theorem ops6_keep (W : Valuation τ sig (Elt F)) {r : Ref sig .tc} (h : r ∉ ops6_W) :
    after ops6 W (Proc.devRef .tc r) = W (Proc.devRef .tc r) :=
  after_of_writes_sub ops6 W ops6_writes h

attribute [local irreducible] Host.gather Host.scatterAdd Host.reduceAdd concatenate

set_option maxHeartbeats 1000000 in
/-- The node count of each graph. -/
theorem ops5_v91 (W : Valuation τ sig (Elt F)) :
    after ops5 W (Proc.devRef .tc main_v91) = Cert.Spec.cnt (W (Proc.devRef .tc main_arg2)) := by
  show after ops5 W (Proc.devRef .tc main_v91) = _
  after_results_simp
  rfl

set_option maxHeartbeats 1000000 in
/-- The feature rows summed per graph. -/
theorem ops5_v94 (W : Valuation τ sig (Elt F)) :
    after ops5 W (Proc.devRef .tc main_v94)
      = Cert.Spec.pooledSum (W (Proc.devRef .tc main_v87)) (W (Proc.devRef .tc main_arg2)) := by
  show after ops5 W (Proc.devRef .tc main_v94) = _
  after_results_simp
  rfl

set_option maxHeartbeats 1000000 in
/-- The column of max(count, 1). -/
theorem ops5_v97 (W : Valuation τ sig (Elt F)) :
    after ops5 W (Proc.devRef .tc main_v97)
      = broadcastInDim S64x1 ![0] bcast_S64_S64x1_0
          (maximumf (Cert.Spec.cnt (W (Proc.devRef .tc main_arg2)))
            (broadcastInDim S64 ![] bcast_S_S64 (constant S_ .f32 0x3F800000#32))) := by
  show after ops5 W (Proc.devRef .tc main_v97) = _
  after_results_simp
  rfl

set_option maxHeartbeats 4000000 in
/-- The head, from the per-graph sums and a column that is max(cn, 1) for some counts cn. -/
theorem ops6_v139 (W : Valuation τ sig (Elt F)) (cn : Cert.Spec.FA F S64)
    (h97 : W (Proc.devRef .tc main_v97)
      = broadcastInDim S64x1 ![0] bcast_S64_S64x1_0
          (maximumf cn (broadcastInDim S64 ![] bcast_S_S64 (constant S_ .f32 0x3F800000#32)))) :
    after ops6 W (Proc.devRef .tc main_v139)
      = Cert.Spec.head (W (Proc.devRef .tc main_v94)) cn (W (Proc.devRef .tc main_arg10)) (W (Proc.devRef .tc main_arg11))
          (W (Proc.devRef .tc main_arg12)) (W (Proc.devRef .tc main_arg13))
          (Cert.Spec.wv (W (Proc.devRef .tc main_arg14)) (W (Proc.devRef .tc main_arg15)) (W (Proc.devRef .tc main_arg16)))
          (Cert.Spec.bbv (W (Proc.devRef .tc main_arg17)) (W (Proc.devRef .tc main_arg18)) (W (Proc.devRef .tc main_arg19))) := by
  show after ops6 W (Proc.devRef .tc main_v139) = _
  after_results_simp
  rw [h97]
  rfl

end Cert.ReferenceIdeal.Hand

end
-- ==== Proof.RefVal.lean ====
/-
  The plain program read back as the staged functions of its arguments. The whole line is the seven stretches one after
  the other, so its fold is the stretches' folds composed; each stretch's result buffers are the stage functions of the
  buffers it reads, and every buffer a stretch does not write passes through it. Chaining these from the launch contents:
  the edge list and its coefficient, the three layers, the per-graph sums and counts, and the head at the result buffer.
  No operation writes an argument, so each argument buffer ends as it started.
-/
import proofs.«401103_j7610682049034_2_alg».proof.Proof.RefVal0
import proofs.«401103_j7610682049034_2_alg».proof.Proof.RefVal1
import proofs.«401103_j7610682049034_2_alg».proof.Proof.RefVal2
import proofs.«401103_j7610682049034_2_alg».proof.Proof.RefVal3

set_option maxRecDepth 8192

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ## The contents after each stretch -/

/-- The contents after operations 1 … 45. -/
def upto0 (V : Valuation τ sig (Elt F)) : Valuation τ sig (Elt F) := after ops0 V
/-- The contents after operations 1 … 62. -/
def upto1 (V : Valuation τ sig (Elt F)) : Valuation τ sig (Elt F) := after ops1 (upto0 V)
/-- The contents after operations 1 … 80. -/
def upto2 (V : Valuation τ sig (Elt F)) : Valuation τ sig (Elt F) := after ops2 (upto1 V)
/-- The contents after operations 1 … 115. -/
def upto3 (V : Valuation τ sig (Elt F)) : Valuation τ sig (Elt F) := after ops3 (upto2 V)
/-- The contents after operations 1 … 150. -/
def upto4 (V : Valuation τ sig (Elt F)) : Valuation τ sig (Elt F) := after ops4 (upto3 V)
/-- The contents after operations 1 … 164. -/
def upto5 (V : Valuation τ sig (Elt F)) : Valuation τ sig (Elt F) := after ops5 (upto4 V)

/-- The fold over the whole line is the last stretch's fold over the contents after the first six. -/
theorem after_ops (V : Valuation τ sig (Elt F)) : after ops V = after ops6 (upto5 V) := by
  show after (ops0 ++ (ops1 ++ (ops2 ++ (ops3 ++ (ops4 ++ (ops5 ++ ops6)))))) V = _
  rw [after_append, after_append, after_append, after_append, after_append, after_append]
  rfl

/-! ## Buffers that pass through -/

section Keep

variable (V : Valuation τ sig (Elt F)) {r : Ref sig .tc}

theorem upto0_keep (h0 : r ∉ ops0_W) : upto0 V (Proc.devRef .tc r) = V (Proc.devRef .tc r) := ops0_keep V h0
theorem upto1_keep (h0 : r ∉ ops0_W) (h1 : r ∉ ops1_W) : upto1 V (Proc.devRef .tc r) = V (Proc.devRef .tc r) :=
  (ops1_keep (upto0 V) h1).trans (upto0_keep V h0)
theorem upto2_keep (h0 : r ∉ ops0_W) (h1 : r ∉ ops1_W) (h2 : r ∉ ops2_W) : upto2 V (Proc.devRef .tc r) = V (Proc.devRef .tc r) :=
  (ops2_keep (upto1 V) h2).trans (upto1_keep V h0 h1)
theorem upto3_keep (h0 : r ∉ ops0_W) (h1 : r ∉ ops1_W) (h2 : r ∉ ops2_W) (h3 : r ∉ ops3_W) :
    upto3 V (Proc.devRef .tc r) = V (Proc.devRef .tc r) :=
  (ops3_keep (upto2 V) h3).trans (upto2_keep V h0 h1 h2)
theorem upto4_keep (h0 : r ∉ ops0_W) (h1 : r ∉ ops1_W) (h2 : r ∉ ops2_W) (h3 : r ∉ ops3_W) (h4 : r ∉ ops4_W) :
    upto4 V (Proc.devRef .tc r) = V (Proc.devRef .tc r) :=
  (ops4_keep (upto3 V) h4).trans (upto3_keep V h0 h1 h2 h3)
theorem upto5_keep (h0 : r ∉ ops0_W) (h1 : r ∉ ops1_W) (h2 : r ∉ ops2_W) (h3 : r ∉ ops3_W) (h4 : r ∉ ops4_W)
    (h5 : r ∉ ops5_W) : upto5 V (Proc.devRef .tc r) = V (Proc.devRef .tc r) :=
  (ops5_keep (upto4 V) h5).trans (upto4_keep V h0 h1 h2 h3 h4)

/-- A buffer that no stretch writes ends as it started. -/
theorem ops_keep (h0 : r ∉ ops0_W) (h1 : r ∉ ops1_W) (h2 : r ∉ ops2_W) (h3 : r ∉ ops3_W) (h4 : r ∉ ops4_W)
    (h5 : r ∉ ops5_W) (h6 : r ∉ ops6_W) : after ops V (Proc.devRef .tc r) = V (Proc.devRef .tc r) := by
  rw [after_ops]
  exact (ops6_keep (upto5 V) h6).trans (upto5_keep V h0 h1 h2 h3 h4 h5)

/-- A buffer of the first stretch that the first layer does not write is still there after the first layer's sum … -/
theorem upto1_from0 (h1 : r ∉ ops1_W) : upto1 V (Proc.devRef .tc r) = upto0 V (Proc.devRef .tc r) := ops1_keep (upto0 V) h1
/-- … after its bias and elu … -/
theorem upto2_from0 (h1 : r ∉ ops1_W) (h2 : r ∉ ops2_W) : upto2 V (Proc.devRef .tc r) = upto0 V (Proc.devRef .tc r) :=
  (ops2_keep (upto1 V) h2).trans (upto1_from0 V h1)
/-- … and after the second layer. -/
theorem upto3_from0 (h1 : r ∉ ops1_W) (h2 : r ∉ ops2_W) (h3 : r ∉ ops3_W) : upto3 V (Proc.devRef .tc r) = upto0 V (Proc.devRef .tc r) :=
  (ops3_keep (upto2 V) h3).trans (upto2_from0 V h1 h2)

end Keep

/-! ## The stages from the launch contents -/

section Stages

variable (V : Valuation τ sig (Elt F))

/-- The source row of the launch's edge list. -/
abbrev srcOf : Cert.Spec.IA F S740000 := Cert.Spec.src (V (Proc.devRef .tc main_arg1))
/-- The destination row of the launch's edge list. -/
abbrev dstOf : Cert.Spec.IA F S740000 := Cert.Spec.dst (V (Proc.devRef .tc main_arg1))
/-- The per-edge coefficient of the launch's graph. -/
abbrev coefOf : Cert.Spec.FA F S740000 := Cert.Spec.norm (V (Proc.devRef .tc main_arg1)) (V (Proc.devRef .tc main_arg3))
/-- The first layer's output. -/
abbrev layer1 : Cert.Spec.FA F S100000x128 :=
  Cert.Spec.eluB128 (Cert.Spec.agg128 (Cert.Spec.mm128 (V (Proc.devRef .tc main_arg0)) (V (Proc.devRef .tc main_arg4)))
    (srcOf V) (dstOf V) (coefOf V)) (V (Proc.devRef .tc main_arg5))
/-- The second layer's output. -/
abbrev layer2 : Cert.Spec.FA F S100000x64 :=
  Cert.Spec.eluB64 (Cert.Spec.agg64 (Cert.Spec.mm64 (layer1 V) (V (Proc.devRef .tc main_arg6)))
    (srcOf V) (dstOf V) (coefOf V)) (V (Proc.devRef .tc main_arg7))
/-- The third layer's output. -/
abbrev layer3 : Cert.Spec.FA F S100000x32 :=
  Cert.Spec.eluB32 (Cert.Spec.agg32 (Cert.Spec.mm32 (layer2 V) (V (Proc.devRef .tc main_arg8)))
    (srcOf V) (dstOf V) (coefOf V)) (V (Proc.devRef .tc main_arg9))

theorem upto0_v3 : upto0 V (Proc.devRef .tc main_v3) = srcOf V := ops0_v3 V
theorem upto0_v6 : upto0 V (Proc.devRef .tc main_v6) = dstOf V := ops0_v6 V
theorem upto0_v33 : upto0 V (Proc.devRef .tc main_v33) = coefOf V := ops0_v33 V

/-- The first layer's neighbourhood sum. -/
theorem upto1_v47 : upto1 V (Proc.devRef .tc main_v47)
    = Cert.Spec.agg128 (Cert.Spec.mm128 (V (Proc.devRef .tc main_arg0)) (V (Proc.devRef .tc main_arg4))) (srcOf V) (dstOf V) (coefOf V) := by
  show after ops1 (upto0 V) (Proc.devRef .tc main_v47) = _
  rw [ops1_v47, upto0_keep V (r := main_arg0) (by decide), upto0_keep V (r := main_arg4) (by decide),
    upto0_v3, upto0_v6, upto0_v33]

/-- The first layer's output. -/
theorem upto2_v51 : upto2 V (Proc.devRef .tc main_v51) = layer1 V := by
  show after ops2 (upto1 V) (Proc.devRef .tc main_v51) = _
  rw [ops2_v51, upto1_v47, upto1_keep V (r := main_arg5) (by decide) (by decide)]

/-- The second layer's output. -/
theorem upto3_v69 : upto3 V (Proc.devRef .tc main_v69) = layer2 V := by
  show after ops3 (upto2 V) (Proc.devRef .tc main_v69) = _
  rw [ops3_v69, upto2_v51, upto2_keep V (r := main_arg6) (by decide) (by decide) (by decide),
    upto2_keep V (r := main_arg7) (by decide) (by decide) (by decide),
    upto2_from0 V (r := main_v3) (by decide) (by decide), upto2_from0 V (r := main_v6) (by decide) (by decide),
    upto2_from0 V (r := main_v33) (by decide) (by decide), upto0_v3, upto0_v6, upto0_v33]

/-- The third layer's output. -/
theorem upto4_v87 : upto4 V (Proc.devRef .tc main_v87) = layer3 V := by
  show after ops4 (upto3 V) (Proc.devRef .tc main_v87) = _
  rw [ops4_v87, upto3_v69, upto3_keep V (r := main_arg8) (by decide) (by decide) (by decide) (by decide),
    upto3_keep V (r := main_arg9) (by decide) (by decide) (by decide) (by decide),
    upto3_from0 V (r := main_v3) (by decide) (by decide) (by decide),
    upto3_from0 V (r := main_v6) (by decide) (by decide) (by decide),
    upto3_from0 V (r := main_v33) (by decide) (by decide) (by decide), upto0_v3, upto0_v6, upto0_v33]

/-- The per-graph sums of the third layer's output. -/
theorem upto5_v94 : upto5 V (Proc.devRef .tc main_v94) = Cert.Spec.pooledSum (layer3 V) (V (Proc.devRef .tc main_arg2)) := by
  show after ops5 (upto4 V) (Proc.devRef .tc main_v94) = _
  rw [ops5_v94, upto4_v87, upto4_keep V (r := main_arg2) (by decide) (by decide) (by decide) (by decide) (by decide)]

/-- The column of max(count, 1) over the launch's graph ids. -/
theorem upto5_v97 : upto5 V (Proc.devRef .tc main_v97)
    = broadcastInDim S64x1 ![0] bcast_S64_S64x1_0
        (maximumf (Cert.Spec.cnt (V (Proc.devRef .tc main_arg2)))
          (broadcastInDim S64 ![] bcast_S_S64 (constant S_ .f32 0x3F800000#32))) := by
  show after ops5 (upto4 V) (Proc.devRef .tc main_v97) = _
  rw [ops5_v97, upto4_keep V (r := main_arg2) (by decide) (by decide) (by decide) (by decide) (by decide)]

end Stages

/-! ## The result and the arguments -/

/-- The plain program's result buffer holds the network of its arguments. -/
theorem refVal (V : Valuation τ sig (Elt F)) :
    after ops V (Proc.devRef .tc main_v139)
      = Cert.Spec.head
          (Cert.Spec.pooledSum
            (Cert.Spec.eluB32 (Cert.Spec.agg32 (Cert.Spec.mm32
              (Cert.Spec.eluB64 (Cert.Spec.agg64 (Cert.Spec.mm64
                (Cert.Spec.eluB128 (Cert.Spec.agg128 (Cert.Spec.mm128 (V (Proc.devRef .tc main_arg0)) (V (Proc.devRef .tc main_arg4)))
                  (Cert.Spec.src (V (Proc.devRef .tc main_arg1))) (Cert.Spec.dst (V (Proc.devRef .tc main_arg1)))
                  (Cert.Spec.norm (V (Proc.devRef .tc main_arg1)) (V (Proc.devRef .tc main_arg3)))) (V (Proc.devRef .tc main_arg5)))
                (V (Proc.devRef .tc main_arg6)))
                (Cert.Spec.src (V (Proc.devRef .tc main_arg1))) (Cert.Spec.dst (V (Proc.devRef .tc main_arg1)))
                (Cert.Spec.norm (V (Proc.devRef .tc main_arg1)) (V (Proc.devRef .tc main_arg3)))) (V (Proc.devRef .tc main_arg7)))
              (V (Proc.devRef .tc main_arg8)))
              (Cert.Spec.src (V (Proc.devRef .tc main_arg1))) (Cert.Spec.dst (V (Proc.devRef .tc main_arg1)))
              (Cert.Spec.norm (V (Proc.devRef .tc main_arg1)) (V (Proc.devRef .tc main_arg3)))) (V (Proc.devRef .tc main_arg9)))
            (V (Proc.devRef .tc main_arg2)))
          (Cert.Spec.cnt (V (Proc.devRef .tc main_arg2))) (V (Proc.devRef .tc main_arg10)) (V (Proc.devRef .tc main_arg11))
          (V (Proc.devRef .tc main_arg12)) (V (Proc.devRef .tc main_arg13))
          (Cert.Spec.wv (V (Proc.devRef .tc main_arg14)) (V (Proc.devRef .tc main_arg15)) (V (Proc.devRef .tc main_arg16)))
          (Cert.Spec.bbv (V (Proc.devRef .tc main_arg17)) (V (Proc.devRef .tc main_arg18)) (V (Proc.devRef .tc main_arg19))) := by
  rw [after_ops, ops6_v139 (upto5 V) (Cert.Spec.cnt (V (Proc.devRef .tc main_arg2))) (upto5_v97 V), upto5_v94,
    upto5_keep V (r := main_arg10) (by decide) (by decide) (by decide) (by decide) (by decide) (by decide),
    upto5_keep V (r := main_arg11) (by decide) (by decide) (by decide) (by decide) (by decide) (by decide),
    upto5_keep V (r := main_arg12) (by decide) (by decide) (by decide) (by decide) (by decide) (by decide),
    upto5_keep V (r := main_arg13) (by decide) (by decide) (by decide) (by decide) (by decide) (by decide),
    upto5_keep V (r := main_arg14) (by decide) (by decide) (by decide) (by decide) (by decide) (by decide),
    upto5_keep V (r := main_arg15) (by decide) (by decide) (by decide) (by decide) (by decide) (by decide),
    upto5_keep V (r := main_arg16) (by decide) (by decide) (by decide) (by decide) (by decide) (by decide),
    upto5_keep V (r := main_arg17) (by decide) (by decide) (by decide) (by decide) (by decide) (by decide),
    upto5_keep V (r := main_arg18) (by decide) (by decide) (by decide) (by decide) (by decide) (by decide),
    upto5_keep V (r := main_arg19) (by decide) (by decide) (by decide) (by decide) (by decide) (by decide)]

/-- No operation writes argument 0. -/
theorem refArg_0 (V : Valuation τ sig (Elt F)) : after ops V (Proc.devRef .tc main_arg0) = V (Proc.devRef .tc main_arg0) :=
  ops_keep V (by decide) (by decide) (by decide) (by decide) (by decide) (by decide) (by decide)
/-- No operation writes argument 1. -/
theorem refArg_1 (V : Valuation τ sig (Elt F)) : after ops V (Proc.devRef .tc main_arg1) = V (Proc.devRef .tc main_arg1) :=
  ops_keep V (by decide) (by decide) (by decide) (by decide) (by decide) (by decide) (by decide)
/-- No operation writes argument 2. -/
theorem refArg_2 (V : Valuation τ sig (Elt F)) : after ops V (Proc.devRef .tc main_arg2) = V (Proc.devRef .tc main_arg2) :=
  ops_keep V (by decide) (by decide) (by decide) (by decide) (by decide) (by decide) (by decide)
/-- No operation writes argument 3. -/
theorem refArg_3 (V : Valuation τ sig (Elt F)) : after ops V (Proc.devRef .tc main_arg3) = V (Proc.devRef .tc main_arg3) :=
  ops_keep V (by decide) (by decide) (by decide) (by decide) (by decide) (by decide) (by decide)
/-- No operation writes argument 4. -/
theorem refArg_4 (V : Valuation τ sig (Elt F)) : after ops V (Proc.devRef .tc main_arg4) = V (Proc.devRef .tc main_arg4) :=
  ops_keep V (by decide) (by decide) (by decide) (by decide) (by decide) (by decide) (by decide)
/-- No operation writes argument 5. -/
theorem refArg_5 (V : Valuation τ sig (Elt F)) : after ops V (Proc.devRef .tc main_arg5) = V (Proc.devRef .tc main_arg5) :=
  ops_keep V (by decide) (by decide) (by decide) (by decide) (by decide) (by decide) (by decide)
/-- No operation writes argument 6. -/
theorem refArg_6 (V : Valuation τ sig (Elt F)) : after ops V (Proc.devRef .tc main_arg6) = V (Proc.devRef .tc main_arg6) :=
  ops_keep V (by decide) (by decide) (by decide) (by decide) (by decide) (by decide) (by decide)
/-- No operation writes argument 7. -/
theorem refArg_7 (V : Valuation τ sig (Elt F)) : after ops V (Proc.devRef .tc main_arg7) = V (Proc.devRef .tc main_arg7) :=
  ops_keep V (by decide) (by decide) (by decide) (by decide) (by decide) (by decide) (by decide)
/-- No operation writes argument 8. -/
theorem refArg_8 (V : Valuation τ sig (Elt F)) : after ops V (Proc.devRef .tc main_arg8) = V (Proc.devRef .tc main_arg8) :=
  ops_keep V (by decide) (by decide) (by decide) (by decide) (by decide) (by decide) (by decide)
/-- No operation writes argument 9. -/
theorem refArg_9 (V : Valuation τ sig (Elt F)) : after ops V (Proc.devRef .tc main_arg9) = V (Proc.devRef .tc main_arg9) :=
  ops_keep V (by decide) (by decide) (by decide) (by decide) (by decide) (by decide) (by decide)
/-- No operation writes argument 10. -/
theorem refArg_10 (V : Valuation τ sig (Elt F)) : after ops V (Proc.devRef .tc main_arg10) = V (Proc.devRef .tc main_arg10) :=
  ops_keep V (by decide) (by decide) (by decide) (by decide) (by decide) (by decide) (by decide)
/-- No operation writes argument 11. -/
theorem refArg_11 (V : Valuation τ sig (Elt F)) : after ops V (Proc.devRef .tc main_arg11) = V (Proc.devRef .tc main_arg11) :=
  ops_keep V (by decide) (by decide) (by decide) (by decide) (by decide) (by decide) (by decide)
/-- No operation writes argument 12. -/
theorem refArg_12 (V : Valuation τ sig (Elt F)) : after ops V (Proc.devRef .tc main_arg12) = V (Proc.devRef .tc main_arg12) :=
  ops_keep V (by decide) (by decide) (by decide) (by decide) (by decide) (by decide) (by decide)
/-- No operation writes argument 13. -/
theorem refArg_13 (V : Valuation τ sig (Elt F)) : after ops V (Proc.devRef .tc main_arg13) = V (Proc.devRef .tc main_arg13) :=
  ops_keep V (by decide) (by decide) (by decide) (by decide) (by decide) (by decide) (by decide)
/-- No operation writes argument 14. -/
theorem refArg_14 (V : Valuation τ sig (Elt F)) : after ops V (Proc.devRef .tc main_arg14) = V (Proc.devRef .tc main_arg14) :=
  ops_keep V (by decide) (by decide) (by decide) (by decide) (by decide) (by decide) (by decide)
/-- No operation writes argument 15. -/
theorem refArg_15 (V : Valuation τ sig (Elt F)) : after ops V (Proc.devRef .tc main_arg15) = V (Proc.devRef .tc main_arg15) :=
  ops_keep V (by decide) (by decide) (by decide) (by decide) (by decide) (by decide) (by decide)
/-- No operation writes argument 16. -/
theorem refArg_16 (V : Valuation τ sig (Elt F)) : after ops V (Proc.devRef .tc main_arg16) = V (Proc.devRef .tc main_arg16) :=
  ops_keep V (by decide) (by decide) (by decide) (by decide) (by decide) (by decide) (by decide)
/-- No operation writes argument 17. -/
theorem refArg_17 (V : Valuation τ sig (Elt F)) : after ops V (Proc.devRef .tc main_arg17) = V (Proc.devRef .tc main_arg17) :=
  ops_keep V (by decide) (by decide) (by decide) (by decide) (by decide) (by decide) (by decide)
/-- No operation writes argument 18. -/
theorem refArg_18 (V : Valuation τ sig (Elt F)) : after ops V (Proc.devRef .tc main_arg18) = V (Proc.devRef .tc main_arg18) :=
  ops_keep V (by decide) (by decide) (by decide) (by decide) (by decide) (by decide) (by decide)
/-- No operation writes argument 19. -/
theorem refArg_19 (V : Valuation τ sig (Elt F)) : after ops V (Proc.devRef .tc main_arg19) = V (Proc.devRef .tc main_arg19) :=
  ops_keep V (by decide) (by decide) (by decide) (by decide) (by decide) (by decide) (by decide)

end Cert.ReferenceIdeal.Hand

end
-- ==== Proof.lean ====
/-
  The certificate's claims.
  The kernel program and the plain program compute one network on the extended reals: three graph-convolution layers
  (node features times a weight matrix; for every node the sum over its incoming edges, self loops included, of the
  source's row scaled by d(src)^(-1/2) · w · d(dst)^(-1/2); a bias; elu), the per-graph sums and node counts, and a head
  (mean, layer normalisation, a linear layer, elu, the product with a sampled weight row plus a sampled bias).
  The kernel program tiles the dense stages over ten blocks of 10000 nodes and leaves gather and scatter-add to the same
  host operations as the plain program; at exact arithmetic a block of a product is the product's block, rounding to a
  shorter float is the identity, elu spelled exp y − 1 is elu spelled 1 · expm1 y, and a one-hot product summed over
  the blocks is the scatter-add over the graph ids, so each of the kernel program's arrays is the same function of the
  arguments as the plain program's (module Spec states those functions). The kernel program's result is named by the
  fold of its segments (KerRun), read stage by stage (KerChain over the regions' values), the plain program's by the fold
  of its operations (RefRun, RefVal); both are the network applied to the arguments, which agree.
  Nothing is rewritten by the idealisation, so its claim is trivial; the three frames are the programs' runs with the
  result dropped.
-/
import proofs.«401103_j7610682049034_2_alg».proof.Defs
import proofs.«401103_j7610682049034_2_alg».proof.Proof.Gen.Kernel
import proofs.«401103_j7610682049034_2_alg».proof.Proof.Gen.Kernel.Frame
import proofs.«401103_j7610682049034_2_alg».proof.Proof.Gen.KernelIdeal
import proofs.«401103_j7610682049034_2_alg».proof.Proof.Gen.KernelIdeal.Frame
import proofs.«401103_j7610682049034_2_alg».proof.Proof.Gen.ReferenceIdeal
import proofs.«401103_j7610682049034_2_alg».proof.Proof.Gen.Pre_finite_inputs
import proofs.«401103_j7610682049034_2_alg».proof.Proof.KerRun
import proofs.«401103_j7610682049034_2_alg».proof.Proof.KerPre
import proofs.«401103_j7610682049034_2_alg».proof.Proof.KerMM0
import proofs.«401103_j7610682049034_2_alg».proof.Proof.KerMM2
import proofs.«401103_j7610682049034_2_alg».proof.Proof.KerMM4
import proofs.«401103_j7610682049034_2_alg».proof.Proof.KerElu
import proofs.«401103_j7610682049034_2_alg».proof.Proof.KerPool
import proofs.«401103_j7610682049034_2_alg».proof.Proof.KerHead
import proofs.«401103_j7610682049034_2_alg».proof.Proof.KerChain
import proofs.«401103_j7610682049034_2_alg».proof.Proof.RefRun
import proofs.«401103_j7610682049034_2_alg».proof.Proof.RefVal
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The plain program is a straight line of host operations none of which writes an argument. -/
theorem frame_ri : Cert.frame_ReferenceIdeal := fun m ρ _ =>
  (θ_run Cert.ReferenceIdeal.defs _ _).mono
    (fun _ h c => ⟨(h c _).trans (Cert.ReferenceIdeal.Hand.refArg_0 _),
      (h c _).trans (Cert.ReferenceIdeal.Hand.refArg_1 _),
      (h c _).trans (Cert.ReferenceIdeal.Hand.refArg_2 _),
      (h c _).trans (Cert.ReferenceIdeal.Hand.refArg_3 _),
      (h c _).trans (Cert.ReferenceIdeal.Hand.refArg_4 _),
      (h c _).trans (Cert.ReferenceIdeal.Hand.refArg_5 _),
      (h c _).trans (Cert.ReferenceIdeal.Hand.refArg_6 _),
      (h c _).trans (Cert.ReferenceIdeal.Hand.refArg_7 _),
      (h c _).trans (Cert.ReferenceIdeal.Hand.refArg_8 _),
      (h c _).trans (Cert.ReferenceIdeal.Hand.refArg_9 _),
      (h c _).trans (Cert.ReferenceIdeal.Hand.refArg_10 _),
      (h c _).trans (Cert.ReferenceIdeal.Hand.refArg_11 _),
      (h c _).trans (Cert.ReferenceIdeal.Hand.refArg_12 _),
      (h c _).trans (Cert.ReferenceIdeal.Hand.refArg_13 _),
      (h c _).trans (Cert.ReferenceIdeal.Hand.refArg_14 _),
      (h c _).trans (Cert.ReferenceIdeal.Hand.refArg_15 _),
      (h c _).trans (Cert.ReferenceIdeal.Hand.refArg_16 _),
      (h c _).trans (Cert.ReferenceIdeal.Hand.refArg_17 _),
      (h c _).trans (Cert.ReferenceIdeal.Hand.refArg_18 _),
      (h c _).trans (Cert.ReferenceIdeal.Hand.refArg_19 _)⟩)
    (Cert.ReferenceIdeal.Hand.run_main (F := Ideal) m ρ)

/-- The idealisation rewrote no operation. -/
theorem preserves : Cert.preserves_Kernel_KernelIdeal := trivial

set_option maxHeartbeats 400000 in
/-- From memories that agree on the arguments both programs end with the network's value in their result buffers:
    the kernel program's is the fold of its segments at the result buffer, read as the network of its launch memory;
    the plain program's is the fold of its operations, read as the network of its own launch memory; the two memories
    hold the same arguments. -/
theorem algebraic : Cert.algebraic_KernelIdeal_ReferenceIdeal := by
  intro m ρ m' ρ' _ hagree
  refine ⟨fun c => Cert.KernelIdeal.Gen.W19 m ρ c (Proc.devRef .tc Cert.KernelIdeal.main_v94),
    Cert.KernelIdeal.Hand.run_named m ρ, ?_⟩
  refine (θ_run Cert.ReferenceIdeal.defs _ _).mono (fun _ h c => ⟨(h c _).trans ?_,
      (h c _).trans (Cert.ReferenceIdeal.Hand.refArg_0 _),
      (h c _).trans (Cert.ReferenceIdeal.Hand.refArg_1 _),
      (h c _).trans (Cert.ReferenceIdeal.Hand.refArg_2 _),
      (h c _).trans (Cert.ReferenceIdeal.Hand.refArg_3 _),
      (h c _).trans (Cert.ReferenceIdeal.Hand.refArg_4 _),
      (h c _).trans (Cert.ReferenceIdeal.Hand.refArg_5 _),
      (h c _).trans (Cert.ReferenceIdeal.Hand.refArg_6 _),
      (h c _).trans (Cert.ReferenceIdeal.Hand.refArg_7 _),
      (h c _).trans (Cert.ReferenceIdeal.Hand.refArg_8 _),
      (h c _).trans (Cert.ReferenceIdeal.Hand.refArg_9 _),
      (h c _).trans (Cert.ReferenceIdeal.Hand.refArg_10 _),
      (h c _).trans (Cert.ReferenceIdeal.Hand.refArg_11 _),
      (h c _).trans (Cert.ReferenceIdeal.Hand.refArg_12 _),
      (h c _).trans (Cert.ReferenceIdeal.Hand.refArg_13 _),
      (h c _).trans (Cert.ReferenceIdeal.Hand.refArg_14 _),
      (h c _).trans (Cert.ReferenceIdeal.Hand.refArg_15 _),
      (h c _).trans (Cert.ReferenceIdeal.Hand.refArg_16 _),
      (h c _).trans (Cert.ReferenceIdeal.Hand.refArg_17 _),
      (h c _).trans (Cert.ReferenceIdeal.Hand.refArg_18 _),
      (h c _).trans (Cert.ReferenceIdeal.Hand.refArg_19 _)⟩)
    (Cert.ReferenceIdeal.Hand.run_main (F := Ideal) m' ρ')
  have hk := Cert.KernelIdeal.Hand.kerVal
    (fun V c => Cert.KernelIdeal.Hand.reg0_val V c)
    (fun V c b hb => Cert.KernelIdeal.Hand.reg1_val V c b hb)
    (fun V c => Cert.KernelIdeal.Hand.reg2_val V c)
    (fun V c b hb => Cert.KernelIdeal.Hand.reg3_val V c b hb)
    (fun V c => Cert.KernelIdeal.Hand.reg4_val V c)
    (fun V c b hb => Cert.KernelIdeal.Hand.reg5_val V c b hb)
    (fun V c batch hb => Cert.KernelIdeal.Hand.reg6_val V c batch hb)
    (fun V c cn g b fb bb hcn hg hb hfb hbb => Cert.KernelIdeal.Hand.reg7_val V c cn g b fb bb hcn hg hb hfb hbb)
    (fun m ρ c => ⟨Cert.KernelIdeal.Hand.pre_src m ρ c, Cert.KernelIdeal.Hand.pre_dst m ρ c, Cert.KernelIdeal.Hand.pre_norm m ρ c⟩)
    m ρ c
  have hr := Cert.ReferenceIdeal.Hand.refVal (F := Ideal) (StableHlo.launchContents m' c)
  obtain ⟨e0, e1, e2, e3, e4, e5, e6, e7, e8, e9, e10, e11, e12, e13, e14, e15, e16, e17, e18, e19⟩ := hagree c
  have e0' : StableHlo.launchContents m' c (Proc.devRef .tc Cert.ReferenceIdeal.main_arg0) = m ((c.tc : Thread Cert.KernelIdeal.nD Cert.KernelIdeal.τ).loc Cert.KernelIdeal.main_arg0) := e0
  have e1' : StableHlo.launchContents m' c (Proc.devRef .tc Cert.ReferenceIdeal.main_arg1) = m ((c.tc : Thread Cert.KernelIdeal.nD Cert.KernelIdeal.τ).loc Cert.KernelIdeal.main_arg1) := e1
  have e2' : StableHlo.launchContents m' c (Proc.devRef .tc Cert.ReferenceIdeal.main_arg2) = m ((c.tc : Thread Cert.KernelIdeal.nD Cert.KernelIdeal.τ).loc Cert.KernelIdeal.main_arg2) := e2
  have e3' : StableHlo.launchContents m' c (Proc.devRef .tc Cert.ReferenceIdeal.main_arg3) = m ((c.tc : Thread Cert.KernelIdeal.nD Cert.KernelIdeal.τ).loc Cert.KernelIdeal.main_arg3) := e3
  have e4' : StableHlo.launchContents m' c (Proc.devRef .tc Cert.ReferenceIdeal.main_arg4) = m ((c.tc : Thread Cert.KernelIdeal.nD Cert.KernelIdeal.τ).loc Cert.KernelIdeal.main_arg4) := e4
  have e5' : StableHlo.launchContents m' c (Proc.devRef .tc Cert.ReferenceIdeal.main_arg5) = m ((c.tc : Thread Cert.KernelIdeal.nD Cert.KernelIdeal.τ).loc Cert.KernelIdeal.main_arg5) := e5
  have e6' : StableHlo.launchContents m' c (Proc.devRef .tc Cert.ReferenceIdeal.main_arg6) = m ((c.tc : Thread Cert.KernelIdeal.nD Cert.KernelIdeal.τ).loc Cert.KernelIdeal.main_arg6) := e6
  have e7' : StableHlo.launchContents m' c (Proc.devRef .tc Cert.ReferenceIdeal.main_arg7) = m ((c.tc : Thread Cert.KernelIdeal.nD Cert.KernelIdeal.τ).loc Cert.KernelIdeal.main_arg7) := e7
  have e8' : StableHlo.launchContents m' c (Proc.devRef .tc Cert.ReferenceIdeal.main_arg8) = m ((c.tc : Thread Cert.KernelIdeal.nD Cert.KernelIdeal.τ).loc Cert.KernelIdeal.main_arg8) := e8
  have e9' : StableHlo.launchContents m' c (Proc.devRef .tc Cert.ReferenceIdeal.main_arg9) = m ((c.tc : Thread Cert.KernelIdeal.nD Cert.KernelIdeal.τ).loc Cert.KernelIdeal.main_arg9) := e9
  have e10' : StableHlo.launchContents m' c (Proc.devRef .tc Cert.ReferenceIdeal.main_arg10) = m ((c.tc : Thread Cert.KernelIdeal.nD Cert.KernelIdeal.τ).loc Cert.KernelIdeal.main_arg10) := e10
  have e11' : StableHlo.launchContents m' c (Proc.devRef .tc Cert.ReferenceIdeal.main_arg11) = m ((c.tc : Thread Cert.KernelIdeal.nD Cert.KernelIdeal.τ).loc Cert.KernelIdeal.main_arg11) := e11
  have e12' : StableHlo.launchContents m' c (Proc.devRef .tc Cert.ReferenceIdeal.main_arg12) = m ((c.tc : Thread Cert.KernelIdeal.nD Cert.KernelIdeal.τ).loc Cert.KernelIdeal.main_arg12) := e12
  have e13' : StableHlo.launchContents m' c (Proc.devRef .tc Cert.ReferenceIdeal.main_arg13) = m ((c.tc : Thread Cert.KernelIdeal.nD Cert.KernelIdeal.τ).loc Cert.KernelIdeal.main_arg13) := e13
  have e14' : StableHlo.launchContents m' c (Proc.devRef .tc Cert.ReferenceIdeal.main_arg14) = m ((c.tc : Thread Cert.KernelIdeal.nD Cert.KernelIdeal.τ).loc Cert.KernelIdeal.main_arg14) := e14
  have e15' : StableHlo.launchContents m' c (Proc.devRef .tc Cert.ReferenceIdeal.main_arg15) = m ((c.tc : Thread Cert.KernelIdeal.nD Cert.KernelIdeal.τ).loc Cert.KernelIdeal.main_arg15) := e15
  have e16' : StableHlo.launchContents m' c (Proc.devRef .tc Cert.ReferenceIdeal.main_arg16) = m ((c.tc : Thread Cert.KernelIdeal.nD Cert.KernelIdeal.τ).loc Cert.KernelIdeal.main_arg16) := e16
  have e17' : StableHlo.launchContents m' c (Proc.devRef .tc Cert.ReferenceIdeal.main_arg17) = m ((c.tc : Thread Cert.KernelIdeal.nD Cert.KernelIdeal.τ).loc Cert.KernelIdeal.main_arg17) := e17
  have e18' : StableHlo.launchContents m' c (Proc.devRef .tc Cert.ReferenceIdeal.main_arg18) = m ((c.tc : Thread Cert.KernelIdeal.nD Cert.KernelIdeal.τ).loc Cert.KernelIdeal.main_arg18) := e18
  have e19' : StableHlo.launchContents m' c (Proc.devRef .tc Cert.ReferenceIdeal.main_arg19) = m ((c.tc : Thread Cert.KernelIdeal.nD Cert.KernelIdeal.τ).loc Cert.KernelIdeal.main_arg19) := e19
  rw [e0', e1', e2', e3', e4', e5', e6', e7', e8', e9', e10', e11', e12', e13', e14', e15', e16', e17', e18', e19'] at hr
  refine hr.trans ?_
  show _ = Cert.KernelIdeal.Gen.W19 m ρ c (Proc.devRef .tc Cert.KernelIdeal.main_v94)
  rw [hk]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
